-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2x128 : Shape := ⟨4, ![8, 1024, 2, 128]⟩
abbrev S8x16384x4x128 : Shape := ⟨4, ![8, 16384, 4, 128]⟩
abbrev S2x16384 : Shape := ⟨2, ![2, 16384]⟩
abbrev S128x128 : Shape := ⟨2, ![128, 128]⟩
abbrev S128 : Shape := ⟨1, ![128]⟩
abbrev S_ : Shape := ⟨0, ![]⟩

class Facts : Prop where
  bcast_S_S8x1024x2x128 : S_.BroadcastsInDim S8x1024x2x128 (![] : Fin 0 → Fin S8x1024x2x128.rank)
  reducesTo_S8x1024x2x128_S_d0_1_2_3 : S8x1024x2x128.ReducesTo [0, 1, 2, 3] S_
  h_S_ : 0 < S_.numel
  bcast_S_S8x16384x4x128 : S_.BroadcastsInDim S8x16384x4x128 (![] : Fin 0 → Fin S8x16384x4x128.rank)
  reducesTo_S8x16384x4x128_S_d0_1_2_3 : S8x16384x4x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x16384 : S_.BroadcastsInDim S2x16384 (![] : Fin 0 → Fin S2x16384.rank)
  reducesTo_S2x16384_S_d0_1 : S2x16384.ReducesTo [0, 1] S_

variable [Facts]

def fn_part2 {F : FTy → Type} [FloatOps F] (main_arg2 : IVec S2x16384 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S2x16384 32 := broadcastInDim S2x16384 ![] bcast_S_S2x16384 main_c_14
  let main_v40 : IVec S2x16384 1 := cmpi .sge main_arg2 main_v39
  let main_c_15 : IVec S_ 1 := constantI S_ 1 1#1
  let main_v41 : IVec S_ 1 := (fun x v => Host.reduce IntOp.andi x v reducesTo_S2x16384_S_d0_1 h_S_) main_v40 main_c_15
  let main_v42 : IVec S_ 1 := andi main_v38 main_v41
  let main_c_16 : IVec S_ 32 := constantI S_ 32 1024#32
  let main_v43 : IVec S2x16384 32 := broadcastInDim S2x16384 ![] bcast_S_S2x16384 main_c_16
  let main_v44 : IVec S2x16384 1 := cmpi .slt main_arg2 main_v43
  let main_c_17 : IVec S_ 1 := constantI S_ 1 1#1
  let main_v45 : IVec S_ 1 := (fun x v => Host.reduce IntOp.andi x v reducesTo_S2x16384_S_d0_1 h_S_) main_v44 main_c_17
  let main_v46 : IVec S_ 1 := andi main_v42 main_v45
  main_v46

def fn_part1 {F : FTy → Type} [FloatOps F] (main_arg2 : IVec S2x16384 32) (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_v33

def fn {F : FTy → Type} [FloatOps F] (main_arg0 : FVec F S8x1024x2x128 .f32) (main_arg1 : FVec F S8x16384x4x128 .f32) (main_arg2 : IVec S2x16384 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S8x1024x2x128 .f32 := Host.absf main_arg0
  let main_cst : FVec F S_ .f32 := constant S_ .f32 0x7F800000#32
  let main_v1 : FVec F S8x1024x2x128 .f32 := broadcastInDim S8x1024x2x128 ![] bcast_S_S8x1024x2x128 main_cst
  let main_v2 : IVec S8x1024x2x128 1 := cmpf .olt main_v0 main_v1
  let main_c : IVec S_ 1 := constantI S_ 1 1#1
  let main_v3 : IVec S_ 1 := (fun x v => Host.reduce IntOp.andi x v reducesTo_S8x1024x2x128_S_d0_1_2_3 h_S_) main_v2 main_c
  let main_v4 : FVec F S8x16384x4x128 .f32 := Host.absf main_arg1
  let main_cst_0 : FVec F S_ .f32 := constant S_ .f32 0x7F800000#32
  let main_v5 : FVec F S8x16384x4x128 .f32 := broadcastInDim S8x16384x4x128 ![] bcast_S_S8x16384x4x128 main_cst_0
  let main_v6 : IVec S8x16384x4x128 1 := cmpf .olt main_v4 main_v5
  let main_c_1 : IVec S_ 1 := constantI S_ 1 1#1
  let main_v7 : IVec S_ 1 := (fun x v => Host.reduce IntOp.andi x v reducesTo_S8x16384x4x128_S_d0_1_2_3 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_v13 main_v16
-- ==== Kernel.lean ====
abbrev S8x1024x2x128 : Shape := ⟨4, ![8, 1024, 2, 128]⟩
abbrev S8x16384x4x128 : Shape := ⟨4, ![8, 16384, 4, 128]⟩
abbrev S2x16384 : Shape := ⟨2, ![2, 16384]⟩
abbrev S128x128 : Shape := ⟨2, ![128, 128]⟩
abbrev S128 : Shape := ⟨1, ![128]⟩
abbrev S8x1024x256 : Shape := ⟨3, ![8, 1024, 256]⟩
abbrev S8x16384x512 : Shape := ⟨3, ![8, 16384, 512]⟩
abbrev S1x512x512 : Shape := ⟨3, ![1, 512, 512]⟩
abbrev S1x1024x256 : Shape := ⟨3, ![1, 1024, 256]⟩
abbrev S2x512 : Shape := ⟨2, ![2, 512]⟩
abbrev S1024x256 : Shape := ⟨2, ![1024, 256]⟩
abbrev S1x512 : Shape := ⟨2, ![1, 512]⟩
abbrev S512 : Shape := ⟨1, ![512]⟩
abbrev S512x1024 : Shape := ⟨2, ![512, 1024]⟩
abbrev S512x1 : Shape := ⟨2, ![512, 1]⟩
abbrev S512x256 : Shape := ⟨2, ![512, 256]⟩
abbrev S512x512 : Shape := ⟨2, ![512, 512]⟩
abbrev S512x128 : Shape := ⟨2, ![512, 128]⟩
abbrev S1024x128 : Shape := ⟨2, ![1024, 128]⟩
abbrev S1x128 : Shape := ⟨2, ![1, 128]⟩
abbrev S1x1024x128 : Shape := ⟨3, ![1, 1024, 128]⟩
abbrev S1x512x128 : Shape := ⟨3, ![1, 512, 128]⟩

abbrev nBuf : Space → Nat
  | .hbm => 15
  | .vmem => 17
  | .smem => 0
  | _ => 0

abbrev bufTy : (tb : Table) → Fin (tcTables nBuf tb) → BufTy
  | .hbm, ⟨0, _⟩ => ⟨S8x1024x2x128, .f32⟩
  | .hbm, ⟨1, _⟩ => ⟨S8x16384x4x128, .f32⟩
  | .hbm, ⟨2, _⟩ => ⟨S2x16384, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S8x1024x256, .f32⟩
  | .hbm, ⟨10, _⟩ => ⟨S8x16384x512, .f32⟩
  | .hbm, ⟨11, _⟩ => ⟨S8x1024x256, .f32⟩
  | .hbm, ⟨12, _⟩ => ⟨S8x16384x512, .f32⟩
  | .hbm, ⟨13, _⟩ => ⟨S8x1024x2x128, .f32⟩
  | .hbm, ⟨14, _⟩ => ⟨S8x16384x4x128, .f32⟩
  | .local _ .vmem, ⟨0, _⟩ => ⟨S1x512x512, .f32⟩
  | .local _ .vmem, ⟨1, _⟩ => ⟨S1x512x512, .f32⟩
  | .local _ .vmem, ⟨2, _⟩ => ⟨S1x1024x256, .f32⟩
  | .local _ .vmem, ⟨3, _⟩ => ⟨S1x1024x256, .f32⟩
  | .local _ .vmem, ⟨4, _⟩ => ⟨S2x512, .i32⟩
  | .local _ .vmem, ⟨5, _⟩ => ⟨S2x512, .i32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S1x1024x256, .f32⟩
  | .local _ .vmem, ⟨13, _⟩ => ⟨S1x1024x256, .f32⟩
  | .local _ .vmem, ⟨14, _⟩ => ⟨S1x512x512, .f32⟩
  | .local _ .vmem, ⟨15, _⟩ => ⟨S1x512x512, .f32⟩
  | .local _ .vmem, ⟨16, _⟩ => ⟨S1024x256, .f32⟩
  | _, _ => ⟨S8x1024x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v48 : BitVec 1 := Scalar.cmpi .eq arg1 c31_i32
  let v49 : BitVec 32 := Scalar.extui v48
  let c0_i32_19 : BitVec 32 := 0#32
  let v50 : BitVec 1 := Scalar.cmpi .ne v49 c0_i32_19
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S8x1024x2x128_S8x1024x256 : S8x1024x2x128.ShapeCasts S8x1024x256
  shapeCasts_S8x16384x4x128_S8x16384x512 : S8x16384x4x128.ShapeCasts S8x16384x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2x512_S1x512_0_0 : ∀ a, (![0, 0] : Fin 2 → Nat) a + S1x512.size a ≤ S2x512.size a
  h_S1x512 : 0 < S1x512.numel
  shapeCasts_S1x512_S512 : S1x512.ShapeCasts S512
  inb_S2x512_S1x512_1_0 : ∀ a, (![1, 0] : Fin 2 → Nat) a + S1x512.size a ≤ S2x512.size a
  iota_S512x1024_d1_w32 : S512x1024.Iotas .tc 32 [1]
  shapeCasts_S512_S512x1 : S512.ShapeCasts S512x1
  broadcasts_S512x1_S512x1024 : S512x1.Broadcasts S512x1024
  natLt_1_32 : 1 < 32
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  slices_S512x512_o0_0_S512x128 : S512x512.Slices ![0, 0] S512x128
  slices_S512x512_o0_128_S512x128 : S512x512.Slices ![0, 128] S512x128
  slices_S512x512_o0_256_S512x128 : S512x512.Slices ![0, 256] S512x128
  slices_S512x512_o0_384_S512x128 : S512x512.Slices ![0, 384] S512x128
  inb_S1024x256_S1024x128_0_0 : ∀ a, (![0, 0] : Fin 2 → Nat) a + S1024x128.size a ≤ S1024x256.size a
  h_S1024x128 : 0 < S1024x128.numel
  shapeCasts_S1024x128_S1024x128 : S1024x128.ShapeCasts S1024x128
  inb_S1024x256_S1024x128_0_128 : ∀ a, (![0, 128] : Fin 2 → Nat) a + S1024x128.size a ≤ S1024x256.size a
  slices_S1024x256_o0_0_S1024x128 : S1024x256.Slices ![0, 0] S1024x128
  slices_S1024x256_o0_128_S1024x128 : S1024x256.Slices ![0, 128] S1024x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1x1024x256_S1x1024x128_0_0_0 : ∀ a, (![0, 0, 0] : Fin 3 → Nat) a + S1x1024x128.size a ≤ S1x1024x256.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x1024x256_S1x1024x128_0_0_128 : ∀ a, (![0, 0, 128] : Fin 3 → Nat) a + S1x1024x128.size a ≤ S1x1024x256.size a
  slices_S512x256_o0_0_S512x128 : S512x256.Slices ![0, 0] S512x128
  slices_S512x256_o0_128_S512x128 : S512x256.Slices ![0, 128] S512x128
  broadcasts_S1x128_S512x128 : S1x128.Broadcasts S512x128
  inb_S1x512x512_S1x512x128_0_0_0 : ∀ a, (![0, 0, 0] : Fin 3 → Nat) a + S1x512x128.size a ≤ S1x512x512.size a
  h_S1x512x128 : 0 < S1x512x128.numel
  shapeCasts_S1x512x128_S512x128 : S1x512x128.ShapeCasts S512x128
  shapeCasts_S512x128_S1x512x128 : S512x128.ShapeCasts S1x512x128
  inb_S1x512x512_S1x512x128_0_0_128 : ∀ a, (![0, 0, 128] : Fin 3 → Nat) a + S1x512x128.size a ≤ S1x512x512.size a
  inb_S1x512x512_S1x512x128_0_0_256 : ∀ a, (![0, 0, 256] : Fin 3 → Nat) a + S1x512x128.size a ≤ S1x512x512.size a
  inb_S1x512x512_S1x512x128_0_0_384 : ∀ a, (![0, 0, 384] : Fin 3 → Nat) a + S1x512x128.size a ≤ S1x512x512.size a
  shapeCasts_S8x1024x256_S8x1024x2x128 : S8x1024x256.ShapeCasts S8x1024x2x128
  shapeCasts_S8x16384x512_S8x16384x4x128 : S8x16384x512.ShapeCasts S8x16384x4x128
  dot_S512x1024_S1024x256_S512x256_1_0_0_1_n_n_wf : DotDims.WF S512x1024 S1024x256 S512x256 [1] [0] [0] [1] [] []
  dot_S512x1024_S512x128_S1024x128_0_0_1_1_n_n_wf : DotDims.WF S512x1024 S512x128 S1024x128 [0] [0] [1] [1] [] []
  dot_S1024x128_S128x128_S1024x128_1_1_0_0_n_n_wf : DotDims.WF S1024x128 S128x128 S1024x128 [1] [1] [0] [0] [] []
  dot_S512x128_S128x128_S512x128_1_1_0_0_n_n_wf : DotDims.WF S512x128 S128x128 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x16384x512.size a
  hwx0_0 : ∀ i : grid0.Coords, EltTy.bits .f32 = 32 ∨ (Rect.block (s := S8x16384x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x1024x256.size a
  hwx0_1 : ∀ i : grid0.Coords, EltTy.bits .f32 = 32 ∨ (Rect.block (s := S8x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x16384.size a
  hwx0_2 : ∀ i : grid0.Coords, EltTy.bits .i32 = 32 ∨ (Rect.block (s := S2x16384) S2x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S8x1024x256.size a
  hwx0_9 : ∀ i : grid0.Coords, EltTy.bits .f32 = 32 ∨ (Rect.block (s := S8x1024x256) S1x1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x512.size a ≤ S8x16384x512.size a
  hwx0_10 : ∀ i : grid0.Coords, EltTy.bits .f32 = 32 ∨ (Rect.block (s := S8x16384x512) S1x512x512.size (cc0_transform_10 i) (hinb0_10 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x1024_S512x128_S1024x128_0_0_1_1_n_n : DotDims S512x1024 S512x128 S1024x128 where
  lhsContracting := [0]
  rhsContracting := [0]
  lhsNonContracting := [1]
  rhsNonContracting := [1]
  lhsBatch := []
  rhsBatch := []
  wf := dot_S512x1024_S512x128_S1024x128_0_0_1_1_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := dot_S512x128_S128x128_S512x128_1_1_0_0_n_n_wf

abbrev win0_0 : Pipeline.Window sig grid0 :=
  Pipeline.Window.ofSpec (Memref.whole main_v1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S1x1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S1x512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun _ => false | ⟨_ + 11, h⟩ => absurd h (Nat.not_lt.2 (Nat.le_add_left _ _))

class Facts : Prop extends Facts₀ where

variable [Facts]
-- ==== ReferenceIdeal.lean ====
abbrev S8x1024x2x128 : Shape := ⟨4, ![8, 1024, 2, 128]⟩
abbrev S8x16384x4x128 : Shape := ⟨4, ![8, 16384, 4, 128]⟩
abbrev S2x16384 : Shape := ⟨2, ![2, 16384]⟩
abbrev S128x128 : Shape := ⟨2, ![128, 128]⟩
abbrev S128 : Shape := ⟨1, ![128]⟩
abbrev S4 : Shape := ⟨1, ![4]⟩
abbrev S1x16384 : Shape := ⟨2, ![1, 16384]⟩
abbrev S16384 : Shape := ⟨1, ![16384]⟩
abbrev S8x16384x2x2x128 : Shape := ⟨5, ![8, 16384, 2, 2, 128]⟩
abbrev S_ : Shape := ⟨0, ![]⟩
abbrev S8x16384x2x128 : Shape := ⟨4, ![8, 16384, 2, 128]⟩
abbrev S8x1024x1x128 : Shape := ⟨4, ![8, 1024, 1, 128]⟩
abbrev S8x1024x128 : Shape := ⟨3, ![8, 1024, 128]⟩
abbrev S8x16384x1x128 : Shape := ⟨4, ![8, 16384, 1, 128]⟩
abbrev S8x16384x128 : Shape := ⟨3, ![8, 16384, 128]⟩
abbrev S16384x1 : Shape := ⟨2, ![16384, 1]⟩
abbrev S1x1x1x128 : Shape := ⟨4, ![1, 1, 1, 128]⟩
abbrev S4x1 : Shape := ⟨2, ![4, 1]⟩

abbrev nBuf : Space → Nat
  | .hbm => 129
  | .vmem => 0
  | .smem => 0
  | _ => 0

abbrev hbmTy0_0 (i : Nat) : BufTy := match i % 128 with
  | 0 => ⟨S8x1024x2x128, .f32⟩
  | 1 => ⟨S8x16384x4x128, .f32⟩
  | 2 => ⟨S2x16384, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S4, .i32⟩
  | 10 => ⟨S4, .i32⟩
  | 11 => ⟨S1x16384, .i32⟩
  | 12 => ⟨S16384, .i32⟩
  | 13 => ⟨S1x16384, .i32⟩
  | 14 => ⟨S16384, .i32⟩
  | 15 => ⟨S8x16384x2x2x128, .f32⟩
  | 16 => ⟨S_, .f32⟩
  | 17 => ⟨S8x16384x2x128, .f32⟩
  | 18 => ⟨S8x1024x1x128, .f32⟩
  | 19 => ⟨S8x1024x128, .f32⟩
  | 20 => ⟨S8x16384x1x128, .f32⟩
  | 21 => ⟨S8x16384x128, .f32⟩
  | 22 => ⟨S_, .f32⟩
  | 23 => ⟨S8x1024x128, .f32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S8x1024x128, .f32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S8x1024x128, .f32⟩
  | 42 => ⟨S8x1024x128, .f32⟩
  | 43 => ⟨S_, .f32⟩
  | 44 => ⟨S8x1024x128, .f32⟩
  | 45 => ⟨S8x1024x128, .f32⟩
  | 46 => ⟨S8x1024x128, .f32⟩
  | 47 => ⟨S8x1024x1x128, .f32⟩
  | 48 => ⟨S8x1024x128, .f32⟩
  | 49 => ⟨S8x16384x1x128, .f32⟩
  | 50 => ⟨S8x16384x128, .f32⟩
  | 51 => ⟨S_, .f32⟩
  | 52 => ⟨S8x1024x128, .f32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S8x1024x128, .f32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S8x1024x128, .f32⟩
  | 71 => ⟨S8x1024x128, .f32⟩
  | 72 => ⟨S_, .f32⟩
  | 73 => ⟨S8x1024x128, .f32⟩
  | 74 => ⟨S8x1024x128, .f32⟩
  | 75 => ⟨S8x1024x128, .f32⟩
  | 76 => ⟨S8x1024x1x128, .f32⟩
  | 77 => ⟨S8x1024x1x128, .f32⟩
  | 78 => ⟨S8x1024x2x128, .f32⟩
  | 79 => ⟨S8x1024x2x128, .f32⟩
  | 80 => ⟨S1x1x1x128, .f32⟩
  | 81 => ⟨S8x1024x2x128, .f32⟩
  | 82 => ⟨S8x1024x2x128, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S8x16384x2x128, .f32⟩
  | 92 => ⟨S_, .i32⟩
  | 93 => ⟨S4, .i32⟩
  | 94 => ⟨S4, .i1⟩
  | 95 => ⟨S_, .i32⟩
  | 96 => ⟨S4, .i32⟩
  | 97 => ⟨S4, .i32⟩
  | 98 => ⟨S4, .i32⟩
  | 99 => ⟨S4x1, .i32⟩
  | 100 => ⟨S8x16384x4x128, .f32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S8x16384x2x128, .f32⟩
  | 110 => ⟨S_, .i32⟩
  | 111 => ⟨S4, .i32⟩
  | 112 => ⟨S4, .i1⟩
  | 113 => ⟨S_, .i32⟩
  | 114 => ⟨S4, .i32⟩
  | 115 => ⟨S4, .i32⟩
  | 116 => ⟨S4, .i32⟩
  | 117 => ⟨S4x1, .i32⟩
  | 118 => ⟨S8x16384x4x128, .f32⟩
  | 119 => ⟨S8x16384x4x128, .f32⟩
  | 120 => ⟨S8x16384x4x128, .f32⟩
  | 121 => ⟨S8x16384x4x128, .f32⟩
  | 122 => ⟨S1x1x1x128, .f32⟩
  | 123 => ⟨S8x16384x4x128, .f32⟩
  | 124 => ⟨S8x16384x4x128, .f32⟩
  | 125 => ⟨S8x16384x4x128, .f32⟩
  | 126 => ⟨S1x1x1x128, .f32⟩
  | 127 => ⟨S8x16384x4x128, .f32⟩
  | _ => ⟨S8x1024x2x128, .f32⟩

abbrev hbmTy0_1 (i : Nat) : BufTy := match i % 128 with
  | 0 => ⟨S8x16384x4x128, .f32⟩
  | _ => ⟨S8x1024x2x128, .f32⟩

abbrev hbmTy (i : Nat) : BufTy := match i / 128 with
  | 0 => hbmTy0_0 i
  | 1 => hbmTy0_1 i
  | _ => ⟨S8x1024x2x128, .f32⟩

abbrev bufTy : (tb : Table) → Fin (tcTables nBuf tb) → BufTy
  | .hbm, ⟨i, _⟩ => hbmTy i
  | _, _ => ⟨S8x1024x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_15 : Ref sig .tc := ⟨.hbm, 92, rfl⟩
abbrev main_v66 : Ref sig .tc := ⟨.hbm, 93, rfl⟩
abbrev main_v67 : Ref sig .tc := ⟨.hbm, 94, rfl⟩
abbrev main_c_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_17 : Ref sig .tc := ⟨.hbm, 101, rfl⟩
abbrev main_v73 : Ref sig .tc := ⟨.hbm, 102, rfl⟩
abbrev main_v74 : Ref sig .tc := ⟨.hbm, 103, rfl⟩
abbrev main_c_18 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_19 : Ref sig .tc := ⟨.hbm, 110, rfl⟩
abbrev main_v80 : Ref sig .tc := ⟨.hbm, 111, rfl⟩
abbrev main_v81 : Ref sig .tc := ⟨.hbm, 112, rfl⟩
abbrev main_c_20 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩

abbrev nD : Nat := 1
abbrev τ : Topo := Topo.v7x

variable {F : FTy → Type} [FloatOps F]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  shapeCasts_S8x16384x4x128_S8x16384x2x2x128 : S8x16384x4x128.ShapeCasts S8x16384x2x2x128
  reducesTo_S8x16384x2x2x128_S8x16384x2x128_d3 : S8x16384x2x2x128.ReducesTo [3] S8x16384x2x128
  h_S_ : 0 < S_.numel
  slices_S8x1024x2x128_S8x1024x1x128_0_0_0_0 : S8x1024x2x128.Slices ![0, 0, 0, 0] S8x1024x1x128
  shapeCasts_S8x1024x1x128_S8x1024x128 : S8x1024x1x128.ShapeCasts S8x1024x128
  slices_S8x16384x2x128_S8x16384x1x128_0_0_0_0 : S8x16384x2x128.Slices ![0, 0, 0, 0] S8x16384x1x128
  shapeCasts_S8x16384x1x128_S8x16384x128 : S8x16384x1x128.ShapeCasts S8x16384x128
  bcast_S_S8x1024x128 : S_.BroadcastsInDim S8x1024x128 (![] : Fin 0 → Fin S8x1024x128.rank)
  bcast_S_S16384 : S_.BroadcastsInDim S16384 (![] : Fin 0 → Fin S16384.rank)
  bcast_S16384_S16384x1_0 : S16384.BroadcastsInDim S16384x1 (![0] : Fin 1 → Fin S16384x1.rank)
  slices_S8x1024x2x128_S8x1024x1x128_0_0_1_0 : S8x1024x2x128.Slices ![0, 0, 1, 0] S8x1024x1x128
  slices_S8x16384x2x128_S8x16384x1x128_0_0_1_0 : S8x16384x2x128.Slices ![0, 0, 1, 0] S8x16384x1x128
  bcast_S8x1024x128_S8x1024x1x128_0_1_3 : S8x1024x128.BroadcastsInDim S8x1024x1x128 (![0, 1, 3] : Fin 3 → Fin S8x1024x1x128.rank)
  concatenates_S8x1024x1x128_S8x1024x1x128_S8x1024x2x128_d2 : Shape.Concatenates [S8x1024x1x128, S8x1024x1x128] S8x1024x2x128 2
  bcast_S128_S1x1x1x128_3 : S128.BroadcastsInDim S1x1x1x128 (![3] : Fin 1 → Fin S1x1x1x128.rank)
  bcast_S1x1x1x128_S8x1024x2x128_0_1_2_3 : S1x1x1x128.BroadcastsInDim S8x1024x2x128 (![0, 1, 2, 3] : Fin 4 → Fin S8x1024x2x128.rank)
  bcast_S_S4 : S_.BroadcastsInDim S4 (![] : Fin 0 → Fin S4.rank)
  bcast_S4_S4x1_0 : S4.BroadcastsInDim S4x1 (![0] : Fin 1 → Fin S4x1.rank)
  bcast_S1x1x1x128_S8x16384x4x128_0_1_2_3 : S1x1x1x128.BroadcastsInDim S8x16384x4x128 (![0, 1, 2, 3] : Fin 4 → Fin S8x16384x4x128.rank)
  scatter_S8x1024x128_S16384x1_S8x16384x128_02_1_1_1_wf : ScatterDims.WF S8x1024x128 S16384x1 S8x16384x128 [0, 2] [1] [1] 1
  dot_S8x1024x2x128_S128x128_S8x1024x2x128_3_1_012_0_n_n_wf : DotDims.WF S8x1024x2x128 S128x128 S8x1024x2x128 [3] [1] [0, 1, 2] [0] [] []
  gather_S8x1024x2x128_S16384x1_S8x16384x2x128_023_1_n_n_1_1_812128_wf : GatherDims.WF S8x1024x2x128 S16384x1 S8x16384x2x128 [0, 2, 3] [1] [] [1] [] 1 ![8, 1, 2, 128]
  gather_S8x16384x2x128_S4x1_S8x16384x4x128_013_2_n_n_2_1_8163841128_wf : GatherDims.WF S8x16384x2x128 S4x1 S8x16384x4x128 [0, 1, 3] [2] [] [2] [] 1 ![8, 16384, 1, 128]
  dot_S8x16384x4x128_S128x128_S8x16384x4x128_3_1_012_0_n_n_wf : DotDims.WF S8x16384x4x128 S128x128 S8x16384x4x128 [3] [1] [0, 1, 2] [0] [] []

variable [Facts₀]

def scatter_S8x1024x128_S16384x1_S8x16384x128_02_1_1_1 : ScatterDims S8x1024x128 S16384x1 S8x16384x128 where
  updateWindowDims := [0, 2]
  insertedWindowDims := [1]
  scatterDimsToOperandDims := [1]
  indexVectorDim := 1
  wf := scatter_S8x1024x128_S16384x1_S8x16384x128_02_1_1_1_wf
def dot_S8x1024x2x128_S128x128_S8x1024x2x128_3_1_012_0_n_n : DotDims S8x1024x2x128 S128x128 S8x1024x2x128 where
  lhsContracting := [3]
  rhsContracting := [1]
  lhsNonContracting := [0, 1, 2]
  rhsNonContracting := [0]
  lhsBatch := []
  rhsBatch := []
  wf := dot_S8x1024x2x128_S128x128_S8x1024x2x128_3_1_012_0_n_n_wf
def gather_S8x1024x2x128_S16384x1_S8x16384x2x128_023_1_n_n_1_1_812128 : GatherDims S8x1024x2x128 S16384x1 S8x16384x2x128 where
  offsetDims := [0, 2, 3]
  collapsedSliceDims := [1]
  operandBatchingDims := []
  startIndicesBatchingDims := []
  startIndexMap := [1]
  indexVectorDim := 1
  sliceSizes := ![8, 1, 2, 128]
  wf := gather_S8x1024x2x128_S16384x1_S8x16384x2x128_023_1_n_n_1_1_812128_wf
def gather_S8x16384x2x128_S4x1_S8x16384x4x128_013_2_n_n_2_1_8163841128 : GatherDims S8x16384x2x128 S4x1 S8x16384x4x128 where
  offsetDims := [0, 1, 3]
  collapsedSliceDims := [2]
  operandBatchingDims := []
  startIndicesBatchingDims := []
  startIndexMap := [2]
  indexVectorDim := 1
  sliceSizes := ![8, 16384, 1, 128]
  wf := gather_S8x16384x2x128_S4x1_S8x16384x4x128_013_2_n_n_2_1_8163841128_wf
def dot_S8x16384x4x128_S128x128_S8x16384x4x128_3_1_012_0_n_n : DotDims S8x16384x4x128 S128x128 S8x16384x4x128 where
  lhsContracting := [3]
  rhsContracting := [1]
  lhsNonContracting := [0, 1, 2]
  rhsNonContracting := [0]
  lhsBatch := []
  rhsBatch := []
  wf := dot_S8x16384x4x128_S128x128_S8x16384x4x128_3_1_012_0_n_n_wf

class Facts : Prop extends Facts₀ where

variable [Facts]
-- ==== Proof.Spec.lean ====
/-
  The layer both programs compute, written once on the extended reals, entry by entry.

  Nodes: T = 1024 per batch, each with two feature rows (s = 0, 1) of 128 numbers. Edges: M = 16384 per batch, each with
  four feature rows (k = 0..3) of 128 numbers, and two end nodes read from the integer table `e` (row 0: the node the
  edge comes from, row 1: the node it goes to).

  * `agg`: an edge's four rows summed in pairs (rows 2s and 2s+1).
  * `scat r`: for node t, the sum of `agg` over the edges whose end number r is t.
  * `xfin`: the node's row plus half the sum of both scatters.
  * `Xspec`: a linear map of `xfin` along the feature axis plus a bias.
  * `esum`: for edge m and k, row k/2 of its first end node plus row k%2 of its second end node.
  * `mid`: a linear map of `esum` plus a bias; `e1`: the edge's own row plus `mid`.
  * `Espec`: a linear map of `e1` plus a bias.

  An end node is read from its 32-bit word modulo 1024, so the definitions need no side condition; where every word is
  below 1024 (`InRange`) that is the word itself.
-/
import Idealize.ShloMosaic.PureOps.Ideal
import Idealize.ShloMosaic.Lib.ValueIdx

noncomputable section

namespace Cert.Spec

open Idealize.ShloMosaic Idealize.ShloMosaic.ValueIdx

abbrev SX1 : Shape := ⟨4, ![8, 1024, 2, 128]⟩
abbrev SX2 : Shape := ⟨4, ![8, 16384, 4, 128]⟩
abbrev SE : Shape := ⟨2, ![2, 16384]⟩
abbrev SW : Shape := ⟨2, ![128, 128]⟩
abbrev SB : Shape := ⟨1, ![128]⟩

/-- Every end-node word is a node number. -/
def InRange (e : IVec SE 32) : Prop := ∀ i : SE.Idx, (e i).toNat < 1024

/-- End node number r of edge m. -/
def node (e : IVec SE 32) (r : Fin 2) (m : Fin 16384) : Fin 1024 :=
  ⟨(e (ix2 r m)).toNat % 1024, Nat.mod_lt _ (by norm_num)⟩

theorem node_val (e : IVec SE 32) (he : InRange e) (r : Fin 2) (m : Fin 16384) :
    (node e r m).val = (e (ix2 r m)).toNat := Nat.mod_eq_of_lt (he _)

/-- The constant one half, as the 32-bit float word both programs carry. -/
abbrev half : EReal := Ideal.ofBits .f32 0x3F000000#32

/-- Rows 2s and 2s+1 of an edge, summed. -/
def agg (x2 : FVec Ideal SX2 .f32) (b : Fin 8) (m : Fin 16384) (s : Fin 2) (d : Fin 128) : EReal :=
  x2 (ix4 b m (⟨2 * s.val, by omega⟩ : Fin 4) d) + x2 (ix4 b m (⟨2 * s.val + 1, by omega⟩ : Fin 4) d)

/-- The sum of `agg` over the edges whose end number r is node t. -/
def scat (x2 : FVec Ideal SX2 .f32) (e : IVec SE 32) (r : Fin 2) (b : Fin 8) (t : Fin 1024) (s : Fin 2) (d : Fin 128) :
    EReal :=
  ∑ m : Fin 16384, if node e r m = t then agg x2 b m s d else 0

/-- A node row after message passing. -/
def xfin (x1 : FVec Ideal SX1 .f32) (x2 : FVec Ideal SX2 .f32) (e : IVec SE 32)
    (b : Fin 8) (t : Fin 1024) (s : Fin 2) (d : Fin 128) : EReal :=
  x1 (ix4 b t s d) + (scat x2 e 1 b t s d + scat x2 e 0 b t s d) * half

/-- The node output. -/
def Xspec (x1 : FVec Ideal SX1 .f32) (x2 : FVec Ideal SX2 .f32) (e : IVec SE 32)
    (Wn : FVec Ideal SW .f32) (bn : FVec Ideal SB .f32) : FVec Ideal SX1 .f32 := fun j =>
  (∑ d : Fin 128, xfin x1 x2 e (j 0) (j 1) (j 2) d * Wn (ix2 (j 3) d)) + bn (ix1 (j 3))

/-- Row k/2 of the edge's first end node plus row k%2 of its second end node. -/
def esum (x1 : FVec Ideal SX1 .f32) (e : IVec SE 32) (b : Fin 8) (m : Fin 16384) (k : Fin 4) (d : Fin 128) : EReal :=
  x1 (ix4 b (node e 0 m) (⟨k.val / 2, by omega⟩ : Fin 2) d) + x1 (ix4 b (node e 1 m) (⟨k.val % 2, by omega⟩ : Fin 2) d)

/-- The first edge layer. -/
def mid (x1 : FVec Ideal SX1 .f32) (e : IVec SE 32) (Wm : FVec Ideal SW .f32) (bm : FVec Ideal SB .f32)
    (b : Fin 8) (m : Fin 16384) (k : Fin 4) (d : Fin 128) : EReal :=
  (∑ d' : Fin 128, esum x1 e b m k d' * Wm (ix2 d d')) + bm (ix1 d)

/-- The edge row plus the first layer. -/
def e1 (x1 : FVec Ideal SX1 .f32) (x2 : FVec Ideal SX2 .f32) (e : IVec SE 32) (Wm : FVec Ideal SW .f32)
    (bm : FVec Ideal SB .f32) (b : Fin 8) (m : Fin 16384) (k : Fin 4) (d : Fin 128) : EReal :=
  x2 (ix4 b m k d) + mid x1 e Wm bm b m k d

/-- The edge output. -/
def Espec (x1 : FVec Ideal SX1 .f32) (x2 : FVec Ideal SX2 .f32) (e : IVec SE 32)
    (Wm : FVec Ideal SW .f32) (bm : FVec Ideal SB .f32) (We : FVec Ideal SW .f32) (be : FVec Ideal SB .f32) :
    FVec Ideal SX2 .f32 := fun j =>
  (∑ d : Fin 128, e1 x1 x2 e Wm bm (j 0) (j 1) (j 2) d * We (ix2 (j 3) d)) + be (ix1 (j 3))

end Cert.Spec

end
-- ==== Proof.PreDecode.lean ====
/-
  What the precondition says of the integer table: every end-node word is a node number.

  The precondition is a conjunction of ten all-reductions. The last two are over the integer table: every word is,
  read signed, at least 0, and, read signed, below 1024. A 32-bit word that is nonnegative signed reads the same
  unsigned, so both together say its unsigned value is below 1024.
-/
import proofs.«411520_j71347996721296_1_alg».proof.Pre_finite_inputs
import Idealize.ShloMosaic.PureOps.Ideal
import Idealize.ShloMosaic.Lib.ValueIdx
import Idealize.ShloMosaic.Lib.ReduceAll
import proofs.«411520_j71347996721296_1_alg».proof.Proof.Spec

noncomputable section

namespace Cert.PreDecode

open Idealize.ShloMosaic Cert.Pre_finite_inputs

variable [Cert.Pre_finite_inputs.Facts]

/-- The scalar shape has one index. -/
local instance subsingleton_scalar_idx : Subsingleton S_.Idx := ⟨fun _ _ => funext fun d => d.elim0⟩

/-- A 32-bit word that is at least 0 and below 1024, both read signed, is below 1024 read unsigned. -/
theorem toNat_lt_of_signed_range (w : BitVec 32) (h0 : IntOp.cmpi .sge w 0#32 = 1#1)
    (h1 : IntOp.cmpi .slt w 1024#32 = 1#1) : w.toNat < 1024 := by
  rw [IntOp.cmpi_sge, show (0#32 : BitVec 32).toInt = 0 from by decide] at h0
  rw [IntOp.cmpi_slt, show (1024#32 : BitVec 32).toInt = 1024 from by decide] at h1
  have hlt : 2 * w.toNat < 2 ^ 32 := BitVec.toInt_pos_iff.1 h0
  rw [BitVec.toInt_eq_toNat_of_lt hlt] at h1
  omega

/-- The tail of the conjunction alone: whatever the earlier conjuncts were, if the whole is 1 then the two
    all-reductions over the integer table are 1, hence each of their elements. -/
theorem inRange_of_part2 (a2 : IVec S2x16384 32) (a8 : FVec Ideal S128 .f32) (v33 : IVec S_ 1)
    (h : Cert.Pre_finite_inputs.fn_part2 (F := Ideal) a2 a8 v33 = fun _ => 1#1) : Cert.Spec.InRange a2 := by
  intro i
  have h' := congrFun h ValueIdx.ix0
  unfold Cert.Pre_finite_inputs.fn_part2 at h'
  -- the result is ((earlier ∧ all (a2 ≥ 0)) ∧ all (a2 < 1024)) at the one scalar index
  have hc : IntOp.andi (IntOp.andi _ _) _ = 1#1 := h'
  obtain ⟨h42, h45⟩ := IntOp.andi_eq_one.1 hc
  obtain ⟨-, h41⟩ := IntOp.andi_eq_one.1 h42
  have hge := Host.reduce_andi_all _ _ _ _ _ h41 i
  have hlt := Host.reduce_andi_all _ _ _ _ _ h45 i
  exact toNat_lt_of_signed_range (a2 i) hge hlt

theorem inRange_of_pre (a0 : FVec Ideal S8x1024x2x128 .f32) (a1 : FVec Ideal S8x16384x4x128 .f32) (a2 : IVec S2x16384 32)
    (a3 : FVec Ideal S128x128 .f32) (a4 : FVec Ideal S128 .f32) (a5 : FVec Ideal S128x128 .f32) (a6 : FVec Ideal S128 .f32)
    (a7 : FVec Ideal S128x128 .f32) (a8 : FVec Ideal S128 .f32)
    (h : Cert.Pre_finite_inputs.fn (F := Ideal) a0 a1 a2 a3 a4 a5 a6 a7 a8 = fun _ => 1#1) :
    Cert.Spec.InRange a2 := by
  unfold Cert.Pre_finite_inputs.fn Cert.Pre_finite_inputs.fn_part1 at h
  exact inRange_of_part2 a2 a8 _ h

end Cert.PreDecode

end
-- ==== Proof.KerArr.lean ====
/-
  The launch side of the kernel, read as values: what each input window's block holds at a grid point, in terms of the
  argument arrays, and how the two output arrays after the run — and the program's two results, their re-laid forms —
  are assembled from the blocks the grid points write back.

  The grid has 8 x 32 points; point number t works on batch t / 32 and on the t % 32-th stretch of 512 edges. The edge
  output's block is written back at every point; the node output's block only at the last point of a batch.
-/
import proofs.«411520_j71347996721296_1_alg».proof.Proof.Gen.KernelIdeal.Frame
import Idealize.ShloMosaic.Lib.ValueIdx
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The block index maps, and the re-laid arrays read at an index -/

/-- The input windows' block indices at point t: the edge block is block (t / 32, t % 32, 0) of the re-laid edge array,
    the node block is block (t / 32, 0, 0) of the re-laid node array, the end-node block is block (0, t % 32). -/
theorem idx_in : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = 0 ∧ win0_1.index t (2 : Fin 3) = 0
    ∧ win0_2.index t (0 : Fin 2) = 0 ∧ win0_2.index t (1 : Fin 2) = t.val % 32 :=
  (by decide +kernel : ∀ t : Fin grid0.N, _)

/-- The six small operands' windows never move. -/
theorem idx_w : ∀ t : Fin cfg0.N,
    win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0 :=
  (by decide +kernel : ∀ t : Fin grid0.N, _)

/-- The output windows' block indices at point t: the node output's block is (t / 32, 0, 0), the edge output's
    (t / 32, t % 32, 0). -/
theorem idx_out : ∀ t : Fin cfg0.N,
    win0_9.index t (0 : Fin 3) = t.val / 32 ∧ win0_9.index t (1 : Fin 3) = 0 ∧ win0_9.index t (2 : Fin 3) = 0
    ∧ win0_10.index t (0 : Fin 3) = t.val / 32 ∧ win0_10.index t (1 : Fin 3) = t.val % 32 ∧ win0_10.index t (2 : Fin 3) = 0 :=
  (by decide +kernel : ∀ t : Fin grid0.N, _)

/-- [8,16384,4,128] re-laid as [8,16384,512]: entry (b, e, q) is entry (b, e, q / 128, q % 128). -/
theorem relay_edge_apply {α : Type} (x : S8x16384x4x128.Idx → α) (h : S8x16384x4x128.ShapeCasts S8x16384x512)
    (b : Fin 8) (e : Fin 16384) (q : Fin 512) :
    shapeCast S8x16384x512 x h (ix3 b e q) = x (ix4 b e (⟨q.val / 128, by omega⟩ : Fin 4) (⟨q.val % 128, by omega⟩ : Fin 128)) :=
  shapeCast_apply x h _ _ (by
    rw [Shape.rowMajor_val_four, Shape.rowMajor_val_three]
    show ((b.val * 16384 + e.val) * 4 + q.val / 128) * 128 + q.val % 128 = (b.val * 16384 + e.val) * 512 + q.val
    omega)

/-- [8,1024,2,128] re-laid as [8,1024,256]: entry (b, n, q) is entry (b, n, q / 128, q % 128). -/
theorem relay_node_apply {α : Type} (x : S8x1024x2x128.Idx → α) (h : S8x1024x2x128.ShapeCasts S8x1024x256)
    (b : Fin 8) (n : Fin 1024) (q : Fin 256) :
    shapeCast S8x1024x256 x h (ix3 b n q) = x (ix4 b n (⟨q.val / 128, by omega⟩ : Fin 2) (⟨q.val % 128, by omega⟩ : Fin 128)) :=
  shapeCast_apply x h _ _ (by
    rw [Shape.rowMajor_val_four, Shape.rowMajor_val_three]
    show ((b.val * 1024 + n.val) * 2 + q.val / 128) * 128 + q.val % 128 = (b.val * 1024 + n.val) * 256 + q.val
    omega)

/-- [8,16384,512] re-laid as [8,16384,4,128]: entry (b, e, k, d) is entry (b, e, 128 k + d). -/
theorem unrelay_edge_apply {α : Type} (x : S8x16384x512.Idx → α) (h : S8x16384x512.ShapeCasts S8x16384x4x128)
    (b : Fin 8) (e : Fin 16384) (k : Fin 4) (d : Fin 128) :
    shapeCast S8x16384x4x128 x h (ix4 b e k d) = x (ix3 b e (⟨128 * k.val + d.val, by omega⟩ : Fin 512)) :=
  shapeCast_apply x h _ _ (by
    rw [Shape.rowMajor_val_four, Shape.rowMajor_val_three]
    show (b.val * 16384 + e.val) * 512 + (128 * k.val + d.val) = ((b.val * 16384 + e.val) * 4 + k.val) * 128 + d.val
    omega)

/-- [8,1024,256] re-laid as [8,1024,2,128]: entry (b, n, s, d) is entry (b, n, 128 s + d). -/
theorem unrelay_node_apply {α : Type} (x : S8x1024x256.Idx → α) (h : S8x1024x256.ShapeCasts S8x1024x2x128)
    (b : Fin 8) (n : Fin 1024) (s : Fin 2) (d : Fin 128) :
    shapeCast S8x1024x2x128 x h (ix4 b n s d) = x (ix3 b n (⟨128 * s.val + d.val, by omega⟩ : Fin 256)) :=
  shapeCast_apply x h _ _ (by
    rw [Shape.rowMajor_val_four, Shape.rowMajor_val_three]
    show (b.val * 1024 + n.val) * 256 + (128 * s.val + d.val) = ((b.val * 1024 + n.val) * 2 + s.val) * 128 + d.val
    omega)

/-- The edge array as the grid finds it: the edge argument re-laid. -/
theorem V_v1 (c : Dev nD) : (V m c main_v1 : S8x16384x512.Idx → EReal)
    = shapeCast S8x16384x512 (m ((c.tc : Thread nD τ).loc main_arg1) : Vec Ideal S8x16384x4x128 .f32) shapeCasts_S8x16384x4x128_S8x16384x512 := by
  show StableHlo.after hostOps0 (fun b => m (c, b)) (Proc.devRef .tc main_v1) = _
  after_results
  rfl

/-- The node array as the grid finds it: the node argument re-laid. -/
theorem V_v0 (c : Dev nD) : (V m c main_v0 : S8x1024x256.Idx → EReal)
    = shapeCast S8x1024x256 (m ((c.tc : Thread nD τ).loc main_arg0) : Vec Ideal S8x1024x2x128 .f32) shapeCasts_S8x1024x2x128_S8x1024x256 := by
  show StableHlo.after hostOps0 (fun b => m (c, b)) (Proc.devRef .tc main_v0) = _
  after_results
  rfl

/-! ## The input blocks -/

/-- The edge-feature block at point t: rows 512 * (t % 32) + r of batch t / 32, the four feature rows side by side. -/
theorem x2blk_apply (c : Dev nD) (t : Fin cfg0.N) (r q : Fin 512) :
    (iblk m c 0 t : Vec Ideal S1x512x512 .f32) (ix3 0 r q)
      = (m ((c.tc : Thread nD τ).loc main_arg1) : Vec Ideal S8x16384x4x128 .f32)
          (ix4 (⟨t.val / 32, by have := t.isLt; have : cfg0.N = 256 := N_0; omega⟩ : Fin 8)
               (⟨512 * (t.val % 32) + r.val, by omega⟩ : Fin 16384)
               (⟨q.val / 128, by omega⟩ : Fin 4) (⟨q.val % 128, by omega⟩ : Fin 128)) := by
  obtain ⟨e0, e1, e2, -⟩ := idx_in t
  have hN : cfg0.N = 256 := N_0
  have ht := t.isLt
  unfold iblk
  rw [View.read_apply]
  show V m c main_v1 _ = _
  rw [V_v1]
  refine Eq.trans (congrArg _ ?_) (relay_edge_apply _ _ (⟨t.val / 32, by omega⟩ : Fin 8) (⟨512 * (t.val % 32) + r.val, by omega⟩ : Fin 16384) q)
  funext a
  apply Fin.ext
  match a with
  | ⟨0, _⟩ => show win0_0.index t (0 : Fin 3) * 1 + 1 * 0 = t.val / 32; omega
  | ⟨1, _⟩ => show win0_0.index t (1 : Fin 3) * 512 + 1 * r.val = 512 * (t.val % 32) + r.val; omega
  | ⟨2, _⟩ => show win0_0.index t (2 : Fin 3) * 512 + 1 * q.val = q.val; omega

/-- The node-feature block at point t: all 1024 nodes of batch t / 32, the two feature rows side by side. -/
theorem x1blk_apply (c : Dev nD) (t : Fin cfg0.N) (n : Fin 1024) (q : Fin 256) :
    (iblk m c 1 t : Vec Ideal S1x1024x256 .f32) (ix3 0 n q)
      = (m ((c.tc : Thread nD τ).loc main_arg0) : Vec Ideal S8x1024x2x128 .f32)
          (ix4 (⟨t.val / 32, by have := t.isLt; have : cfg0.N = 256 := N_0; omega⟩ : Fin 8) n
               (⟨q.val / 128, by omega⟩ : Fin 2) (⟨q.val % 128, by omega⟩ : Fin 128)) := by
  obtain ⟨-, -, -, e0, e1, e2, -⟩ := idx_in t
  have hN : cfg0.N = 256 := N_0
  have ht := t.isLt
  unfold iblk
  rw [View.read_apply]
  show V m c main_v0 _ = _
  rw [V_v0]
  refine Eq.trans (congrArg _ ?_) (relay_node_apply _ _ (⟨t.val / 32, by omega⟩ : Fin 8) n q)
  funext a
  apply Fin.ext
  match a with
  | ⟨0, _⟩ => show win0_1.index t (0 : Fin 3) * 1 + 1 * 0 = t.val / 32; omega
  | ⟨1, _⟩ => show win0_1.index t (1 : Fin 3) * 1024 + 1 * n.val = n.val; omega
  | ⟨2, _⟩ => show win0_1.index t (2 : Fin 3) * 256 + 1 * q.val = q.val; omega

/-- The end-node block at point t: both rows of the table, columns 512 * (t % 32) + r. -/
theorem eblk_apply (c : Dev nD) (t : Fin cfg0.N) (a : Fin 2) (r : Fin 512) :
    (iblk m c 2 t : Vec Ideal S2x512 .i32) (ix2 a r)
      = (m ((c.tc : Thread nD τ).loc main_arg2) : Vec Ideal S2x16384 .i32) (ix2 a (⟨512 * (t.val % 32) + r.val, by omega⟩ : Fin 16384)) := by
  obtain ⟨-, -, -, -, -, -, e0, e1⟩ := idx_in t
  unfold iblk
  rw [View.read_apply]
  show V m c main_arg2 _ = _
  rw [V_main_arg2]
  congr 1
  funext b
  apply Fin.ext
  match b with
  | ⟨0, _⟩ => show win0_2.index t (0 : Fin 2) * 2 + 1 * a.val = a.val; omega
  | ⟨1, _⟩ => show win0_2.index t (1 : Fin 2) * 512 + 1 * r.val = 512 * (t.val % 32) + r.val; omega

/-- The six small operands are staged whole. -/
theorem wblk3 (c : Dev nD) (t : Fin cfg0.N) : (iblk m c 3 t : Vec Ideal S128x128 .f32) = m ((c.tc : Thread nD τ).loc main_arg3) := by
  obtain ⟨e30, e31, e4, e50, e51, e6, e70, e71, e8⟩ := idx_w t
  funext j
  unfold iblk
  rw [View.read_apply]
  show V m c main_arg3 _ = _
  rw [V_main_arg3]
  congr 1
  funext a
  apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega
theorem wblk4 (c : Dev nD) (t : Fin cfg0.N) : (iblk m c 4 t : Vec Ideal S128 .f32) = m ((c.tc : Thread nD τ).loc main_arg4) := by
  obtain ⟨e30, e31, e4, e50, e51, e6, e70, e71, e8⟩ := idx_w t
  funext j
  unfold iblk
  rw [View.read_apply]
  show V m c main_arg4 _ = _
  rw [V_main_arg4]
  congr 1
  funext a
  apply Fin.ext
  match a with
  | ⟨0, _⟩ => show win0_4.index t (0 : Fin 1) * 128 + 1 * (j 0).val = (j 0).val; omega
theorem wblk5 (c : Dev nD) (t : Fin cfg0.N) : (iblk m c 5 t : Vec Ideal S128x128 .f32) = m ((c.tc : Thread nD τ).loc main_arg7) := by
  obtain ⟨e30, e31, e4, e50, e51, e6, e70, e71, e8⟩ := idx_w t
  funext j
  unfold iblk
  rw [View.read_apply]
  show V m c main_arg7 _ = _
  rw [V_main_arg7]
  congr 1
  funext a
  apply Fin.ext
  match a with
  | ⟨0, _⟩ => show win0_5.index t (0 : Fin 2) * 128 + 1 * (j 0).val = (j 0).val; omega
  | ⟨1, _⟩ => show win0_5.index t (1 : Fin 2) * 128 + 1 * (j 1).val = (j 1).val; omega
theorem wblk6 (c : Dev nD) (t : Fin cfg0.N) : (iblk m c 6 t : Vec Ideal S128 .f32) = m ((c.tc : Thread nD τ).loc main_arg8) := by
  obtain ⟨e30, e31, e4, e50, e51, e6, e70, e71, e8⟩ := idx_w t
  funext j
  unfold iblk
  rw [View.read_apply]
  show V m c main_arg8 _ = _
  rw [V_main_arg8]
  congr 1
  funext a
  apply Fin.ext
  match a with
  | ⟨0, _⟩ => show win0_6.index t (0 : Fin 1) * 128 + 1 * (j 0).val = (j 0).val; omega
theorem wblk7 (c : Dev nD) (t : Fin cfg0.N) : (iblk m c 7 t : Vec Ideal S128x128 .f32) = m ((c.tc : Thread nD τ).loc main_arg5) := by
  obtain ⟨e30, e31, e4, e50, e51, e6, e70, e71, e8⟩ := idx_w t
  funext j
  unfold iblk
  rw [View.read_apply]
  show V m c main_arg5 _ = _
  rw [V_main_arg5]
  congr 1
  funext a
  apply Fin.ext
  match a with
  | ⟨0, _⟩ => show win0_7.index t (0 : Fin 2) * 128 + 1 * (j 0).val = (j 0).val; omega
  | ⟨1, _⟩ => show win0_7.index t (1 : Fin 2) * 128 + 1 * (j 1).val = (j 1).val; omega
theorem wblk8 (c : Dev nD) (t : Fin cfg0.N) : (iblk m c 8 t : Vec Ideal S128 .f32) = m ((c.tc : Thread nD τ).loc main_arg6) := by
  obtain ⟨e30, e31, e4, e50, e51, e6, e70, e71, e8⟩ := idx_w t
  funext j
  unfold iblk
  rw [View.read_apply]
  show V m c main_arg6 _ = _
  rw [V_main_arg6]
  congr 1
  funext a
  apply Fin.ext
  match a with
  | ⟨0, _⟩ => show win0_8.index t (0 : Fin 1) * 128 + 1 * (j 0).val = (j 0).val; omega

/-! ## The two output arrays after the run -/

/-- What point t writes back to the edge output is block t of a whole-array function G, when what the point leaves in
    the window is that block. -/
theorem flushed10_eq (c : Dev nD) (G : FVec Ideal S8x16384x512 .f32)
    (h : ∀ (t : Fin cfg0.N) (r q : Fin 512), (outsAt0 m c t.val t.isLt).2.1 (ix3 0 r q)
        = G (ix3 (⟨t.val / 32, by have := t.isLt; have : cfg0.N = 256 := N_0; omega⟩ : Fin 8)
            (⟨512 * (t.val % 32) + r.val, by omega⟩ : Fin 16384) q))
    (t : Fin cfg0.N) :
    (dats m 0 c).flushed 10 t = ((cfg0.win 10).blk t).view.read (Elt Ideal) G := by
  obtain ⟨-, -, -, e0, e1, e2⟩ := idx_out t
  have hN : cfg0.N = 256 := N_0
  have ht := t.isLt
  show (cfg0.win 10).cut (grid0.coords t) ((dats m 0 c).after 10 t) = _
  rw [after0_10]
  funext j
  have hj0 : (j 0).val < 1 := (j 0).isLt
  have hj1 : (j 1).val < 512 := (j 1).isLt
  have hj2 : (j 2).val < 512 := (j 2).isLt
  rw [View.read_apply]
  show (outsAt0 m c t.val t.isLt).2.1 ((cfg0.win 10).xinj (grid0.coords t) j) = _
  refine Eq.trans (b := (outsAt0 m c t.val t.isLt).2.1 (ix3 0 ⟨(j 1).val, hj1⟩ ⟨(j 2).val, hj2⟩)) (congrArg _ ?_)
    ((h t _ _).trans (congrArg G ?_))
  · funext a
    apply Fin.ext
    match a with
    | ⟨0, _⟩ => show (j 0).val = 0; omega
    | ⟨1, _⟩ => rfl
    | ⟨2, _⟩ => rfl
  · funext a
    apply Fin.ext
    match a with
    | ⟨0, _⟩ => show t.val / 32 = win0_10.index t (0 : Fin 3) * 1 + 1 * (j 0).val; omega
    | ⟨1, _⟩ => show 512 * (t.val % 32) + (j 1).val = win0_10.index t (1 : Fin 3) * 512 + 1 * (j 1).val; omega
    | ⟨2, _⟩ => show (j 2).val = win0_10.index t (2 : Fin 3) * 512 + 1 * (j 2).val; omega

/-- Every entry (b, e, q) of the edge output lies in the block of point 32 b + e / 512, which is written back. -/
theorem cover10 (i : S8x16384x512.Idx) :
    ∃ t : Fin cfg0.N, (cfg0.win 10).flush t = true ∧ i ∈ ((cfg0.win 10).blk t).view.set := by
  have hN : cfg0.N = 256 := N_0
  have h0 : (i 0).val < 8 := (i 0).isLt
  have h1 : (i 1).val < 16384 := (i 1).isLt
  have h2 : (i 2).val < 512 := (i 2).isLt
  obtain ⟨t, ht⟩ : ∃ t : Fin cfg0.N, t.val = 32 * (i 0).val + (i 1).val / 512 :=
    ⟨⟨32 * (i 0).val + (i 1).val / 512, by omega⟩, rfl⟩
  obtain ⟨-, -, -, e0, e1, e2⟩ := idx_out t
  refine ⟨t, flush0_10 t, ?_⟩
  show i ∈ ((View.whole main_v2_1).slice (win0_10.rect t)).set
  rw [View.set_slice_whole, Rect.mem_set_unit]
  intro a
  match a with
  | ⟨0, _⟩ =>
    show win0_10.index t (0 : Fin 3) * 1 ≤ (i 0).val ∧ (i 0).val < win0_10.index t (0 : Fin 3) * 1 + 1
    omega
  | ⟨1, _⟩ =>
    show win0_10.index t (1 : Fin 3) * 512 ≤ (i 1).val ∧ (i 1).val < win0_10.index t (1 : Fin 3) * 512 + 512
    omega
  | ⟨2, _⟩ =>
    show win0_10.index t (2 : Fin 3) * 512 ≤ (i 2).val ∧ (i 2).val < win0_10.index t (2 : Fin 3) * 512 + 512
    omega

/-- So the edge output ends holding G. -/
theorem final10 (c : Dev nD) (G : FVec Ideal S8x16384x512 .f32)
    (h : ∀ (t : Fin cfg0.N) (r q : Fin 512), (outsAt0 m c t.val t.isLt).2.1 (ix3 0 r q)
        = G (ix3 (⟨t.val / 32, by have := t.isLt; have : cfg0.N = 256 := N_0; omega⟩ : Fin 8)
            (⟨512 * (t.val % 32) + r.val, by omega⟩ : Fin 16384) q)) :
    (dats m 0 c).arrAt 10 cfg0.N = G :=
  (dats m 0 c).arrAt_eq_of_cover 10 G (fun t _ => flushed10_eq m c G h t) cover10

/-- What a last point of a batch writes back to the node output is its block of a whole-array function G, when what
    that point leaves in the window is that block. (No other point writes the node output back.) -/
theorem flushed9_eq (c : Dev nD) (G : FVec Ideal S8x1024x256 .f32)
    (h : ∀ (t : Fin cfg0.N), t.val % 32 = 31 → ∀ (n : Fin 1024) (q : Fin 256), (outsAt0 m c t.val t.isLt).1 (ix3 0 n q)
        = G (ix3 (⟨t.val / 32, by have := t.isLt; have : cfg0.N = 256 := N_0; omega⟩ : Fin 8) n q))
    (t : Fin cfg0.N) (hf : (cfg0.win 9).flush t = true) :
    (dats m 0 c).flushed 9 t = ((cfg0.win 9).blk t).view.read (Elt Ideal) G := by
  obtain ⟨e0, e1, e2, -⟩ := idx_out t
  have hN : cfg0.N = 256 := N_0
  have ht := t.isLt
  have h31 : t.val % 32 = 31 := (flush0_9 t).mp hf
  show (cfg0.win 9).cut (grid0.coords t) ((dats m 0 c).after 9 t) = _
  rw [after0_9]
  funext j
  have hj0 : (j 0).val < 1 := (j 0).isLt
  have hj1 : (j 1).val < 1024 := (j 1).isLt
  have hj2 : (j 2).val < 256 := (j 2).isLt
  rw [View.read_apply]
  show (outsAt0 m c t.val t.isLt).1 ((cfg0.win 9).xinj (grid0.coords t) j) = _
  refine Eq.trans (b := (outsAt0 m c t.val t.isLt).1 (ix3 0 ⟨(j 1).val, hj1⟩ ⟨(j 2).val, hj2⟩)) (congrArg _ ?_)
    ((h t h31 _ _).trans (congrArg G ?_))
  · funext a
    apply Fin.ext
    match a with
    | ⟨0, _⟩ => show (j 0).val = 0; omega
    | ⟨1, _⟩ => rfl
    | ⟨2, _⟩ => rfl
  · funext a
    apply Fin.ext
    match a with
    | ⟨0, _⟩ => show t.val / 32 = win0_9.index t (0 : Fin 3) * 1 + 1 * (j 0).val; omega
    | ⟨1, _⟩ => show (j 1).val = win0_9.index t (1 : Fin 3) * 1024 + 1 * (j 1).val; omega
    | ⟨2, _⟩ => show (j 2).val = win0_9.index t (2 : Fin 3) * 256 + 1 * (j 2).val; omega

/-- Every entry (b, n, q) of the node output lies in the block of point 32 b + 31, the last of batch b, which is
    written back. -/
theorem cover9 (i : S8x1024x256.Idx) :
    ∃ t : Fin cfg0.N, (cfg0.win 9).flush t = true ∧ i ∈ ((cfg0.win 9).blk t).view.set := by
  have hN : cfg0.N = 256 := N_0
  have h0 : (i 0).val < 8 := (i 0).isLt
  have h1 : (i 1).val < 1024 := (i 1).isLt
  have h2 : (i 2).val < 256 := (i 2).isLt
  obtain ⟨t, ht⟩ : ∃ t : Fin cfg0.N, t.val = 32 * (i 0).val + 31 := ⟨⟨32 * (i 0).val + 31, by omega⟩, rfl⟩
  obtain ⟨e0, e1, e2, -⟩ := idx_out t
  refine ⟨t, (flush0_9 t).mpr (by omega), ?_⟩
  show i ∈ ((View.whole main_v2_0).slice (win0_9.rect t)).set
  rw [View.set_slice_whole, Rect.mem_set_unit]
  intro a
  match a with
  | ⟨0, _⟩ =>
    show win0_9.index t (0 : Fin 3) * 1 ≤ (i 0).val ∧ (i 0).val < win0_9.index t (0 : Fin 3) * 1 + 1
    omega
  | ⟨1, _⟩ =>
    show win0_9.index t (1 : Fin 3) * 1024 ≤ (i 1).val ∧ (i 1).val < win0_9.index t (1 : Fin 3) * 1024 + 1024
    omega
  | ⟨2, _⟩ =>
    show win0_9.index t (2 : Fin 3) * 256 ≤ (i 2).val ∧ (i 2).val < win0_9.index t (2 : Fin 3) * 256 + 256
    omega

/-- So the node output ends holding G. -/
theorem final9 (c : Dev nD) (G : FVec Ideal S8x1024x256 .f32)
    (h : ∀ (t : Fin cfg0.N), t.val % 32 = 31 → ∀ (n : Fin 1024) (q : Fin 256), (outsAt0 m c t.val t.isLt).1 (ix3 0 n q)
        = G (ix3 (⟨t.val / 32, by have := t.isLt; have : cfg0.N = 256 := N_0; omega⟩ : Fin 8) n q)) :
    (dats m 0 c).arrAt 9 cfg0.N = G :=
  (dats m 0 c).arrAt_eq_of_cover 9 G (fun t hf => flushed9_eq m c G h t hf) cover9

/-! ## The two results: the output arrays re-laid -/

/-- After the two closing re-layings, run from any contents in which the grid's arrays hold a family A, the first
    result is A's node output re-laid as [8,1024,2,128]. -/
theorem tail_v3_of (c : Dev nD) (V₀ : Valuation τ sig (Elt Ideal))
    (A : (w : Fin 11) → Buf (Elt Ideal) ((spec0 w).arr.view.loc (c.tc : Thread nD τ))) :
    (StableHlo.after hostOps1 (Pipeline.withArrays spec0 c V₀ A) (Proc.devRef .tc main_v3) : S8x1024x2x128.Idx → EReal)
      = shapeCast S8x1024x2x128 (A 9 : S8x1024x256.Idx → EReal) shapeCasts_S8x1024x256_S8x1024x2x128 := by
  after_results
  rw [Pipeline.withArrays_arr spec0 launch0.win.arr_inj c V₀ A 9]
  rfl

/-- and the second is A's edge output re-laid as [8,16384,4,128]. -/
theorem tail_v4_of (c : Dev nD) (V₀ : Valuation τ sig (Elt Ideal))
    (A : (w : Fin 11) → Buf (Elt Ideal) ((spec0 w).arr.view.loc (c.tc : Thread nD τ))) :
    (StableHlo.after hostOps1 (Pipeline.withArrays spec0 c V₀ A) (Proc.devRef .tc main_v4) : S8x16384x4x128.Idx → EReal)
      = shapeCast S8x16384x4x128 (A 10 : S8x16384x512.Idx → EReal) shapeCasts_S8x16384x512_S8x16384x4x128 := by
  after_results
  rw [Pipeline.withArrays_arr spec0 launch0.win.arr_inj c V₀ A 10]
  rfl

/-- The first result is the node output after the run, re-laid as [8,1024,2,128]. -/
theorem tail_v3 (c : Dev nD) :
    (Pipeline.afterTail₀ cfgs (dats m) 0 (V0 m) [hostOps1] c main_v3 : S8x1024x2x128.Idx → EReal)
      = shapeCast S8x1024x2x128 ((dats m 0 c).arrAt 9 cfg0.N : S8x1024x256.Idx → EReal) shapeCasts_S8x1024x256_S8x1024x2x128 := by
  unfold Pipeline.afterTail₀
  exact tail_v3_of c (V0 m c) (fun w => (dats m 0 c).arrAt w cfg0.N)

/-- The second result is the edge output after the run, re-laid as [8,16384,4,128]. -/
theorem tail_v4 (c : Dev nD) :
    (Pipeline.afterTail₀ cfgs (dats m) 0 (V0 m) [hostOps1] c main_v4 : S8x16384x4x128.Idx → EReal)
      = shapeCast S8x16384x4x128 ((dats m 0 c).arrAt 10 cfg0.N : S8x16384x512.Idx → EReal) shapeCasts_S8x16384x512_S8x16384x4x128 := by
  unfold Pipeline.afterTail₀
  exact tail_v4_of c (V0 m c) (fun w => (dats m 0 c).arrAt w cfg0.N)

/-- If what the grid points leave in the two output windows are the blocks of two whole-array functions (the node
    output's only at the last point of each batch, where it is written back), the run ends with the program's two
    results at those functions, re-laid, and the arguments unchanged. -/
theorem run_of_blocks (G9 : Dev nD → FVec Ideal S8x1024x256 .f32) (G10 : Dev nD → FVec Ideal S8x16384x512 .f32)
    (h9 : ∀ (c : Dev nD) (t : Fin cfg0.N), t.val % 32 = 31 → ∀ (n : Fin 1024) (q : Fin 256),
      (outsAt0 m c t.val t.isLt).1 (ix3 0 n q)
        = G9 c (ix3 (⟨t.val / 32, by have := t.isLt; have : cfg0.N = 256 := N_0; omega⟩ : Fin 8) n q))
    (h10 : ∀ (c : Dev nD) (t : Fin cfg0.N) (r q : Fin 512),
      (outsAt0 m c t.val t.isLt).2.1 (ix3 0 r q)
        = G10 c (ix3 (⟨t.val / 32, by have := t.isLt; have : cfg0.N = 256 := N_0; omega⟩ : Fin 8)
            (⟨512 * (t.val % 32) + r.val, by omega⟩ : Fin 16384) q)) :
    θ_run defs (onTc (τ := τ) (main (F := Ideal))) ⟨m, fun _ => 0, ρ⟩ (fun r => ∀ c : Dev nD,
      (∀ (b : Fin 8) (n : Fin 1024) (s : Fin 2) (d : Fin 128),
        (r.2.mem ((c.tc : Thread nD τ).loc main_v3) : Vec Ideal S8x1024x2x128 .f32) (ix4 b n s d)
          = G9 c (ix3 b n (⟨128 * s.val + d.val, by omega⟩ : Fin 256)))
      ∧ (∀ (b : Fin 8) (e : Fin 16384) (k : Fin 4) (d : Fin 128),
        (r.2.mem ((c.tc : Thread nD τ).loc main_v4) : Vec Ideal S8x16384x4x128 .f32) (ix4 b e k d)
          = G10 c (ix3 b e (⟨128 * k.val + d.val, by omega⟩ : Fin 512)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have f9 : ∀ c, (dats m 0 c).arrAt 9 cfg0.N = G9 c := fun c => final9 m c (G9 c) (h9 c)
  have f10 : ∀ c, (dats m 0 c).arrAt 10 cfg0.N = G10 c := fun c => final10 m c (G10 c) (h10 c)
  refine (θ_run defs _ _).mono (fun r h c => ⟨?_, ?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 7).trans (((dats m 0 c).arrAt_in 7 rfl _).trans ((A_eq m c 7).trans (V_main_arg5 m c))),
      ((h c).1 8).trans (((dats m 0 c).arrAt_in 8 rfl _).trans ((A_eq m c 8).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c)))⟩) (run_main m ρ)
  · intro b n s d
    refine (congrFun (((h c).2 main_v3 (Pipeline.mem_restRefs_of main_v3 (by decide) (by decide))).trans
      ((tail_v3 m c).trans (congrArg (fun x => shapeCast S8x1024x2x128 x shapeCasts_S8x1024x256_S8x1024x2x128) (f9 c)))) (ix4 b n s d)).trans ?_
    exact unrelay_node_apply _ _ b n s d
  · intro b e k d
    refine (congrFun (((h c).2 main_v4 (Pipeline.mem_restRefs_of main_v4 (by decide) (by decide))).trans
      ((tail_v4 m c).trans (congrArg (fun x => shapeCast S8x16384x4x128 x shapeCasts_S8x16384x512_S8x16384x4x128) (f10 c)))) (ix4 b e k d)).trans ?_
    exact unrelay_edge_apply _ _ b e k d

end Cert.KernelIdeal.Arr

end
-- ==== Proof.KerSpec.lean ====
/-
  Vocabulary for reading the kernel's blocks: the indicator of a node number in a 32-bit word.
-/
import Idealize.ShloMosaic.PureOps.Ideal
import Idealize.ShloMosaic.Lib.ValueIdx

noncomputable section

namespace Cert.KerSpec

open Idealize.ShloMosaic Idealize.ShloMosaic.ValueIdx

/-- One where the word is the node number t, zero elsewhere. -/
def oneHot (w : BitVec 32) (t : Fin 1024) : EReal := if w = BitVec.ofNat 32 t.val then 1 else 0

theorem oneHot_eq (w : BitVec 32) (hw : w.toNat < 1024) (t : Fin 1024) :
    oneHot w t = if (⟨w.toNat, hw⟩ : Fin 1024) = t then 1 else 0 := by
  unfold oneHot
  have h : (w = BitVec.ofNat 32 t.val) ↔ ((⟨w.toNat, hw⟩ : Fin 1024) = t) := by
    constructor
    · intro e; apply Fin.ext; simp only []; rw [e]; simp [BitVec.toNat_ofNat]; omega
    · intro e; have : w.toNat = t.val := congrArg Fin.val e
      apply BitVec.eq_of_toNat_eq; rw [this]; simp [BitVec.toNat_ofNat]; omega
  simp only [h]

end Cert.KerSpec

end
-- ==== Proof.LibDotLastAxis.lean ====
/-
  Two matrix products read at an index, at the ideal values, for operands that both keep the contracted axis LAST
  (a product of a matrix with the transpose of another, as a linear layer `x · Wᵀ` is written):

  * the matrix unit's product of an [m, k] block with an [n, k] block into the zero accumulator, at (a, b), is
    `∑ c, A (a, c) · B (b, c)`;
  * the host's contraction of a stack [p, q, k] with an [n, k] matrix, at (b, s, o), is `∑ c, A (b, s, c) · B (o, c)`.

  Both are stated over the literal record of dimension numbers with its well-formedness fact `w` a variable, so they apply
  to a program's own record whatever name it gives that fact. No rounding and no order of summation is left at the ideal
  values: each is one finite sum over the contracted coordinate.
-/
import Idealize.ShloMosaic.PureOps.Ideal.Laws
import Idealize.ShloMosaic.Lib.ValueIdx

noncomputable section

open scoped BigOperators

namespace Idealize.ShloMosaic.LibDotLastAxis

open Idealize.ShloMosaic Idealize.ShloMosaic.ValueIdx

variable {m n k : Nat}

/-- The matrix unit's product of two blocks that both carry the contracted axis last, accumulated from zero: entry
    (a, b) is the sum over the contracted coordinate `c` of `A (a, c) · B (b, c)`. -/
theorem matmul_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

variable {p q : Nat}

/-- The host's contraction of a stack of row vectors [p, q, k] with a matrix [n, k] over their last axes: entry
    (b, s, o) is the sum over the contracted coordinate `c` of `A (b, s, c) · B (o, c)`. -/
theorem dotGeneral_stack_apply {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (b : Fin p) (s : Fin q) (o : Fin n) :
    Host.dotGeneral (⟨[2], [1], [0, 1], [0], [], [], w⟩ : DotDims ⟨3, ![p, q, k]⟩ ⟨2, ![n, k]⟩ ⟨3, ![p, q, n]⟩) prec A B (ix3 b s o)
      = ∑ c : Fin k, A (ix3 b s c) * B (ix2 o c) := by
  show FloatOps.dotGeneral _ prec _ A B (ix3 b s o) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c3 := contrEquiv1_symm_val
    (⟨[2], [1], [0, 1], [0], [], [], w⟩ : DotDims ⟨3, ![p, q, k]⟩ ⟨2, ![n, k]⟩ ⟨3, ![p, q, n]⟩) k rfl rfl c
  have l3 : (⟨[2], [1], [0, 1], [0], [], [], w⟩ : DotDims ⟨3, ![p, q, k]⟩ ⟨2, ![n, k]⟩ ⟨3, ![p, q, n]⟩).lhsIdx (ix3 b s o)
      ((contrEquiv1 _ k rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![p, q, k]⟩ ⟨2, ![n, k]⟩ ⟨3, ![p, q, n]⟩).rhsIdx (ix3 b s o)
      ((contrEquiv1 _ k rfl rfl).symm c) = ix2 o c := by
    funext ax; apply Fin.ext
    match ax with
    | ⟨0, _⟩ => simp [DotDims.rhsIdx]; rfl
    | ⟨1, _⟩ => simp [DotDims.rhsIdx]; exact c3
  rw [l3, r3]

end Idealize.ShloMosaic.LibDotLastAxis

end
-- ==== Proof.KerPayNode.lean ====
/-
  The node side of the kernel's arithmetic read at an index, at the ideal values (floats are extended reals, a change of
  format the identity, a product into the zero accumulator one finite sum).

  * the two one-hot matrices of the edge endpoints (a word compared with the column number, widened and converted) are
    the indicator `oneHot` of the endpoint's node number, and their sum the sum of the two indicators;
  * the blocks read with a leading unit axis dropped;
  * the two scatter products, edge rows to nodes: entry (t, c) is the sum over the edge rows r of the indicator sum at
    (r, t) times the sum of two column blocks of the edge features at (r, c);
  * the accumulations into the node scratch, the zero fill, the half step `x + m · ½`;
  * the two output linear layers: entry (t, o) is the sum over d of the updated node row at column d (or 128 + d) times
    the weight at (o, d), plus the bias at o.
-/
import proofs.«411520_j71347996721296_1_alg».proof.Proof.Gen.KernelIdeal.Skeleton
import proofs.«411520_j71347996721296_1_alg».proof.Proof.KerSpec
import proofs.«411520_j71347996721296_1_alg».proof.Proof.LibDotLastAxis
import Idealize.ShloMosaic.Lib.ValueLayout
import Idealize.ShloMosaic.PureOps.Ideal.Laws

noncomputable section

open scoped BigOperators

namespace Cert.KernelIdeal.PayNode

open Cert.KernelIdeal Cert.KernelIdeal.Gen Idealize.ShloMosaic Idealize.ShloMosaic.ValueIdx

theorem pay2_apply (j : S1024x256.Idx) : k0_pay2 (F := Ideal) j = 0 := by
  unfold k0_pay2
  rw [shapeCast_self]
  exact Ideal.ofBits_zero_f32

theorem pay10_apply (v26 : Vec Ideal S1x512x512 .f32) (r q : Fin 512) :
    k0_pay10 v26 (ix2 r q) = v26 (ix3 0 r q) := by
  unfold k0_pay10
  exact shapeCast_1ab_ab_apply v26 _ r q

theorem pay6_apply (v21 : Vec Ideal S1x1024x256 .f32) (t : Fin 1024) (q : Fin 256) :
    k0_pay6 v21 (ix2 t q) = v21 (ix3 0 t q) := by
  unfold k0_pay6
  exact shapeCast_1ab_ab_apply v21 _ t q

theorem pay13_apply (v36 : FVec Ideal S1024x128 .f32) (v38 : Vec Ideal S1024x128 .f32) (t : Fin 1024) (c : Fin 128) :
    k0_pay13 v36 v38 (ix2 t c) = v38 (ix2 t c) + v36 (ix2 t c) := by
  unfold k0_pay13
  rw [shapeCast_self]
  rfl

theorem pay14_apply (v37 : FVec Ideal S1024x128 .f32) (v43 : Vec Ideal S1024x128 .f32) (t : Fin 1024) (c : Fin 128) :
    k0_pay14 v37 v43 (ix2 t c) = v43 (ix2 t c) + v37 (ix2 t c) := by
  unfold k0_pay14
  rw [shapeCast_self]
  rfl

theorem pay15_apply (v22 : FVec Ideal S1024x256 .f32) (v125 : Vec Ideal S1024x256 .f32) (t : Fin 1024) (q : Fin 256) :
    k0_pay15 v22 v125 (ix2 t q) = v22 (ix2 t q) + v125 (ix2 t q) * Ideal.ofBits .f32 0x3F000000#32 := by
  unfold k0_pay15
  rfl

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison of a word with a node number, widened to a word and converted, is the indicator of the node. -/
theorem sitofp_extui_cmpi_eq (w : BitVec 32) (t : Fin 1024) :
    (FloatOps.sitofp (F := Ideal) .f32 ((IntOp.cmpi .eq w (BitVec.ofNat 32 t.val)).setWidth 32) : EReal)
      = Cert.KerSpec.oneHot w t := by
  unfold Cert.KerSpec.oneHot
  by_cases h : w = BitVec.ofNat 32 t.val
  · rw [if_pos h]
    have e : IntOp.cmpi .eq w (BitVec.ofNat 32 t.val) = 1#1 := by
      unfold IntOp.cmpi; rw [h]; simp
    rw [e]
    show (((BitVec.setWidth 32 1#1).toInt : ℝ) : EReal) = 1
    have : (BitVec.setWidth 32 1#1).toInt = 1 := by decide
    rw [this]; norm_num
  · rw [if_neg h]
    have e : IntOp.cmpi .eq w (BitVec.ofNat 32 t.val) = 0#1 := by
      have hb : (w == BitVec.ofNat 32 t.val) = false := beq_eq_false_iff_ne.mpr h
      show BitVec.ofBool (w == BitVec.ofNat 32 t.val) = 0#1
      rw [hb]; rfl
    rw [e]
    show (((BitVec.setWidth 32 0#1).toInt : ℝ) : EReal) = 0
    have : (BitVec.setWidth 32 0#1).toInt = 0 := by decide
    rw [this]; norm_num

theorem pay3_apply (v3 : Vec Ideal S1x512 .i32) (r : Fin 512) (t : Fin 1024) :
    k0_pay3 (F := Ideal) v3 (ix2 r t) = Cert.KerSpec.oneHot (v3 (ix2 0 r)) t := by
  unfold k0_pay3
  rw [truncf_apply, sitofp_apply, extui_apply]
  show FloatOps.sitofp .f32 ((IntOp.cmpi .eq (broadcastTo S512x1024 _ _ (ix2 r t)) (iota .tc S512x1024 32 [1] _ (ix2 r t))).setWidth 32) = _
  rw [broadcastTo_a1_ab_apply, shapeCast_a_a1_apply, shapeCast_1a_a_apply, iota_single_apply]
  exact sitofp_extui_cmpi_eq _ t

theorem pay4_apply (v5 : Vec Ideal S1x512 .i32) (r : Fin 512) (t : Fin 1024) :
    k0_pay4 (F := Ideal) v5 (ix2 r t) = Cert.KerSpec.oneHot (v5 (ix2 0 r)) t := by
  unfold k0_pay4
  rw [truncf_apply, sitofp_apply, extui_apply]
  show FloatOps.sitofp .f32 ((IntOp.cmpi .eq (broadcastTo S512x1024 _ _ (ix2 r t)) (iota .tc S512x1024 32 [1] _ (ix2 r t))).setWidth 32) = _
  rw [broadcastTo_a1_ab_apply, shapeCast_a_a1_apply, shapeCast_1a_a_apply, iota_single_apply]
  exact sitofp_extui_cmpi_eq _ t

theorem pay5_apply (v3 v5 : Vec Ideal S1x512 .i32) (r : Fin 512) (t : Fin 1024) :
    k0_pay5 (F := Ideal) v3 v5 (ix2 r t)
      = Cert.KerSpec.oneHot (v3 (ix2 0 r)) t + Cert.KerSpec.oneHot (v5 (ix2 0 r)) t := by
  unfold k0_pay5
  rw [addf_apply, pay3_apply, pay4_apply]

/-- The matrix unit's product of two blocks that both carry the contracted axis FIRST, accumulated from zero: entry
    (a, b) is the sum over the contracted coordinate `c` of `A (c, a) · B (c, b)`. -/
theorem matmul_firstAxis_zero_apply {m n k : Nat} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    FloatOps.matmul (⟨[0], [0], [1], [1], [], [], w⟩ : DotDims ⟨2, ![k, m]⟩ ⟨2, ![k, n]⟩ ⟨2, ![m, n]⟩) prec A B
        (constant ⟨2, ![m, n]⟩ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The kernel's product that scatters edge rows to nodes: [512, 1024] against [512, 128] over the edge axis. -/
theorem matmul_edges_apply (A : FVec Ideal S512x1024 .bf16) (B : FVec Ideal S512x128 .bf16) (t : Fin 1024) (c : Fin 128) :
    matmul dot_S512x1024_S512x128_S1024x128_0_0_1_1_n_n none A B (constant (F := Ideal) S1024x128 .f32 0x00000000#32) (ix2 t c)
      = ∑ r : Fin 512, A (ix2 r t) * B (ix2 r c) :=
  matmul_firstAxis_zero_apply (m := 1024) (n := 128) (k := 512) dot_S512x1024_S512x128_S1024x128_0_0_1_1_n_n_wf none A B t c

/-- The kernel's linear layer on node rows: [1024, 128] against [128, 128] over their last axes. -/
theorem matmul_layer_apply (A : FVec Ideal S1024x128 .bf16) (B : FVec Ideal S128x128 .bf16) (t : Fin 1024) (o : Fin 128) :
    matmul dot_S1024x128_S128x128_S1024x128_1_1_0_0_n_n none A B (constant (F := Ideal) S1024x128 .f32 0x00000000#32) (ix2 t o)
      = ∑ d : Fin 128, A (ix2 t d) * B (ix2 o d) :=
  Idealize.ShloMosaic.LibDotLastAxis.matmul_zero_apply (m := 1024) (n := 128) (k := 128)
    dot_S1024x128_S128x128_S1024x128_1_1_0_0_n_n_wf none A B t o

theorem pay11_apply (v3 v5 : Vec Ideal S1x512 .i32) (v26 : Vec Ideal S1x512x512 .f32) (t : Fin 1024) (c : Fin 128) :
    k0_pay11 v3 v5 v26 (ix2 t c)
      = ∑ r : Fin 512, (Cert.KerSpec.oneHot (v3 (ix2 0 r)) t + Cert.KerSpec.oneHot (v5 (ix2 0 r)) t)
          * (v26 (ix3 0 r ⟨c.val, by omega⟩) + v26 (ix3 0 r ⟨c.val + 128, by omega⟩)) := by
  unfold k0_pay11
  rw [matmul_edges_apply]
  refine Finset.sum_congr rfl fun r _ => ?_
  rw [pay5_apply, truncf_apply, addf_apply,
    slice2_axis1_apply 0 _ _ r c ⟨c.val, by omega⟩ (by simp),
    slice2_axis1_apply 128 _ _ r c ⟨c.val + 128, by omega⟩ (by simp; omega),
    pay10_apply, pay10_apply]

theorem pay12_apply (v3 v5 : Vec Ideal S1x512 .i32) (v26 : Vec Ideal S1x512x512 .f32) (t : Fin 1024) (c : Fin 128) :
    k0_pay12 v3 v5 v26 (ix2 t c)
      = ∑ r : Fin 512, (Cert.KerSpec.oneHot (v3 (ix2 0 r)) t + Cert.KerSpec.oneHot (v5 (ix2 0 r)) t)
          * (v26 (ix3 0 r ⟨c.val + 256, by omega⟩) + v26 (ix3 0 r ⟨c.val + 384, by omega⟩)) := by
  unfold k0_pay12
  rw [matmul_edges_apply]
  refine Finset.sum_congr rfl fun r _ => ?_
  rw [pay5_apply, truncf_apply, addf_apply,
    slice2_axis1_apply 256 _ _ r c ⟨c.val + 256, by omega⟩ (by simp; omega),
    slice2_axis1_apply 384 _ _ r c ⟨c.val + 384, by omega⟩ (by simp; omega),
    pay10_apply, pay10_apply]

theorem pay17_apply (v22 : FVec Ideal S1024x256 .f32) (v125 : Vec Ideal S1024x256 .f32) (v131 : Vec Ideal S128x128 .f32)
    (v133 : Vec Ideal S128 .f32) (t : Fin 1024) (o : Fin 128) :
    k0_pay17 v22 v125 v131 v133 (ix3 0 t o)
      = (∑ d : Fin 128, k0_pay15 v22 v125 (ix2 t ⟨d.val, by omega⟩) * v131 (ix2 o d)) + v133 (ix1 o) := by
  unfold k0_pay17
  rw [shapeCast_ab_1ab_apply, addf_apply, matmul_layer_apply, broadcastTo_1b_ab_apply, shapeCast_a_1a_apply]
  congr 1
  refine Finset.sum_congr rfl fun d _ => ?_
  rw [truncf_apply, slice2_axis1_apply 0 _ _ t d ⟨d.val, by omega⟩ (by simp)]
  rfl

theorem pay18_apply (v22 : FVec Ideal S1024x256 .f32) (v125 : Vec Ideal S1024x256 .f32) (v131 : Vec Ideal S128x128 .f32)
    (v133 : Vec Ideal S128 .f32) (t : Fin 1024) (o : Fin 128) :
    k0_pay18 v22 v125 v131 v133 (ix3 0 t o)
      = (∑ d : Fin 128, k0_pay15 v22 v125 (ix2 t ⟨d.val + 128, by omega⟩) * v131 (ix2 o d)) + v133 (ix1 o) := by
  unfold k0_pay18
  rw [shapeCast_ab_1ab_apply, addf_apply, matmul_layer_apply, broadcastTo_1b_ab_apply, shapeCast_a_1a_apply]
  congr 1
  refine Finset.sum_congr rfl fun d _ => ?_
  rw [truncf_apply, slice2_axis1_apply 128 _ _ t d ⟨d.val + 128, by omega⟩ (by simp; omega)]
  rfl

end Cert.KernelIdeal.PayNode

end
-- ==== Proof.KerPieces.lean ====
/-
  What one grid point leaves in the carried accumulator and in the node output's block, as functions of the blocks it
  was handed.

  The accumulator is a [1024, 256] array: row t is node t, the two halves of a row its two feature rows. A grid point adds
  to entry (t, q) the sum, over the 512 edges r of its stretch, of (indicator that the edge comes from t + indicator that
  it goes to t) times the sum of the edge's two feature rows of the pair q / 128, at feature q % 128 (`tileSum`); the
  first point of a batch starts from zero. The last point of a batch then writes the node output's block: a linear map
  of (node row + half the accumulator) plus a bias (`xoutG`).
-/
import proofs.«411520_j71347996721296_1_alg».proof.Proof.Gen.KernelIdeal.Frame
import proofs.«411520_j71347996721296_1_alg».proof.Proof.KerPayNode
import proofs.«411520_j71347996721296_1_alg».proof.Proof.KerSpec
import Idealize.ShloMosaic.Lib.Pipeline.Value
import Idealize.ShloMosaic.Lib.ValueIdx

set_option maxRecDepth 16384

noncomputable section

namespace Cert.KernelIdeal.Pieces

open Cert.KernelIdeal Cert.KernelIdeal.Gen Cert.KernelIdeal.PayNode Cert.KerSpec
open Idealize.ShloMosaic Idealize.ShloMosaic.TcCoe Idealize.ShloMosaic.Tactic Idealize.ShloMosaic.ValueIdx
open Idealize.SL Idealize.SL.Sem

/-! ## Rectangles of unit stride, read at an index -/

theorem ix2_congr {n0 n1 : Nat} {a a' : Fin n0} {b b' : Fin n1} (h0 : a = a') (h1 : b = b') : ix2 a b = ix2 a' b' := by
  subst h0 h1; rfl

theorem ix3_congr {n0 n1 n2 : Nat} {a a' : Fin n0} {b b' : Fin n1} {c c' : Fin n2} (h0 : a = a') (h1 : b = b') (h2 : c = c') :
    ix3 a b c = ix3 a' b' c' := by
  subst h0 h1 h2; rfl

/-- Entry (t, c) of a unit-stride rectangle at offsets (o0, o1) is entry (o0 + t, o1 + c) of the array. -/
theorem emb_unit2 {n0 n1 : Nat} (o0 o1 z0 z1 : Nat) (inb) (t : Fin z0) (c : Fin z1) (h0 : o0 + t.val < n0) (h1 : o1 + c.val < n1) :
    (Rect.unit (s := (⟨2, ![n0, n1]⟩ : Shape)) ![o0, o1] ![z0, z1] inb).emb (ix2 t c)
      = ix2 (⟨o0 + t.val, h0⟩ : Fin n0) (⟨o1 + c.val, h1⟩ : Fin n1) := by
  funext a
  match a with
  | ⟨0, _⟩ => apply Fin.ext; simp [Rect.unit, Rect.emb, LoadRect.idx]
  | ⟨1, _⟩ => apply Fin.ext; simp [Rect.unit, Rect.emb, LoadRect.idx]

theorem emb_unit3 {n0 n1 n2 : Nat} (o0 o1 o2 z0 z1 z2 : Nat) (inb) (a : Fin z0) (t : Fin z1) (c : Fin z2)
    (h0 : o0 + a.val < n0) (h1 : o1 + t.val < n1) (h2 : o2 + c.val < n2) :
    (Rect.unit (s := (⟨3, ![n0, n1, n2]⟩ : Shape)) ![o0, o1, o2] ![z0, z1, z2] inb).emb (ix3 a t c)
      = ix3 (⟨o0 + a.val, h0⟩ : Fin n0) (⟨o1 + t.val, h1⟩ : Fin n1) (⟨o2 + c.val, h2⟩ : Fin n2) := by
  funext d
  match d with
  | ⟨0, _⟩ => apply Fin.ext; simp [Rect.unit, Rect.emb, LoadRect.idx]
  | ⟨1, _⟩ => apply Fin.ext; simp [Rect.unit, Rect.emb, LoadRect.idx]
  | ⟨2, _⟩ => apply Fin.ext; simp [Rect.unit, Rect.emb, LoadRect.idx]

/-! ## One grid point's contribution to the accumulator -/

/-- The sum over a stretch's 512 edges of (from-indicator + to-indicator) times the paired feature rows. -/
def tileSum (x0 : Vec Ideal S1x512x512 .f32) (x2 : Vec Ideal S2x512 .i32) (t : Fin 1024) (q : Fin 256) : EReal :=
  ∑ r : Fin 512, (oneHot (x2 (ix2 0 r)) t + oneHot (x2 (ix2 1 r)) t) *
    (x0 (ix3 0 r (⟨256 * (q.val / 128) + q.val % 128, by omega⟩ : Fin 512))
      + x0 (ix3 0 r (⟨256 * (q.val / 128) + q.val % 128 + 128, by omega⟩ : Fin 512)))

/-- The accumulator after a point that found it at `xs0`. -/
def accG (xs0 : Vec Ideal S1024x256 .f32) (x0 : Vec Ideal S1x512x512 .f32) (x2 : Vec Ideal S2x512 .i32) :
    Vec Ideal S1024x256 .f32 := fun j => xs0 j + tileSum x0 x2 (j 0) (j 1)

theorem accG_apply (xs0 : Vec Ideal S1024x256 .f32) (x0 : Vec Ideal S1x512x512 .f32) (x2 : Vec Ideal S2x512 .i32)
    (t : Fin 1024) (q : Fin 256) : accG xs0 x0 x2 (ix2 t q) = xs0 (ix2 t q) + tileSum x0 x2 t q := rfl

/-- The two rows of the end-node block, loaded as [1, 512] rows. -/
theorem ld_row0 (x2 : Vec Ideal S2x512 .i32) (inb) (r : Fin 512) :
    View.ld x2 (Rect.unit (s := S2x512) ![0, 0] ![1, 512] inb) (ix2 0 r) = x2 (ix2 0 r) := by
  show x2 ((Rect.unit (s := S2x512) ![0, 0] ![1, 512] inb).emb (ix2 0 r)) = _
  rw [emb_unit2 0 0 1 512 inb 0 r (by simp) (by simp)]
  exact congrArg x2 (ix2_congr (Fin.ext (by simp)) (Fin.ext (by simp)))

theorem ld_row1 (x2 : Vec Ideal S2x512 .i32) (inb) (r : Fin 512) :
    View.ld x2 (Rect.unit (s := S2x512) ![1, 0] ![1, 512] inb) (ix2 0 r) = x2 (ix2 1 r) := by
  show x2 ((Rect.unit (s := S2x512) ![1, 0] ![1, 512] inb).emb (ix2 0 r)) = _
  rw [emb_unit2 1 0 1 512 inb 0 r (by simp) (by simp)]
  exact congrArg x2 (ix2_congr (Fin.ext (by simp)) (Fin.ext (by simp)))

/-- Entry (t, c) of the left half is entry (t, c) of the accumulator, of the right half entry (t, c + 128). -/
theorem emb_left (inb) (t : Fin 1024) (c : Fin 128) :
    (Rect.unit (s := S1024x256) ![0, 0] ![1024, 128] inb).emb (ix2 t c) = ix2 t (⟨c.val, by omega⟩ : Fin 256) :=
  (emb_unit2 0 0 1024 128 inb t c (by omega) (by omega)).trans (ix2_congr (Fin.ext (by simp)) (Fin.ext (by simp)))

theorem emb_right (inb) (t : Fin 1024) (c : Fin 128) :
    (Rect.unit (s := S1024x256) ![0, 128] ![1024, 128] inb).emb (ix2 t c) = ix2 t (⟨c.val + 128, by omega⟩ : Fin 256) :=
  (emb_unit2 0 128 1024 128 inb t c (by omega) (by omega)).trans (ix2_congr (Fin.ext (by simp)) (Fin.ext (by simp; omega)))

/-- The left half's store: columns 0..127 of the accumulator. -/
theorem piece_left (xs0 : Vec Ideal S1024x256 .f32) (x0 : Vec Ideal S1x512x512 .f32) (x2 : Vec Ideal S2x512 .i32)
    (i00 i0 i1 iw) (x : (Rect.unit (s := S1024x256) ![0, 0] ![1024, 128] i00).shape.Idx) :
    k0_pay13 (F := Ideal)
        (k0_pay11 (View.ld x2 (Rect.unit (s := S2x512) ![0, 0] ![1, 512] i0)) (View.ld x2 (Rect.unit (s := S2x512) ![1, 0] ![1, 512] i1))
          (View.ld x0 (Rect.unit (s := S1x512x512) ![0, 0, 0] ![1, 512, 512] iw)))
        (View.ld xs0 (Rect.unit (s := S1024x256) ![0, 0] ![1024, 128] i00)) x
      = accG xs0 x0 x2 ((Rect.unit (s := S1024x256) ![0, 0] ![1024, 128] i00).emb x) := by
  obtain ⟨t, c, rfl⟩ : ∃ (t : Fin 1024) (c : Fin 128), x = ix2 t c := ⟨x 0, x 1, eq_ix2 x⟩
  rw [pay13_apply, pay11_apply, emb_left i00 t c, accG_apply]
  rw [View.ld_unit_zero (S := S1x512x512) (by funext a; fin_cases a <;> rfl)]
  congr 1
  · show xs0 ((Rect.unit (s := S1024x256) ![0, 0] ![1024, 128] i00).emb (ix2 t c)) = _
    rw [emb_left i00 t c]
  · unfold tileSum
    refine Finset.sum_congr rfl fun r _ => ?_
    rw [ld_row0 x2 i0 r, ld_row1 x2 i1 r]
    congr 2
    · exact congrArg x0 (ix3_congr rfl rfl (Fin.ext (by simp only []; omega)))
    · exact congrArg x0 (ix3_congr rfl rfl (Fin.ext (by simp only []; omega)))

/-- The right half's store: columns 128..255 of the accumulator. -/
theorem piece_right (xs0 : Vec Ideal S1024x256 .f32) (x0 : Vec Ideal S1x512x512 .f32) (x2 : Vec Ideal S2x512 .i32)
    (i00 i0 i1 iw) (x : (Rect.unit (s := S1024x256) ![0, 128] ![1024, 128] i00).shape.Idx) :
    k0_pay14 (F := Ideal)
        (k0_pay12 (View.ld x2 (Rect.unit (s := S2x512) ![0, 0] ![1, 512] i0)) (View.ld x2 (Rect.unit (s := S2x512) ![1, 0] ![1, 512] i1))
          (View.ld x0 (Rect.unit (s := S1x512x512) ![0, 0, 0] ![1, 512, 512] iw)))
        (View.ld xs0 (Rect.unit (s := S1024x256) ![0, 128] ![1024, 128] i00)) x
      = accG xs0 x0 x2 ((Rect.unit (s := S1024x256) ![0, 128] ![1024, 128] i00).emb x) := by
  obtain ⟨t, c, rfl⟩ : ∃ (t : Fin 1024) (c : Fin 128), x = ix2 t c := ⟨x 0, x 1, eq_ix2 x⟩
  rw [pay14_apply, pay12_apply, emb_right i00 t c, accG_apply]
  rw [View.ld_unit_zero (S := S1x512x512) (by funext a; fin_cases a <;> rfl)]
  congr 1
  · show xs0 ((Rect.unit (s := S1024x256) ![0, 128] ![1024, 128] i00).emb (ix2 t c)) = _
    rw [emb_right i00 t c]
  · unfold tileSum
    refine Finset.sum_congr rfl fun r _ => ?_
    rw [ld_row0 x2 i0 r, ld_row1 x2 i1 r]
    congr 2
    · exact congrArg x0 (ix3_congr rfl rfl (Fin.ext (by simp only []; omega)))
    · exact congrArg x0 (ix3_congr rfl rfl (Fin.ext (by simp only []; omega)))

/-- Case B: the accumulator after the point is what it found plus the point's contribution. -/
theorem sout_B (c : Dev nD) (i : grid0.Coords) (arg2 : Memref sig .tc .vmem S1x512x512 .f32) (harg2 : arg2.IsWhole) (arg3 : Memref sig .tc .vmem S1x1024x256 .f32) (harg3 : arg3.IsWhole) (arg4 : Memref sig .tc .vmem S2x512 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x256 .f32) (harg11 : arg11.IsWhole) (arg12 : Memref sig .tc .vmem S1x512x512 .f32) (harg12 : arg12.IsWhole) (arg13 : Memref sig .tc .vmem S1024x256 .f32) (harg13 : arg13.IsWhole) (hc0 : ¬cond0_0 i) (hc1 : ¬cond0_1 i) (x0 : Vec Ideal S1x512x512 .f32) (x1 : Vec Ideal S1x1024x256 .f32) (x2 : Vec Ideal S2x512 .i32) (x3 : Vec Ideal S128x128 .f32) (x4 : Vec Ideal S128 .f32) (x5 : Vec Ideal S128x128 .f32) (x6 : Vec Ideal S128 .f32) (x7 : Vec Ideal S128x128 .f32) (x8 : Vec Ideal S128 .f32) (xs0 : Vec Ideal S1024x256 .f32) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = accG xs0 x0 x2 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  funext j
  refine View.canon_apply_of_pieces (accG xs0 x0 x2) _ ?_ j (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 j)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  intro p hp
  simp only [List.mem_cons, List.not_mem_nil, or_false] at hp
  rcases hp with rfl | rfl
  · exact piece_right xs0 x0 x2 _ _ _ _
  · exact piece_left xs0 x0 x2 _ _ _ _

/-- Case C: the accumulator after the point is what it found plus the point's contribution. -/
theorem sout_C (c : Dev nD) (i : grid0.Coords) (arg2 : Memref sig .tc .vmem S1x512x512 .f32) (harg2 : arg2.IsWhole) (arg3 : Memref sig .tc .vmem S1x1024x256 .f32) (harg3 : arg3.IsWhole) (arg4 : Memref sig .tc .vmem S2x512 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x256 .f32) (harg11 : arg11.IsWhole) (arg12 : Memref sig .tc .vmem S1x512x512 .f32) (harg12 : arg12.IsWhole) (arg13 : Memref sig .tc .vmem S1024x256 .f32) (harg13 : arg13.IsWhole) (hc0 : ¬cond0_0 i) (hc1 : cond0_1 i) (x0 : Vec Ideal S1x512x512 .f32) (x1 : Vec Ideal S1x1024x256 .f32) (x2 : Vec Ideal S2x512 .i32) (x3 : Vec Ideal S128x128 .f32) (x4 : Vec Ideal S128 .f32) (x5 : Vec Ideal S128x128 .f32) (x6 : Vec Ideal S128 .f32) (x7 : Vec Ideal S128x128 .f32) (x8 : Vec Ideal S128 .f32) (xs0 : Vec Ideal S1024x256 .f32) :
    sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = accG xs0 x0 x2 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  funext j
  refine View.canon_apply_of_pieces (accG xs0 x0 x2) _ ?_ j (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 j)
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  intro p hp
  simp only [List.mem_cons, List.not_mem_nil, or_false] at hp
  rcases hp with rfl | rfl
  · exact piece_right xs0 x0 x2 _ _ _ _
  · exact piece_left xs0 x0 x2 _ _ _ _

/-! ## The first point of a batch: the accumulator is zeroed first -/

/-- The zero array. -/
def Z : Vec Ideal S1024x256 .f32 := fun _ => 0

/-- A list of stores read at an index that one of its FIRST stores covers, when those agree with one function. -/
theorem canon_apply_of_prefix {Val : EltTy → Type} [∀ e, Nonempty (Val e)] {S : Shape} {e : EltTy} (G : S.Idx → Val e)
    (L2 : List (View.Piece Val S e)) :
    ∀ (L1 : List (View.Piece Val S e)) (_ : ∀ p ∈ L1, ∀ x : p.1.shape.Idx, p.2 x = G (p.1.emb x)) (y : S.Idx)
      (_ : ∃ p ∈ L1, y ∈ p.1.set), View.canon (L1 ++ L2) y = G y
  | [], _, _, hy => by obtain ⟨p, hp, _⟩ := hy; simp at hp
  | p :: L, hL, y, hy => by
    by_cases hm : y ∈ p.1.set
    · obtain ⟨x, rfl⟩ := p.1.exists_idx_of_mem hm
      rw [List.cons_append, show p.1.idx x = p.1.emb x from rfl, View.canon_cons_emb]
      exact hL p (by simp) x
    · rw [List.cons_append, View.canon_cons_of_not_mem _ _ hm]
      refine canon_apply_of_prefix G L2 L (fun q hq => hL q (by simp [hq])) y ?_
      obtain ⟨q, hq, hyq⟩ := hy
      rcases List.mem_cons.mp hq with rfl | hq'
      · exact absurd hyq hm
      · exact ⟨q, hq', hyq⟩

/-- The two half stores cover the accumulator. -/
theorem cover_halves (iR iL) (wR wL) (y : S1024x256.Idx) :
    ∃ p ∈ [(⟨Rect.unit (s := S1024x256) ![0, 128] ![1024, 128] iR, wR⟩ : View.Piece (Elt Ideal) S1024x256 .f32),
            ⟨Rect.unit (s := S1024x256) ![0, 0] ![1024, 128] iL, wL⟩], y ∈ p.1.set := by
  obtain ⟨t, q, rfl⟩ : ∃ (t : Fin 1024) (q : Fin 256), y = ix2 t q := ⟨y 0, y 1, eq_ix2 y⟩
  by_cases hq : q.val < 128
  · refine ⟨_, List.mem_cons_of_mem _ (List.mem_singleton_self _), ?_⟩
    rw [Rect.mem_set_unit]
    intro a
    match a with
    | ⟨0, _⟩ => exact ⟨Nat.zero_le _, by show t.val < 0 + 1024; omega⟩
    | ⟨1, _⟩ => exact ⟨Nat.zero_le _, by show q.val < 0 + 128; omega⟩
  · refine ⟨_, List.mem_cons_self, ?_⟩
    rw [Rect.mem_set_unit]
    intro a
    match a with
    | ⟨0, _⟩ => exact ⟨Nat.zero_le _, by show t.val < 0 + 1024; omega⟩
    | ⟨1, _⟩ => exact ⟨by show 128 ≤ q.val; omega, by show q.val < 128 + 128; omega⟩

/-- An entry of the right half is not in the left half. -/
theorem right_not_left (iR iL) (x : (Rect.unit (s := S1024x256) ![0, 128] ![1024, 128] iR).shape.Idx) :
    (Rect.unit (s := S1024x256) ![0, 128] ![1024, 128] iR).emb x ∉ (Rect.unit (s := S1024x256) ![0, 0] ![1024, 128] iL).set := by
  obtain ⟨t, c, rfl⟩ : ∃ (t : Fin 1024) (c : Fin 128), x = ix2 t c := ⟨x 0, x 1, eq_ix2 x⟩
  rw [emb_right iR t c, Rect.mem_set_unit]
  intro h
  have := (h 1).2
  have e : ((ix2 t (⟨c.val + 128, by omega⟩ : Fin 256) : S1024x256.Idx) 1 : Nat) = c.val + 128 := rfl
  rw [e] at this
  have : c.val + 128 < 0 + 128 := this
  omega

/-- After the zeroing store, a load of the left half reads zeros. -/
theorem mem_whole (iw) (y : S1024x256.Idx) : y ∈ (Rect.unit (s := S1024x256) ![0, 0] ![1024, 256] iw).set := by
  obtain ⟨t, q, rfl⟩ : ∃ (t : Fin 1024) (q : Fin 256), y = ix2 t q := ⟨y 0, y 1, eq_ix2 y⟩
  rw [Rect.mem_set_unit]
  intro a
  match a with
  | ⟨0, _⟩ => exact ⟨Nat.zero_le _, by show t.val < 0 + 1024; omega⟩
  | ⟨1, _⟩ => exact ⟨Nat.zero_le _, by show q.val < 0 + 256; omega⟩

theorem pay2_eq_Z : (k0_pay2 (F := Ideal)) = Z := funext fun j => pay2_apply j

theorem readCov_zero_left {sig' : RefSig} (v : View sig' .tc .vmem S1024x256 .f32) (iw i00) :
    v.readCov [(⟨Rect.unit (s := S1024x256) ![0, 0] ![1024, 256] iw, k0_pay2 (F := Ideal)⟩ : View.Piece (Elt Ideal) S1024x256 .f32)]
        (Rect.unit (s := S1024x256) ![0, 0] ![1024, 128] i00).toLoadRect
      = View.ld Z (Rect.unit (s := S1024x256) ![0, 0] ![1024, 128] i00) := by
  have hz : (![0, 0] : Fin S1024x256.rank → Nat) = fun _ => 0 := by funext a; fin_cases a <;> rfl
  have h1 := View.readCov_eq_canon_ld (Val := Elt Ideal) v
    [(⟨Rect.unit (s := S1024x256) ![0, 0] ![1024, 256] iw, k0_pay2 (F := Ideal)⟩ : View.Piece (Elt Ideal) S1024x256 .f32)]
    (Rect.unit (s := S1024x256) ![0, 0] ![1024, 128] i00) (fun y => ⟨_, List.mem_singleton_self _, mem_whole iw y⟩)
  refine h1.trans ?_
  have h2 := View.canon_unit_zero (Val := Elt Ideal) (S := S1024x256) (e := .f32) hz iw (k0_pay2 (F := Ideal) : S1024x256.Idx → Elt Ideal .f32)
  rw [h2, pay2_eq_Z]

/-- After the zeroing store and the left half's store, a load of the right half still reads zeros. -/
theorem readCov_zero_right {sig' : RefSig} (v : View sig' .tc .vmem S1024x256 .f32) (iw iL iR) (wL) :
    v.readCov [(⟨Rect.unit (s := S1024x256) ![0, 0] ![1024, 128] iL, wL⟩ : View.Piece (Elt Ideal) S1024x256 .f32),
          ⟨Rect.unit (s := S1024x256) ![0, 0] ![1024, 256] iw, k0_pay2 (F := Ideal)⟩]
        (Rect.unit (s := S1024x256) ![0, 128] ![1024, 128] iR).toLoadRect
      = View.ld Z (Rect.unit (s := S1024x256) ![0, 128] ![1024, 128] iR) := by
  have hz : (![0, 0] : Fin S1024x256.rank → Nat) = fun _ => 0 := by funext a; fin_cases a <;> rfl
  have h1 := View.readCov_eq_canon_ld (Val := Elt Ideal) v
    [(⟨Rect.unit (s := S1024x256) ![0, 0] ![1024, 128] iL, wL⟩ : View.Piece (Elt Ideal) S1024x256 .f32),
      ⟨Rect.unit (s := S1024x256) ![0, 0] ![1024, 256] iw, k0_pay2 (F := Ideal)⟩]
    (Rect.unit (s := S1024x256) ![0, 128] ![1024, 128] iR)
    (fun y => ⟨_, List.mem_cons_of_mem _ (List.mem_singleton_self _), mem_whole iw y⟩)
  refine h1.trans ?_
  funext x
  have h := View.canon_cons_of_not_mem (Val := Elt Ideal)
    (⟨Rect.unit (s := S1024x256) ![0, 0] ![1024, 128] iL, wL⟩ : View.Piece (Elt Ideal) S1024x256 .f32)
    [⟨Rect.unit (s := S1024x256) ![0, 0] ![1024, 256] iw, k0_pay2 (F := Ideal)⟩] (right_not_left iR iL x)
  refine h.trans ?_
  have h2 := View.canon_unit_zero (Val := Elt Ideal) (S := S1024x256) (e := .f32) hz iw (k0_pay2 (F := Ideal) : S1024x256.Idx → Elt Ideal .f32)
  rw [h2]
  exact pay2_apply _

/-- Case A: the accumulator after the first point of a batch is the point's contribution over zeros. -/
theorem sout_A (c : Dev nD) (i : grid0.Coords) (arg2 : Memref sig .tc .vmem S1x512x512 .f32) (harg2 : arg2.IsWhole) (arg3 : Memref sig .tc .vmem S1x1024x256 .f32) (harg3 : arg3.IsWhole) (arg4 : Memref sig .tc .vmem S2x512 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x256 .f32) (harg11 : arg11.IsWhole) (arg12 : Memref sig .tc .vmem S1x512x512 .f32) (harg12 : arg12.IsWhole) (arg13 : Memref sig .tc .vmem S1024x256 .f32) (harg13 : arg13.IsWhole) (hc0 : cond0_0 i) (hc1 : ¬cond0_1 i) (x0 : Vec Ideal S1x512x512 .f32) (x1 : Vec Ideal S1x1024x256 .f32) (x2 : Vec Ideal S2x512 .i32) (x3 : Vec Ideal S128x128 .f32) (x4 : Vec Ideal S128 .f32) (x5 : Vec Ideal S128x128 .f32) (x6 : Vec Ideal S128 .f32) (x7 : Vec Ideal S128x128 .f32) (x8 : Vec Ideal S128 .f32) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = accG Z x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  funext j
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  rw [readCov_zero_left, readCov_zero_right]
  refine canon_apply_of_prefix (accG Z x0 x2) [_] [_, _] ?_ j (cover_halves _ _ _ _ j)
  intro p hp
  simp only [List.mem_cons, List.not_mem_nil, or_false] at hp
  rcases hp with rfl | rfl
  · exact piece_right Z x0 x2 _ _ _ _
  · exact piece_left Z x0 x2 _ _ _ _

/-! ## The last point of a batch: the node output's block -/

/-- The node output's block: a linear map, along the feature axis, of (node row + half the accumulator), plus a bias;
    column q is output feature q % 128 of feature row q / 128. -/
def xoutE (x1 : Vec Ideal S1x1024x256 .f32) (acc : Vec Ideal S1024x256 .f32) (x3 : Vec Ideal S128x128 .f32) (x4 : Vec Ideal S128 .f32)
    (t : Fin 1024) (q : Fin 256) : EReal :=
  (∑ d : Fin 128,
      (x1 (ix3 0 t (⟨128 * (q.val / 128) + d.val, by omega⟩ : Fin 256))
        + acc (ix2 t (⟨128 * (q.val / 128) + d.val, by omega⟩ : Fin 256)) * Ideal.ofBits .f32 0x3F000000#32)
      * x3 (ix2 (⟨q.val % 128, by omega⟩ : Fin 128) d))
    + x4 (ix1 (⟨q.val % 128, by omega⟩ : Fin 128))

def xoutG (x1 : Vec Ideal S1x1024x256 .f32) (acc : Vec Ideal S1024x256 .f32) (x3 : Vec Ideal S128x128 .f32) (x4 : Vec Ideal S128 .f32) :
    Vec Ideal S1x1024x256 .f32 := fun j => xoutE x1 acc x3 x4 (j 1) (j 2)

theorem xoutG_apply (x1 : Vec Ideal S1x1024x256 .f32) (acc : Vec Ideal S1024x256 .f32) (x3 : Vec Ideal S128x128 .f32) (x4 : Vec Ideal S128 .f32)
    (a : Fin 1) (t : Fin 1024) (q : Fin 256) : xoutG x1 acc x3 x4 (ix3 a t q) = xoutE x1 acc x3 x4 t q := rfl

/-- After the two half stores, a load of the whole accumulator reads the updated accumulator. -/
theorem readCov_halves {sig' : RefSig} (v : View sig' .tc .vmem S1024x256 .f32) (xs0 : Vec Ideal S1024x256 .f32)
    (x0 : Vec Ideal S1x512x512 .f32) (x2 : Vec Ideal S2x512 .i32) (iR iL i0 i1 iw iW) :
    v.readCov
        [(⟨Rect.unit (s := S1024x256) ![0, 128] ![1024, 128] iR,
            k0_pay14 (F := Ideal)
              (k0_pay12 (View.ld x2 (Rect.unit (s := S2x512) ![0, 0] ![1, 512] i0)) (View.ld x2 (Rect.unit (s := S2x512) ![1, 0] ![1, 512] i1))
                (View.ld x0 (Rect.unit (s := S1x512x512) ![0, 0, 0] ![1, 512, 512] iw)))
              (View.ld xs0 (Rect.unit (s := S1024x256) ![0, 128] ![1024, 128] iR))⟩ : View.Piece (Elt Ideal) S1024x256 .f32),
          ⟨Rect.unit (s := S1024x256) ![0, 0] ![1024, 128] iL,
            k0_pay13 (F := Ideal)
              (k0_pay11 (View.ld x2 (Rect.unit (s := S2x512) ![0, 0] ![1, 512] i0)) (View.ld x2 (Rect.unit (s := S2x512) ![1, 0] ![1, 512] i1))
                (View.ld x0 (Rect.unit (s := S1x512x512) ![0, 0, 0] ![1, 512, 512] iw)))
              (View.ld xs0 (Rect.unit (s := S1024x256) ![0, 0] ![1024, 128] iL))⟩]
        (Rect.unit (s := S1024x256) ![0, 0] ![1024, 256] iW).toLoadRect
      = accG xs0 x0 x2 := by
  have hz : (![0, 0] : Fin S1024x256.rank → Nat) = fun _ => 0 := by funext a; fin_cases a <;> rfl
  refine Eq.trans (View.readCov_eq_canon_ld (Val := Elt Ideal) v _ (Rect.unit (s := S1024x256) ![0, 0] ![1024, 256] iW)
    (fun y => cover_halves iR iL _ _ y)) ?_
  rw [View.ld_unit_zero (S := S1024x256) hz]
  funext j
  refine View.canon_apply_of_pieces (accG xs0 x0 x2) _ ?_ j (cover_halves iR iL _ _ j)
  intro p hp
  simp only [List.mem_cons, List.not_mem_nil, or_false] at hp
  rcases hp with rfl | rfl
  · exact piece_right xs0 x0 x2 _ _ _ _
  · exact piece_left xs0 x0 x2 _ _ _ _

/-- Entry (0, t, o) of the block's left half is entry (0, t, o) of the block, of its right half entry (0, t, o + 128). -/
theorem emb_x_left (inb) (t : Fin 1024) (o : Fin 128) :
    (Rect.unit (s := S1x1024x256) ![0, 0, 0] ![1, 1024, 128] inb).emb (ix3 0 t o) = ix3 0 t (⟨o.val, by omega⟩ : Fin 256) :=
  (emb_unit3 0 0 0 1 1024 128 inb 0 t o (by simp) (by omega) (by omega)).trans
    (ix3_congr (Fin.ext (by simp)) (Fin.ext (by simp)) (Fin.ext (by simp)))

theorem emb_x_right (inb) (t : Fin 1024) (o : Fin 128) :
    (Rect.unit (s := S1x1024x256) ![0, 0, 128] ![1, 1024, 128] inb).emb (ix3 0 t o) = ix3 0 t (⟨o.val + 128, by omega⟩ : Fin 256) :=
  (emb_unit3 0 0 128 1 1024 128 inb 0 t o (by simp) (by omega) (by omega)).trans
    (ix3_congr (Fin.ext (by simp)) (Fin.ext (by simp)) (Fin.ext (by simp; omega)))

theorem piece_x_left (x1 : Vec Ideal S1x1024x256 .f32) (acc : Vec Ideal S1024x256 .f32) (x3 : Vec Ideal S128x128 .f32) (x4 : Vec Ideal S128 .f32)
    (i i1 i3 i4) (x : (Rect.unit (s := S1x1024x256) ![0, 0, 0] ![1, 1024, 128] i).shape.Idx) :
    k0_pay17 (F := Ideal) (k0_pay6 (View.ld x1 (Rect.unit (s := S1x1024x256) ![0, 0, 0] ![1, 1024, 256] i1))) acc
        (View.ld x3 (Rect.unit (s := S128x128) ![0, 0] ![128, 128] i3)) (View.ld x4 (Rect.unit (s := S128) ![0] ![128] i4)) x
      = xoutG x1 acc x3 x4 ((Rect.unit (s := S1x1024x256) ![0, 0, 0] ![1, 1024, 128] i).emb x) := by
  obtain ⟨a, t, o, rfl⟩ : ∃ (a : Fin 1) (t : Fin 1024) (o : Fin 128), x = ix3 a t o := ⟨x 0, x 1, x 2, eq_ix3 x⟩
  obtain rfl : a = 0 := Subsingleton.elim _ _
  rw [pay17_apply, emb_x_left i t o, xoutG_apply]
  rw [View.ld_unit_zero (S := S1x1024x256) (by funext a; fin_cases a <;> rfl),
    View.ld_unit_zero (S := S128x128) (by funext a; fin_cases a <;> rfl),
    View.ld_unit_zero (S := S128) (by funext a; fin_cases a; rfl)]
  unfold xoutE
  congr 1
  · refine Finset.sum_congr rfl fun d _ => ?_
    rw [pay15_apply, pay6_apply]
    congr 1
    · congr 1
      · exact congrArg x1 (ix3_congr rfl rfl (Fin.ext (by simp only []; omega)))
      · congr 1
        exact congrArg acc (ix2_congr rfl (Fin.ext (by simp only []; omega)))
    · exact congrArg x3 (ix2_congr (Fin.ext (by simp only []; omega)) rfl)
  · exact congrArg x4 (congrArg ix1 (Fin.ext (by simp only []; omega)))

theorem piece_x_right (x1 : Vec Ideal S1x1024x256 .f32) (acc : Vec Ideal S1024x256 .f32) (x3 : Vec Ideal S128x128 .f32) (x4 : Vec Ideal S128 .f32)
    (i i1 i3 i4) (x : (Rect.unit (s := S1x1024x256) ![0, 0, 128] ![1, 1024, 128] i).shape.Idx) :
    k0_pay18 (F := Ideal) (k0_pay6 (View.ld x1 (Rect.unit (s := S1x1024x256) ![0, 0, 0] ![1, 1024, 256] i1))) acc
        (View.ld x3 (Rect.unit (s := S128x128) ![0, 0] ![128, 128] i3)) (View.ld x4 (Rect.unit (s := S128) ![0] ![128] i4)) x
      = xoutG x1 acc x3 x4 ((Rect.unit (s := S1x1024x256) ![0, 0, 128] ![1, 1024, 128] i).emb x) := by
  obtain ⟨a, t, o, rfl⟩ : ∃ (a : Fin 1) (t : Fin 1024) (o : Fin 128), x = ix3 a t o := ⟨x 0, x 1, x 2, eq_ix3 x⟩
  obtain rfl : a = 0 := Subsingleton.elim _ _
  rw [pay18_apply, emb_x_right i t o, xoutG_apply]
  rw [View.ld_unit_zero (S := S1x1024x256) (by funext a; fin_cases a <;> rfl),
    View.ld_unit_zero (S := S128x128) (by funext a; fin_cases a <;> rfl),
    View.ld_unit_zero (S := S128) (by funext a; fin_cases a; rfl)]
  unfold xoutE
  congr 1
  · refine Finset.sum_congr rfl fun d _ => ?_
    rw [pay15_apply, pay6_apply]
    congr 1
    · congr 1
      · exact congrArg x1 (ix3_congr rfl rfl (Fin.ext (by simp only []; omega)))
      · congr 1
        exact congrArg acc (ix2_congr rfl (Fin.ext (by simp only []; omega)))
    · exact congrArg x3 (ix2_congr (Fin.ext (by simp only []; omega)) rfl)
  · exact congrArg x4 (congrArg ix1 (Fin.ext (by simp only []; omega)))

/-- Case C: the node output's block after the last point of a batch. -/
theorem out9_C (c : Dev nD) (i : grid0.Coords) (arg2 : Memref sig .tc .vmem S1x512x512 .f32) (harg2 : arg2.IsWhole) (arg3 : Memref sig .tc .vmem S1x1024x256 .f32) (harg3 : arg3.IsWhole) (arg4 : Memref sig .tc .vmem S2x512 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x256 .f32) (harg11 : arg11.IsWhole) (arg12 : Memref sig .tc .vmem S1x512x512 .f32) (harg12 : arg12.IsWhole) (arg13 : Memref sig .tc .vmem S1024x256 .f32) (harg13 : arg13.IsWhole) (hc0 : ¬cond0_0 i) (hc1 : cond0_1 i) (x0 : Vec Ideal S1x512x512 .f32) (x1 : Vec Ideal S1x1024x256 .f32) (x2 : Vec Ideal S2x512 .i32) (x3 : Vec Ideal S128x128 .f32) (x4 : Vec Ideal S128 .f32) (x5 : Vec Ideal S128x128 .f32) (x6 : Vec Ideal S128 .f32) (x7 : Vec Ideal S128x128 .f32) (x8 : Vec Ideal S128 .f32) (xs0 : Vec Ideal S1024x256 .f32) :
    out0_C_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = xoutG x1 (accG xs0 x0 x2) x3 x4 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  funext j
  refine View.canon_apply_of_pieces (xoutG x1 (accG xs0 x0 x2) x3 x4) _ ?_ j (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 j)
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  have hacc := readCov_halves arg13.view xs0 x0 x2 inb_S1024x256_S1024x128_0_128 inb_S1024x256_S1024x128_0_0
    inb_S2x512_S1x512_0_0 inb_S2x512_S1x512_1_0 inb_S1x512x512_S1x512x512_0_0_0 inb_S1024x256_S1024x256_0_0
  rw [hacc]
  intro p hp
  simp only [List.mem_cons, List.not_mem_nil, or_false] at hp
  rcases hp with rfl | rfl
  · intro x
    exact piece_x_right x1 (accG xs0 x0 x2) x3 x4 inb_S1x1024x256_S1x1024x128_0_0_128 inb_S1x1024x256_S1x1024x256_0_0_0 inb_S128x128_S128x128_0_0 inb_S128_S128_0 x
  · intro x
    exact piece_x_left x1 (accG xs0 x0 x2) x3 x4 inb_S1x1024x256_S1x1024x128_0_0_0 inb_S1x1024x256_S1x1024x256_0_0_0 inb_S128x128_S128x128_0_0 inb_S128_S128_0 x

end Cert.KernelIdeal.Pieces

end
-- ==== Proof.KerMath.lean ====
/-
  The two sums that join the kernel's blockwise arithmetic to the specification.

  The kernel walks a batch's 16384 edges in 32 stretches of 512 and adds, per stretch, the indicator-weighted rows; the
  specification sums over all edges at once and keeps the two end numbers apart. And the kernel picks a node's row by
  summing all rows against an indicator, where the specification reads the row.
-/
import proofs.«411520_j71347996721296_1_alg».proof.Proof.Spec
import proofs.«411520_j71347996721296_1_alg».proof.Proof.KerSpec
import Mathlib.Data.EReal.Operations
import Mathlib.Algebra.BigOperators.Fin
import Mathlib.Logic.Equiv.Fin.Basic

noncomputable section

namespace Cert.KerMath

open Idealize.ShloMosaic Idealize.ShloMosaic.ValueIdx Cert.Spec Cert.KerSpec

/-- Edge number r of stretch j (stretches are counted modulo 32). -/
def edgeAt (j : Nat) (r : Fin 512) : Fin 16384 := ⟨512 * (j % 32) + r.val, by have := r.isLt; have := Nat.mod_lt j (by norm_num : 32 > 0); omega⟩

/-- A sum over m blocks of n entries each, entry b of block a being entry n · a + b of the whole, is the whole sum. -/
theorem sum_blocks {M : Type*} [AddCommMonoid M] {m n N : ℕ} (h : m * n = N) (f : Fin N → M)
    (g : Fin m → Fin n → Fin N) (hg : ∀ a b, (g a b).val = n * a.val + b.val) :
    ∑ a : Fin m, ∑ b : Fin n, f (g a b) = ∑ r : Fin N, f r := by
  subst h
  rw [← Equiv.sum_comp finProdFinEquiv f, Fintype.sum_prod_type]
  refine Finset.sum_congr rfl fun a _ => Finset.sum_congr rfl fun b _ => congrArg f (Fin.ext ?_)
  rw [hg, finProdFinEquiv_apply_val]
  exact Nat.add_comm _ _

/-- The 32 stretches of 512 edges are all 16384 edges, each once. -/
theorem sum_stretches {M : Type*} [AddCommMonoid M] (f : Fin 16384 → M) :
    ∑ j ∈ Finset.range 32, ∑ r : Fin 512, f (edgeAt j r) = ∑ m : Fin 16384, f m := by
  rw [Finset.sum_range fun j => ∑ r : Fin 512, f (edgeAt j r)]
  refine sum_blocks (m := 32) (n := 512) (by norm_num) f (fun a r => edgeAt a.val r) fun a r => ?_
  show 512 * (a.val % 32) + r.val = 512 * a.val + r.val
  rw [Nat.mod_eq_of_lt a.isLt]

/-- Under the range hypothesis the indicator of an end word is the indicator of the end node. -/
theorem oneHot_node (e : IVec SE 32) (he : InRange e) (r : Fin 2) (m : Fin 16384) (t : Fin 1024) :
    oneHot (e (ix2 r m)) t = if node e r m = t then 1 else 0 := by
  rw [oneHot_eq _ (he _) t]
  have h : (⟨(e (ix2 r m)).toNat, he _⟩ : Fin 1024) = node e r m := Fin.ext (node_val e he r m).symm
  rw [h]

/-- An indicator is not negative. -/
theorem ite_one_zero_nonneg (p : Prop) [Decidable p] : (0 : EReal) ≤ if p then 1 else 0 := by
  split
  · exact zero_le_one
  · exact le_refl _

/-- An indicator times a number keeps the number where the condition holds and is zero elsewhere. -/
theorem ite_one_zero_mul (p : Prop) [Decidable p] (x : EReal) : (if p then (1 : EReal) else 0) * x = if p then x else 0 := by
  rw [ite_mul, one_mul, zero_mul]

/-- Summing, over the 32 stretches and the 512 edges of each, the sum of the two indicators times the paired rows gives
    the two scatters of the specification, added. -/
theorem scat_tiles (x2 : FVec Ideal SX2 .f32) (e : IVec SE 32) (he : InRange e) (b : Fin 8) (t : Fin 1024) (s : Fin 2) (d : Fin 128) :
    (∑ j ∈ Finset.range 32, ∑ r : Fin 512,
        (oneHot (e (ix2 0 (edgeAt j r))) t + oneHot (e (ix2 1 (edgeAt j r))) t) * agg x2 b (edgeAt j r) s d)
      = scat x2 e 1 b t s d + scat x2 e 0 b t s d := by
  rw [sum_stretches fun m => (oneHot (e (ix2 0 m)) t + oneHot (e (ix2 1 m)) t) * agg x2 b m s d]
  unfold scat
  rw [← Finset.sum_add_distrib]
  refine Finset.sum_congr rfl fun m _ => ?_
  rw [oneHot_node e he 0 m t, oneHot_node e he 1 m t,
    EReal.right_distrib_of_nonneg (ite_one_zero_nonneg _) (ite_one_zero_nonneg _),
    ite_one_zero_mul, ite_one_zero_mul]
  exact add_comm _ _

/-- Summing all node rows against the indicator of an edge's end node reads that node's row. -/
theorem pick_node (x1 : FVec Ideal SX1 .f32) (e : IVec SE 32) (he : InRange e) (a : Fin 2) (m : Fin 16384) (b : Fin 8) (s : Fin 2) (d : Fin 128) :
    (∑ t : Fin 1024, oneHot (e (ix2 a m)) t * x1 (ix4 b t s d)) = x1 (ix4 b (node e a m) s d) := by
  have h : ∀ t : Fin 1024, oneHot (e (ix2 a m)) t * x1 (ix4 b t s d)
      = if node e a m = t then x1 (ix4 b t s d) else 0 := fun t => by
    rw [oneHot_node e he a m t, ite_one_zero_mul]
  rw [Finset.sum_congr rfl fun t _ => h t, Finset.sum_ite_eq Finset.univ (node e a m) fun t => x1 (ix4 b t s d),
    if_pos (Finset.mem_univ _)]

end Cert.KerMath

end
-- ==== Proof.KerGoal.lean ====
/-
  The two output arrays the kernel should end with, as the kernel lays them out: the specification's node and edge
  outputs with the feature-row axis and the feature axis merged into one (column q is feature q % 128 of row q / 128).
-/
import proofs.«411520_j71347996721296_1_alg».proof.Proof.Gen.KernelIdeal.Frame
import proofs.«411520_j71347996721296_1_alg».proof.Proof.Spec

noncomputable section

namespace Cert.KernelIdeal.Goal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The argument arrays on core c, at their literal types. -/
abbrev a0 (c : Dev nD) : FVec Ideal Cert.Spec.SX1 .f32 := m ((c.tc : Thread nD τ).loc main_arg0)
abbrev a1 (c : Dev nD) : FVec Ideal Cert.Spec.SX2 .f32 := m ((c.tc : Thread nD τ).loc main_arg1)
abbrev a2 (c : Dev nD) : IVec Cert.Spec.SE 32 := m ((c.tc : Thread nD τ).loc main_arg2)
abbrev a3 (c : Dev nD) : FVec Ideal Cert.Spec.SW .f32 := m ((c.tc : Thread nD τ).loc main_arg3)
abbrev a4 (c : Dev nD) : FVec Ideal Cert.Spec.SB .f32 := m ((c.tc : Thread nD τ).loc main_arg4)
abbrev a5 (c : Dev nD) : FVec Ideal Cert.Spec.SW .f32 := m ((c.tc : Thread nD τ).loc main_arg5)
abbrev a6 (c : Dev nD) : FVec Ideal Cert.Spec.SB .f32 := m ((c.tc : Thread nD τ).loc main_arg6)
abbrev a7 (c : Dev nD) : FVec Ideal Cert.Spec.SW .f32 := m ((c.tc : Thread nD τ).loc main_arg7)
abbrev a8 (c : Dev nD) : FVec Ideal Cert.Spec.SB .f32 := m ((c.tc : Thread nD τ).loc main_arg8)

/-- The node output as the kernel lays it out: [8, 1024, 256]. -/
def G9 (c : Dev nD) : FVec Ideal S8x1024x256 .f32 := fun j =>
  Cert.Spec.Xspec (a0 m c) (a1 m c) (a2 m c) (a3 m c) (a4 m c)
    (ix4 (j 0) (j 1) (⟨(j 2).val / 128, by have h : (j 2).val < 256 := (j 2).isLt; omega⟩ : Fin 2) (⟨(j 2).val % 128, by omega⟩ : Fin 128))

/-- The edge output as the kernel lays it out: [8, 16384, 512]. -/
def G10 (c : Dev nD) : FVec Ideal S8x16384x512 .f32 := fun j =>
  Cert.Spec.Espec (a0 m c) (a1 m c) (a2 m c) (a7 m c) (a8 m c) (a5 m c) (a6 m c)
    (ix4 (j 0) (j 1) (⟨(j 2).val / 128, by have h : (j 2).val < 512 := (j 2).isLt; omega⟩ : Fin 4) (⟨(j 2).val % 128, by omega⟩ : Fin 128))

end Cert.KernelIdeal.Goal

end
-- ==== Proof.KerFinalNode.lean ====
/-
  The node side of the kernel, point by point: the accumulator after each grid point is the sum of the stretches walked
  so far in the point's batch, so that the block the last point of a batch writes is that batch's slice of the
  specification's node output.
-/
import proofs.«411520_j71347996721296_1_alg».proof.Proof.KerArr
import proofs.«411520_j71347996721296_1_alg».proof.Proof.KerPieces
import proofs.«411520_j71347996721296_1_alg».proof.Proof.KerMath
import proofs.«411520_j71347996721296_1_alg».proof.Proof.KerGoal

set_option maxRecDepth 16384

noncomputable section

namespace Cert.KernelIdeal.FinalNode

open Cert.KernelIdeal Cert.KernelIdeal.Gen Cert.KernelIdeal.Pieces Cert.KernelIdeal.Arr Cert.KernelIdeal.Goal
open Idealize.ShloMosaic Idealize.ShloMosaic.TcCoe Idealize.SL.Sem Idealize.ShloMosaic.ValueIdx

variable (m : (ℓ : Loc nD τ sig) → Buf (Elt Ideal) ℓ)

/-- The input blocks of point t, at their literal types. -/
abbrev xb0 (c : Dev nD) (t : Fin cfg0.N) : Vec Ideal S1x512x512 .f32 := iblk m c 0 t
abbrev xb1 (c : Dev nD) (t : Fin cfg0.N) : Vec Ideal S1x1024x256 .f32 := iblk m c 1 t
abbrev xb2 (c : Dev nD) (t : Fin cfg0.N) : Vec Ideal S2x512 .i32 := iblk m c 2 t
abbrev xb3 (c : Dev nD) (t : Fin cfg0.N) : Vec Ideal S128x128 .f32 := iblk m c 3 t
abbrev xb4 (c : Dev nD) (t : Fin cfg0.N) : Vec Ideal S128 .f32 := iblk m c 4 t

/-- The accumulator after point n. -/
abbrev accAt (c : Dev nD) (n : Nat) (hn : n < cfg0.N) : Vec Ideal S1024x256 .f32 := (outsAt0 m c n hn).2.2

/-- The first point of a batch leaves its own contribution over zeros. -/
theorem acc_A (c : Dev nD) (t : Fin cfg0.N) (h0 : t.val % 32 = 0) :
    accAt m c t.val t.isLt = accG Z (xb0 m c t) (xb2 m c t) := by
  have h1 : ¬t.val % 32 = 31 := by omega
  show (outsAt0 m c t.val t.isLt).2.2 = _
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0)
    ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t) (iblk m c 8 t)

/-- Every other point adds its contribution to what the point before left. -/
theorem acc_S (c : Dev nD) (t : Fin cfg0.N) (h0 : ¬t.val % 32 = 0) :
    accAt m c t.val t.isLt
      = accG (accAt m c (t.val - 1) (Nat.lt_of_le_of_lt (Nat.sub_le _ _) t.isLt)) (xb0 m c t) (xb2 m c t) := by
  show (outsAt0 m c t.val t.isLt).2.2 = _
  by_cases h1 : t.val % 32 = 31
  · rw [outsAt0_C m c t h0 h1]
    dsimp only
    exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0)
      (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2
  · rw [outsAt0_B m c t h0 h1]
    dsimp only
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0)
      (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2

/-- The last point of a batch writes the node block from the accumulator it leaves. -/
theorem out9_at (c : Dev nD) (t : Fin cfg0.N) (h1 : t.val % 32 = 31) :
    (outsAt0 m c t.val t.isLt).1 = xoutG (xb1 m c t) (accAt m c t.val t.isLt) (xb3 m c t) (xb4 m c t) := by
  have h0 : ¬t.val % 32 = 0 := by omega
  rw [acc_S m c t h0, outsAt0_C m c t h0 h1]
  dsimp only
  exact out9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole cc0_scratch0)
    (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t)
    (outsAt0 m c (t.val - 1) (Nat.lt_of_le_of_lt (Nat.sub_le _ _) t.isLt)).2.2

theorem ix4_congr {n0 n1 n2 n3 : Nat} {a a' : Fin n0} {b b' : Fin n1} {c c' : Fin n2} {d d' : Fin n3}
    (h0 : a = a') (h1 : b = b') (h2 : c = c') (h3 : d = d') : ix4 a b c d = ix4 a' b' c' d' := by
  subst h0 h1 h2 h3; rfl

/-- Point number k of the grid (numbers are taken modulo the grid's 256 points). -/
def pt (k : Nat) : Fin cfg0.N := ⟨k % 256, lt_of_lt_of_eq (Nat.mod_lt _ (by norm_num)) N_0.symm⟩

/-- Point k's contribution to accumulator entry (n, q). -/
def tile (c : Dev nD) (k : Nat) (n : Fin 1024) (q : Fin 256) : EReal :=
  tileSum (xb0 m c (pt k)) (xb2 m c (pt k)) n q

/-- THE ACCUMULATION: after point k the accumulator holds the contributions of the points of k's batch up to k. -/
theorem acc_sum (c : Dev nD) (n : Fin 1024) (q : Fin 256) (k : Nat) : ∀ (hk : k < cfg0.N),
    accAt m c k hk (ix2 n q) = ∑ j ∈ Finset.range (k % 32 + 1), tile m c (32 * (k / 32) + j) n q := by
  induction k using Nat.strong_induction_on with
  | _ k ih =>
    intro hk
    have hN : cfg0.N = 256 := N_0
    by_cases h0 : k % 32 = 0
    · refine (congrFun (acc_A m c ⟨k, hk⟩ h0) (ix2 n q)).trans ?_
      have hz : Z (ix2 n q) = 0 := rfl
      have hp : pt (32 * (k / 32) + 0) = ⟨k, hk⟩ := Fin.ext (by show (32 * (k / 32) + 0) % 256 = k; omega)
      rw [accG_apply, hz, zero_add, h0, Nat.zero_add, Finset.sum_range_one]
      unfold tile
      rw [hp]
    · refine (congrFun (acc_S m c ⟨k, hk⟩ h0) (ix2 n q)).trans ?_
      have hp : pt (32 * (k / 32) + k % 32) = ⟨k, hk⟩ := Fin.ext (by show (32 * (k / 32) + k % 32) % 256 = k; omega)
      have e1 : (k - 1) % 32 + 1 = k % 32 := by omega
      have e2 : (k - 1) / 32 = k / 32 := by omega
      have ih' := ih (k - 1) (by omega) (by omega)
      rw [e1, e2] at ih'
      rw [accG_apply, Finset.sum_range_succ]
      refine congrArg₂ (· + ·) ih' ?_
      unfold tile
      rw [hp]

/-- What the last point of a batch leaves in the node output's window is that batch's block of the node output. -/
theorem h9 (he : ∀ c : Dev nD, Cert.Spec.InRange (a2 m c)) (c : Dev nD) (t : Fin cfg0.N) (ht : t.val % 32 = 31)
    (n : Fin 1024) (q : Fin 256) :
    (outsAt0 m c t.val t.isLt).1 (ix3 0 n q)
      = G9 m c (ix3 (⟨t.val / 32, by have := t.isLt; have : cfg0.N = 256 := N_0; omega⟩ : Fin 8) n q) := by
  have hN : cfg0.N = 256 := N_0
  have htl : t.val < cfg0.N := t.isLt
  have hq : q.val < 256 := q.isLt
  refine (congrFun (out9_at m c t ht) (ix3 0 n q)).trans ?_
  rw [xoutG_apply]
  unfold xoutE
  show _ = (∑ d : Fin 128, Cert.Spec.xfin (a0 m c) (a1 m c) (a2 m c) (⟨t.val / 32, by omega⟩ : Fin 8) n
        (⟨q.val / 128, by omega⟩ : Fin 2) d * a3 m c (ix2 (⟨q.val % 128, by omega⟩ : Fin 128) d))
      + a4 m c (ix1 (⟨q.val % 128, by omega⟩ : Fin 128))
  refine congrArg₂ (· + ·) (Finset.sum_congr rfl fun d _ => ?_) (congrFun (wblk4 m c t) _)
  have hd : d.val < 128 := d.isLt
  refine congrArg₂ (· * ·) ?_ (congrFun (wblk3 m c t) _)
  unfold Cert.Spec.xfin
  refine congrArg₂ (· + ·) ?_ (congrArg (fun z => z * Ideal.ofBits .f32 0x3F000000#32) ?_)
  · -- the node's own row
    refine (x1blk_apply m c t n (⟨128 * (q.val / 128) + d.val, by omega⟩ : Fin 256)).trans ?_
    exact congrArg (a0 m c) (ix4_congr rfl rfl (Fin.ext (by show (128 * (q.val / 128) + d.val) / 128 = q.val / 128; omega))
      (Fin.ext (by show (128 * (q.val / 128) + d.val) % 128 = d.val; omega)))
  · -- the accumulator: 32 stretches' contributions are the two scatters
    rw [acc_sum m c n (⟨128 * (q.val / 128) + d.val, by omega⟩ : Fin 256) t.val t.isLt, ht,
      ← Cert.KerMath.scat_tiles (a1 m c) (a2 m c) (he c) (⟨t.val / 32, by omega⟩ : Fin 8) n (⟨q.val / 128, by omega⟩ : Fin 2) d]
    refine Finset.sum_congr rfl fun j hj => ?_
    have hj' : j < 32 := Finset.mem_range.mp hj
    unfold tile tileSum
    refine Finset.sum_congr rfl fun r _ => ?_
    have hr : r.val < 512 := r.isLt
    have hpv : (pt (32 * (t.val / 32) + j)).val = 32 * (t.val / 32) + j := by
      show (32 * (t.val / 32) + j) % 256 = _; omega
    have hE : ∀ a : Fin 2, xb2 m c (pt (32 * (t.val / 32) + j)) (ix2 a r) = a2 m c (ix2 a (Cert.KerMath.edgeAt j r)) := fun a =>
      (eblk_apply m c (pt (32 * (t.val / 32) + j)) a r).trans
        (congrArg (a2 m c) (ix2_congr rfl (Fin.ext (by
          show 512 * ((pt (32 * (t.val / 32) + j)).val % 32) + r.val = 512 * (j % 32) + r.val
          rw [hpv]; omega))))
    refine congrArg₂ (· * ·) (congrArg₂ (· + ·) (congrArg (fun w => Cert.KerSpec.oneHot w n) (hE 0))
      (congrArg (fun w => Cert.KerSpec.oneHot w n) (hE 1))) ?_
    unfold Cert.Spec.agg
    refine congrArg₂ (· + ·) ?_ ?_
    · refine (x2blk_apply m c (pt (32 * (t.val / 32) + j)) r _).trans ?_
      refine congrArg (a1 m c) (ix4_congr (Fin.ext ?_) (Fin.ext ?_) (Fin.ext ?_) (Fin.ext ?_))
      · show (pt (32 * (t.val / 32) + j)).val / 32 = t.val / 32
        rw [hpv]; omega
      · show 512 * ((pt (32 * (t.val / 32) + j)).val % 32) + r.val = 512 * (j % 32) + r.val
        rw [hpv]; omega
      · show (256 * ((128 * (q.val / 128) + d.val) / 128) + (128 * (q.val / 128) + d.val) % 128) / 128 = 2 * (q.val / 128)
        omega
      · show (256 * ((128 * (q.val / 128) + d.val) / 128) + (128 * (q.val / 128) + d.val) % 128) % 128 = d.val
        omega
    · refine (x2blk_apply m c (pt (32 * (t.val / 32) + j)) r _).trans ?_
      refine congrArg (a1 m c) (ix4_congr (Fin.ext ?_) (Fin.ext ?_) (Fin.ext ?_) (Fin.ext ?_))
      · show (pt (32 * (t.val / 32) + j)).val / 32 = t.val / 32
        rw [hpv]; omega
      · show 512 * ((pt (32 * (t.val / 32) + j)).val % 32) + r.val = 512 * (j % 32) + r.val
        rw [hpv]; omega
      · show (256 * ((128 * (q.val / 128) + d.val) / 128) + (128 * (q.val / 128) + d.val) % 128 + 128) / 128 = 2 * (q.val / 128) + 1
        omega
      · show (256 * ((128 * (q.val / 128) + d.val) / 128) + (128 * (q.val / 128) + d.val) % 128 + 128) % 128 = d.val
        omega

end Cert.KernelIdeal.FinalNode

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.KerPayEdge.lean ====
/-
  The kernel's edge-side payloads read at an index, at the ideal values.

  Every payload of the body that the edge rows pass through is read here at one index, over variables for the vectors
  the body loads: the one-hot row of a node word, its product with the node block (a gather of one row, written as a sum),
  the column slices of the gathered rows and their pairwise sums, and the two-layer map of each of the four column groups
  (a linear layer, a bias, the residual column group, a second linear layer, a second bias). At the ideal values a change
  of float format is the identity and a product into the zero accumulator is one finite sum, so each right-hand side is a
  closed expression in the loaded values. Products are only read, never rearranged.
-/
import proofs.«411520_j71347996721296_1_alg».proof.Proof.Gen.KernelIdeal.Skeleton
import proofs.«411520_j71347996721296_1_alg».proof.Proof.KerSpec
import proofs.«411520_j71347996721296_1_alg».proof.Proof.LibDotPlain
import proofs.«411520_j71347996721296_1_alg».proof.Proof.LibDotLastAxis
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.KernelIdeal.PayEdge

open Cert.KernelIdeal Cert.KernelIdeal.Gen Idealize.ShloMosaic Idealize.ShloMosaic.ValueIdx

/-! ## Layout operations of the body at literal coordinates -/

section Layout
variable {α : Type}

/-- A slice of the columns from `o` on of an [m, n] block, at (r, d), is the block at (r, c) with c = o + d. -/
theorem sliceCols_apply {m n k : Nat} (o : Nat) (x : (⟨2, ![m, n]⟩ : Shape).Idx → α)
    (h : (⟨2, ![m, n]⟩ : Shape).Slices ![0, o] ⟨2, ![m, k]⟩) (r : Fin m) (d : Fin k) (c : Fin n)
    (hc : c.val = o + d.val) :
    extractStridedSlice ⟨2, ![m, k]⟩ ![0, o] x h (ix2 r d) = x (ix2 r c) := by
  refine extractStridedSlice_apply _ x h _ _ fun a => ?_
  match a with
  | ⟨0, _⟩ => show r.val = 0 + r.val; omega
  | ⟨1, _⟩ => exact hc

/-- An [m, n] block stored as [1, m, n], at (0, r, o), is the block at (r, o). -/
theorem addUnit3_apply {m n : Nat} (x : (⟨2, ![m, n]⟩ : Shape).Idx → α)
    (h : (⟨2, ![m, n]⟩ : Shape).ShapeCasts ⟨3, ![1, m, n]⟩) (r : Fin m) (o : Fin n) :
    shapeCast ⟨3, ![1, m, n]⟩ x h (ix3 0 r o) = x (ix2 r o) := by
  refine (shapeCast_addUnit_apply ![m, n] x h (ix3 0 r o)).trans (congrArg x ?_)
  funext a
  match a with
  | ⟨0, _⟩ => rfl
  | ⟨1, _⟩ => rfl

/-- A [1, m, n] block viewed [m, n], at (r, o), is the block at (0, r, o). -/
theorem dropUnit3_apply {m n : Nat} (x : (⟨3, ![1, m, n]⟩ : Shape).Idx → α)
    (h : (⟨3, ![1, m, n]⟩ : Shape).ShapeCasts ⟨2, ![m, n]⟩) (r : Fin m) (o : Fin n) :
    shapeCast ⟨2, ![m, n]⟩ x h (ix2 r o) = x (ix3 0 r o) := by
  refine (shapeCast_dropUnit_apply ![m, n] x h (ix2 r o)).trans (congrArg x ?_)
  funext a
  match a with
  | ⟨0, _⟩ => rfl
  | ⟨1, _⟩ => rfl
  | ⟨2, _⟩ => rfl

/-- A [1, 512] row of words laid as a column [512, 1] and repeated along 1024 lanes, at (r, t), is the row at (0, r). -/
theorem wordRow_apply (v : S1x512.Idx → α) (h1 : S1x512.ShapeCasts S512) (h2 : S512.ShapeCasts S512x1)
    (h3 : S512x1.Broadcasts S512x1024) (r : Fin 512) (t : Fin 1024) :
    broadcastTo S512x1024 (shapeCast S512x1 (shapeCast S512 v h1) h2) h3 (ix2 r t) = v (ix2 0 r) := by
  refine (broadcastTo_apply _ h3 (ix2 r t) (ix2 r 0) fun a => ?_).trans ?_
  · match a with
    | ⟨0, _⟩ => rfl
    | ⟨1, _⟩ => rfl
  refine (shapeCast_apply _ h2 (ix2 r 0) (ix1 r) ?_).trans ?_
  · rw [Shape.rowMajor_val_one, Shape.rowMajor_val_two]
    show r.val = r.val * 1 + 0
    omega
  refine shapeCast_apply _ h1 (ix1 r) (ix2 0 r) ?_
  rw [Shape.rowMajor_val_one, Shape.rowMajor_val_two]
  show 0 * 512 + r.val = r.val
  omega

/-- A vector of 128 entries laid as a row [1, 128] and repeated along m rows, at (r, d), is the vector at d. -/
theorem biasRow_apply {m : Nat} (v : S128.Idx → α) (h1 : S128.ShapeCasts S1x128)
    (h2 : S1x128.Broadcasts ⟨2, ![m, 128]⟩) (r : Fin m) (d : Fin 128) :
    broadcastTo ⟨2, ![m, 128]⟩ (shapeCast S1x128 v h1) h2 (ix2 r d) = v (ix1 d) := by
  refine (broadcastTo_apply _ h2 (ix2 r d) (ix2 0 d) fun a => ?_).trans ?_
  · match a with
    | ⟨0, _⟩ => rfl
    | ⟨1, _⟩ => rfl
  refine shapeCast_apply _ h1 (ix2 0 d) (ix1 d) ?_
  rw [Shape.rowMajor_val_one, Shape.rowMajor_val_two]
  show d.val = 0 * 128 + d.val
  omega

end Layout

/-! ## The one-hot row of a node word -/

/-- The comparison of a word with a lane number, widened to 32 bits and read as a signed integer, is the indicator. -/
theorem oneHot_word (w : BitVec 32) (t : Fin 1024) :
    ((((IntOp.cmpi .eq w (BitVec.ofNat 32 t.val)).setWidth 32).toInt : ℝ) : EReal) = Cert.KerSpec.oneHot w t := by
  unfold Cert.KerSpec.oneHot
  by_cases h : w = BitVec.ofNat 32 t.val
  · rw [if_pos h, StableHlo.Predicate.cmpi_eq_iff.2 h]
    show (((1 : ℤ) : ℝ) : EReal) = 1
    simp
  · have h0 : IntOp.cmpi .eq w (BitVec.ofNat 32 t.val) = 0#1 :=
      eq_zero_of_ne_one fun e => h (StableHlo.Predicate.cmpi_eq_iff.1 e)
    rw [if_neg h, h0]
    show (((0 : ℤ) : ℝ) : EReal) = 0
    simp

/-- The one-hot row of the source words: 1 at the lane the word names, 0 elsewhere. -/
theorem pay3_apply (v3 : Vec Ideal S1x512 .i32) (r : Fin 512) (t : Fin 1024) :
    k0_pay3 (F := Ideal) v3 (ix2 r t) = Cert.KerSpec.oneHot (v3 (ix2 0 r)) t := by
  unfold k0_pay3
  rw [truncf_apply, sitofp_apply, extui_apply]
  show ((((IntOp.cmpi .eq (broadcastTo S512x1024 _ _ (ix2 r t)) (iota .tc S512x1024 32 [1] _ (ix2 r t))).setWidth 32).toInt : ℝ) : EReal) = _
  rw [wordRow_apply, iota_single_apply]
  exact oneHot_word _ _

/-- The one-hot row of the destination words. -/
theorem pay4_apply (v5 : Vec Ideal S1x512 .i32) (r : Fin 512) (t : Fin 1024) :
    k0_pay4 (F := Ideal) v5 (ix2 r t) = Cert.KerSpec.oneHot (v5 (ix2 0 r)) t := by
  unfold k0_pay4
  rw [truncf_apply, sitofp_apply, extui_apply]
  show ((((IntOp.cmpi .eq (broadcastTo S512x1024 _ _ (ix2 r t)) (iota .tc S512x1024 32 [1] _ (ix2 r t))).setWidth 32).toInt : ℝ) : EReal) = _
  rw [wordRow_apply, iota_single_apply]
  exact oneHot_word _ _

/-- The node block in the narrow format, at (t, q), is the loaded block at (0, t, q). -/
theorem pay7_apply (v21 : Vec Ideal S1x1024x256 .f32) (t : Fin 1024) (q : Fin 256) :
    k0_pay7 (F := Ideal) v21 (ix2 t q) = v21 (ix3 0 t q) := by
  unfold k0_pay7 k0_pay6
  rw [truncf_apply]
  exact dropUnit3_apply v21 _ t q

/-! ## The two matrix products of the body as finite sums -/

/-- The product of a [512, 1024] block with a [1024, 256] block into zero, at (r, q): one sum over the 1024 lanes. -/
theorem dotPlain_apply (A : FVec Ideal S512x1024 .bf16) (B : FVec Ideal S1024x256 .bf16) (r : Fin 512) (q : Fin 256) :
    matmul dot_S512x1024_S1024x256_S512x256_1_0_0_1_n_n none A B (constant S512x256 .f32 0x00000000#32) (ix2 r q)
      = ∑ t : Fin 1024, A (ix2 r t) * B (ix2 t q) :=
  Cert.LibDotPlain.matmul_zero_apply _ none A B r q

/-- The product of a [512, 128] block with the transpose of a [128, 128] block into zero, at (r, q). -/
theorem dotLast_apply (A : FVec Ideal S512x128 .bf16) (B : FVec Ideal S128x128 .bf16) (r : Fin 512) (q : Fin 128) :
    matmul dot_S512x128_S128x128_S512x128_1_1_0_0_n_n none A B (constant S512x128 .f32 0x00000000#32) (ix2 r q)
      = ∑ c : Fin 128, A (ix2 r c) * B (ix2 q c) :=
  Idealize.ShloMosaic.LibDotLastAxis.matmul_zero_apply _ none A B r q

/-! ## The gathered rows -/

/-- The one-hot row of the source word times the node block: row r, column q. -/
theorem pay8_apply (v3 : Vec Ideal S1x512 .i32) (v21 : Vec Ideal S1x1024x256 .f32) (r : Fin 512) (q : Fin 256) :
    k0_pay8 (F := Ideal) v3 v21 (ix2 r q)
      = ∑ t : Fin 1024, Cert.KerSpec.oneHot (v3 (ix2 0 r)) t * v21 (ix3 0 t q) := by
  unfold k0_pay8
  rw [dotPlain_apply]
  refine Finset.sum_congr rfl fun t _ => ?_
  rw [pay3_apply, pay7_apply]

/-- The one-hot row of the destination word times the node block: row r, column q. -/
theorem pay9_apply (v5 : Vec Ideal S1x512 .i32) (v21 : Vec Ideal S1x1024x256 .f32) (r : Fin 512) (q : Fin 256) :
    k0_pay9 (F := Ideal) v5 v21 (ix2 r q)
      = ∑ t : Fin 1024, Cert.KerSpec.oneHot (v5 (ix2 0 r)) t * v21 (ix3 0 t q) := by
  unfold k0_pay9
  rw [dotPlain_apply]
  refine Finset.sum_congr rfl fun t _ => ?_
  rw [pay4_apply, pay7_apply]

/-! ## The column halves of the gathered rows and their sums -/

theorem pay19_apply (v24 : FVec Ideal S512x256 .f32) (r : Fin 512) (d : Fin 128) :
    k0_pay19 (F := Ideal) v24 (ix2 r d) = v24 (ix2 r ⟨d.val, by omega⟩) := by
  unfold k0_pay19
  exact sliceCols_apply 0 v24 _ r d ⟨d.val, by omega⟩ (Nat.zero_add _).symm

theorem pay20_apply (v24 : FVec Ideal S512x256 .f32) (r : Fin 512) (d : Fin 128) :
    k0_pay20 (F := Ideal) v24 (ix2 r d) = v24 (ix2 r ⟨128 + d.val, by omega⟩) := by
  unfold k0_pay20
  exact sliceCols_apply 128 v24 _ r d ⟨128 + d.val, by omega⟩ rfl

theorem pay21_apply (v25 : FVec Ideal S512x256 .f32) (r : Fin 512) (d : Fin 128) :
    k0_pay21 (F := Ideal) v25 (ix2 r d) = v25 (ix2 r ⟨d.val, by omega⟩) := by
  unfold k0_pay21
  exact sliceCols_apply 0 v25 _ r d ⟨d.val, by omega⟩ (Nat.zero_add _).symm

theorem pay22_apply (v25 : FVec Ideal S512x256 .f32) (r : Fin 512) (d : Fin 128) :
    k0_pay22 (F := Ideal) v25 (ix2 r d) = v25 (ix2 r ⟨128 + d.val, by omega⟩) := by
  unfold k0_pay22
  exact sliceCols_apply 128 v25 _ r d ⟨128 + d.val, by omega⟩ rfl

theorem pay23_apply (v24 v25 : FVec Ideal S512x256 .f32) (r : Fin 512) (d : Fin 128) :
    k0_pay23 (F := Ideal) v24 v25 (ix2 r d)
      = v24 (ix2 r ⟨d.val, by omega⟩) + v25 (ix2 r ⟨128 + d.val, by omega⟩) := by
  unfold k0_pay23
  rw [addf_apply, pay19_apply, pay22_apply]

theorem pay24_apply (v24 v25 : FVec Ideal S512x256 .f32) (r : Fin 512) (d : Fin 128) :
    k0_pay24 (F := Ideal) v24 v25 (ix2 r d)
      = v24 (ix2 r ⟨128 + d.val, by omega⟩) + v25 (ix2 r ⟨d.val, by omega⟩) := by
  unfold k0_pay24
  rw [addf_apply, pay20_apply, pay21_apply]

theorem pay25_apply (v24 v25 : FVec Ideal S512x256 .f32) (r : Fin 512) (d : Fin 128) :
    k0_pay25 (F := Ideal) v24 v25 (ix2 r d)
      = v24 (ix2 r ⟨128 + d.val, by omega⟩) + v25 (ix2 r ⟨128 + d.val, by omega⟩) := by
  unfold k0_pay25
  rw [addf_apply, pay20_apply, pay22_apply]

/-! ## The weights in the narrow format -/

theorem pay26_apply (v59 : Vec Ideal S128x128 .f32) (j : S128x128.Idx) : k0_pay26 (F := Ideal) v59 j = v59 j := rfl

theorem pay27_apply (v62 : Vec Ideal S128x128 .f32) (j : S128x128.Idx) : k0_pay27 (F := Ideal) v62 j = v62 j := rfl

/-! ## The two-layer map of a column group -/

/-- A linear layer with bias applied to `x`, added to the residual block `res`, then a second linear layer with bias:
    row r, output column q. -/
theorem twoLayer_apply (res x : FVec Ideal S512x128 .f32) (w1 w2 : FVec Ideal S128x128 .bf16) (b1 b2 : FVec Ideal S128 .f32)
    (hb : FTy.bits .bf16 < FTy.bits .f32) (h1 : S128.ShapeCasts S1x128) (h2 : S1x128.Broadcasts S512x128)
    (r : Fin 512) (q : Fin 128) :
    addf (matmul dot_S512x128_S128x128_S512x128_1_1_0_0_n_n none
        (truncf .bf16 (addf res (addf (matmul dot_S512x128_S128x128_S512x128_1_1_0_0_n_n none (truncf .bf16 x hb) w1
            (constant S512x128 .f32 0x00000000#32)) (broadcastTo S512x128 (shapeCast S1x128 b1 h1) h2))) hb) w2
        (constant S512x128 .f32 0x00000000#32)) (broadcastTo S512x128 (shapeCast S1x128 b2 h1) h2) (ix2 r q)
      = (∑ d : Fin 128, (res (ix2 r d) + ((∑ d' : Fin 128, x (ix2 r d') * w1 (ix2 d d')) + b1 (ix1 d))) * w2 (ix2 q d))
        + b2 (ix1 q) := by
  rw [addf_apply, dotLast_apply, biasRow_apply]
  refine congrArg (· + b2 (ix1 q)) (Finset.sum_congr rfl fun d _ => ?_)
  rw [truncf_apply, addf_apply, addf_apply, dotLast_apply, biasRow_apply]
  refine congrArg (fun z => (res (ix2 r d) + (z + b1 (ix1 d))) * w2 (ix2 q d)) (Finset.sum_congr rfl fun d' _ => ?_)
  rw [truncf_apply]

theorem pay28_apply (v24 v25 : FVec Ideal S512x256 .f32) (v27 : FVec Ideal S512x512 .f32) (v59 : Vec Ideal S128x128 .f32)
    (v61 : Vec Ideal S128 .f32) (v62 : Vec Ideal S128x128 .f32) (v64 : Vec Ideal S128 .f32) (r : Fin 512) (o : Fin 128) :
    k0_pay28 (F := Ideal) v24 v25 v27 v59 v61 v62 v64 (ix2 r o)
      = (∑ d : Fin 128, (v27 (ix2 r ⟨d.val, by omega⟩)
            + ((∑ d' : Fin 128, (v24 (ix2 r ⟨d'.val, by omega⟩) + v25 (ix2 r ⟨d'.val, by omega⟩)) * v59 (ix2 d d'))
              + v61 (ix1 d))) * v62 (ix2 o d))
        + v64 (ix1 o) := by
  unfold k0_pay28
  refine (twoLayer_apply _ _ (k0_pay26 v59) (k0_pay27 v62) v61 v64 _ _ _ r o).trans ?_
  refine congrArg (· + v64 (ix1 o)) (Finset.sum_congr rfl fun d _ => ?_)
  rw [sliceCols_apply 0 v27 _ r d ⟨d.val, by omega⟩ (Nat.zero_add _).symm, pay27_apply]
  refine congrArg (fun z => (v27 (ix2 r ⟨d.val, by omega⟩) + (z + v61 (ix1 d))) * v62 (ix2 o d))
    (Finset.sum_congr rfl fun d' _ => ?_)
  rw [addf_apply, pay19_apply, pay21_apply, pay26_apply]

theorem pay30_apply (v27 : FVec Ideal S512x512 .f32) (v56 : FVec Ideal S512x128 .f32) (v60 : FVec Ideal S128x128 .bf16)
    (v61 : Vec Ideal S128 .f32) (v63 : FVec Ideal S128x128 .bf16) (v64 : Vec Ideal S128 .f32) (r : Fin 512) (o : Fin 128) :
    k0_pay30 (F := Ideal) v27 v56 v60 v61 v63 v64 (ix3 0 r o)
      = (∑ d : Fin 128, (v27 (ix2 r ⟨128 + d.val, by omega⟩)
            + ((∑ d' : Fin 128, v56 (ix2 r d') * v60 (ix2 d d')) + v61 (ix1 d))) * v63 (ix2 o d))
        + v64 (ix1 o) := by
  unfold k0_pay30
  rw [addUnit3_apply]
  refine (twoLayer_apply _ v56 v60 v63 v61 v64 _ _ _ r o).trans ?_
  refine congrArg (· + v64 (ix1 o)) (Finset.sum_congr rfl fun d _ => ?_)
  rw [sliceCols_apply 128 v27 _ r d ⟨128 + d.val, by omega⟩ rfl]

theorem pay31_apply (v27 : FVec Ideal S512x512 .f32) (v57 : FVec Ideal S512x128 .f32) (v60 : FVec Ideal S128x128 .bf16)
    (v61 : Vec Ideal S128 .f32) (v63 : FVec Ideal S128x128 .bf16) (v64 : Vec Ideal S128 .f32) (r : Fin 512) (o : Fin 128) :
    k0_pay31 (F := Ideal) v27 v57 v60 v61 v63 v64 (ix3 0 r o)
      = (∑ d : Fin 128, (v27 (ix2 r ⟨256 + d.val, by omega⟩)
            + ((∑ d' : Fin 128, v57 (ix2 r d') * v60 (ix2 d d')) + v61 (ix1 d))) * v63 (ix2 o d))
        + v64 (ix1 o) := by
  unfold k0_pay31
  rw [addUnit3_apply]
  refine (twoLayer_apply _ v57 v60 v63 v61 v64 _ _ _ r o).trans ?_
  refine congrArg (· + v64 (ix1 o)) (Finset.sum_congr rfl fun d _ => ?_)
  rw [sliceCols_apply 256 v27 _ r d ⟨256 + d.val, by omega⟩ rfl]

theorem pay32_apply (v27 : FVec Ideal S512x512 .f32) (v58 : FVec Ideal S512x128 .f32) (v60 : FVec Ideal S128x128 .bf16)
    (v61 : Vec Ideal S128 .f32) (v63 : FVec Ideal S128x128 .bf16) (v64 : Vec Ideal S128 .f32) (r : Fin 512) (o : Fin 128) :
    k0_pay32 (F := Ideal) v27 v58 v60 v61 v63 v64 (ix2 r o)
      = (∑ d : Fin 128, (v27 (ix2 r ⟨384 + d.val, by omega⟩)
            + ((∑ d' : Fin 128, v58 (ix2 r d') * v60 (ix2 d d')) + v61 (ix1 d))) * v63 (ix2 o d))
        + v64 (ix1 o) := by
  unfold k0_pay32
  refine (twoLayer_apply _ v58 v60 v63 v61 v64 _ _ _ r o).trans ?_
  refine congrArg (· + v64 (ix1 o)) (Finset.sum_congr rfl fun d _ => ?_)
  rw [sliceCols_apply 384 v27 _ r d ⟨384 + d.val, by omega⟩ rfl]

/-! ## The stored blocks -/

theorem pay29_apply (v76 : FVec Ideal S512x128 .f32) (r : Fin 512) (o : Fin 128) :
    k0_pay29 (F := Ideal) v76 (ix3 0 r o) = v76 (ix2 r o) := by
  unfold k0_pay29
  exact addUnit3_apply v76 _ r o

theorem pay1_apply (v121 : FVec Ideal S512x128 .f32) (r : Fin 512) (o : Fin 128) :
    k0_pay1 (F := Ideal) v121 (ix3 0 r o) = v121 (ix2 r o) := by
  unfold k0_pay1
  exact addUnit3_apply v121 _ r o

end Cert.KernelIdeal.PayEdge

end
-- ==== Proof.KerPiecesEdge.lean ====
/-
  What one grid point leaves in the edge output's block, as a function of the blocks it was handed.

  The block is [1, 512, 512]: row r is edge r of the stretch, its four feature rows side by side (column q is feature
  q % 128 of row k = q / 128). `gat a` is the row of the node block picked by end number a of the edge (a sum over all
  nodes against the indicator); the entry is two linear layers with biases, the first over the sum of the two picked
  node rows (feature row k / 2 of the first end, k % 2 of the second), the edge's own row added in between.
-/
import proofs.«411520_j71347996721296_1_alg».proof.Proof.Gen.KernelIdeal.Frame
import proofs.«411520_j71347996721296_1_alg».proof.Proof.KerPayEdge
import proofs.«411520_j71347996721296_1_alg».proof.Proof.KerSpec
import proofs.«411520_j71347996721296_1_alg».proof.Proof.KerPieces

set_option maxRecDepth 16384

noncomputable section

namespace Cert.KernelIdeal.PiecesEdge

open Cert.KernelIdeal Cert.KernelIdeal.Gen Cert.KernelIdeal.PayEdge Cert.KernelIdeal.Pieces Cert.KerSpec
open Idealize.ShloMosaic Idealize.ShloMosaic.TcCoe Idealize.ShloMosaic.Tactic Idealize.ShloMosaic.ValueIdx
open Idealize.SL Idealize.SL.Sem

/-- The node block's row picked by end number a of edge r: entry q'. -/
def gat (x1 : Vec Ideal S1x1024x256 .f32) (x2 : Vec Ideal S2x512 .i32) (a : Fin 2) (r : Fin 512) (q' : Fin 256) : EReal :=
  ∑ t : Fin 1024, oneHot (x2 (ix2 a r)) t * x1 (ix3 0 t q')

/-- The edge output's block. -/
def eoutG (x0 : Vec Ideal S1x512x512 .f32) (x1 : Vec Ideal S1x1024x256 .f32) (x2 : Vec Ideal S2x512 .i32)
    (x5 : Vec Ideal S128x128 .f32) (x6 : Vec Ideal S128 .f32) (x7 : Vec Ideal S128x128 .f32) (x8 : Vec Ideal S128 .f32) :
    Vec Ideal S1x512x512 .f32 := fun j =>
  (∑ d : Fin 128,
      (x0 (ix3 0 (j 1) (⟨128 * ((j 2).val / 128) + d.val, by have h : (j 2).val < 512 := (j 2).isLt; omega⟩ : Fin 512))
        + ((∑ d' : Fin 128,
              (gat x1 x2 0 (j 1) (⟨128 * ((j 2).val / 128 / 2) + d'.val, by have h : (j 2).val < 512 := (j 2).isLt; omega⟩ : Fin 256)
                + gat x1 x2 1 (j 1) (⟨128 * ((j 2).val / 128 % 2) + d'.val, by have h : (j 2).val < 512 := (j 2).isLt; omega⟩ : Fin 256))
              * x5 (ix2 d d'))
            + x6 (ix1 d)))
      * x7 (ix2 (⟨(j 2).val % 128, by omega⟩ : Fin 128) d))
    + x8 (ix1 (⟨(j 2).val % 128, by omega⟩ : Fin 128))

/-! ## The block by column groups -/

theorem eoutG_apply (x0 : Vec Ideal S1x512x512 .f32) (x1 : Vec Ideal S1x1024x256 .f32) (x2 : Vec Ideal S2x512 .i32)
    (x5 : Vec Ideal S128x128 .f32) (x6 : Vec Ideal S128 .f32) (x7 : Vec Ideal S128x128 .f32) (x8 : Vec Ideal S128 .f32)
    (a : Fin 1) (r : Fin 512) (q : Fin 512) :
    eoutG x0 x1 x2 x5 x6 x7 x8 (ix3 a r q)
      = (∑ d : Fin 128,
          (x0 (ix3 0 r (⟨128 * (q.val / 128) + d.val, by omega⟩ : Fin 512))
            + ((∑ d' : Fin 128,
                  (gat x1 x2 0 r (⟨128 * (q.val / 128 / 2) + d'.val, by omega⟩ : Fin 256)
                    + gat x1 x2 1 r (⟨128 * (q.val / 128 % 2) + d'.val, by omega⟩ : Fin 256))
                  * x5 (ix2 d d'))
                + x6 (ix1 d)))
          * x7 (ix2 (⟨q.val % 128, by omega⟩ : Fin 128) d))
        + x8 (ix1 (⟨q.val % 128, by omega⟩ : Fin 128)) := rfl

/-- Column group k (0 to 3) of the block, feature o of row r: the closed form with the group written out. -/
theorem eoutG_group (x0 : Vec Ideal S1x512x512 .f32) (x1 : Vec Ideal S1x1024x256 .f32) (x2 : Vec Ideal S2x512 .i32)
    (x5 : Vec Ideal S128x128 .f32) (x6 : Vec Ideal S128 .f32) (x7 : Vec Ideal S128x128 .f32) (x8 : Vec Ideal S128 .f32)
    (r : Fin 512) (k : Nat) (hk : k < 4) (o : Fin 128) (q : Fin 512) (hq : q.val = 128 * k + o.val)
    (a : Fin 1) (r' : Fin 512) (hr : r' = r) :
    eoutG x0 x1 x2 x5 x6 x7 x8 (ix3 a r' q)
      = (∑ d : Fin 128,
          (x0 (ix3 0 r (⟨128 * k + d.val, by omega⟩ : Fin 512))
            + ((∑ d' : Fin 128,
                  (gat x1 x2 0 r (⟨128 * (k / 2) + d'.val, by omega⟩ : Fin 256)
                    + gat x1 x2 1 r (⟨128 * (k % 2) + d'.val, by omega⟩ : Fin 256))
                  * x5 (ix2 d d'))
                + x6 (ix1 d)))
          * x7 (ix2 o d))
        + x8 (ix1 o) := by
  subst hr
  have h1 : q.val / 128 = k := by omega
  have h2 : q.val % 128 = o.val := by omega
  rw [eoutG_apply]
  simp only [h1, h2, Fin.eta]

/-! ## The four stores -/

section Stores
variable (x0 : Vec Ideal S1x512x512 .f32) (x1 : Vec Ideal S1x1024x256 .f32) (x2 : Vec Ideal S2x512 .i32)
  (x5 : Vec Ideal S128x128 .f32) (x6 : Vec Ideal S128 .f32) (x7 : Vec Ideal S128x128 .f32) (x8 : Vec Ideal S128 .f32)

/-- The two gathered rows of an edge, at one column each, are the picked node rows of its two ends. -/
theorem gat_pair (w0 w1 : Vec Ideal S1x512 .i32) (hw0 : ∀ r, w0 (ix2 0 r) = x2 (ix2 0 r))
    (hw1 : ∀ r, w1 (ix2 0 r) = x2 (ix2 1 r)) (r : Fin 512) (qa qb qa' qb' : Fin 256) (ha : qa = qa') (hb : qb = qb') :
    k0_pay8 (F := Ideal) w0 x1 (ix2 r qa) + k0_pay9 (F := Ideal) w1 x1 (ix2 r qb)
      = gat x1 x2 0 r qa' + gat x1 x2 1 r qb' := by
  subst ha hb
  rw [pay8_apply, pay9_apply, hw0, hw1]
  rfl

/-- The store of column group 3 (columns 384 to 511). -/
theorem piece3 (v0 : Vec Ideal S1x512x512 .f32) (v1 v1' : Vec Ideal S1x1024x256 .f32) (w0 w1 : Vec Ideal S1x512 .i32)
    (v5 v7 : Vec Ideal S128x128 .f32) (v6 v8 : Vec Ideal S128 .f32)
    (h0 : v0 = x0) (h1 : v1 = x1) (h1' : v1' = x1) (hw0 : ∀ r, w0 (ix2 0 r) = x2 (ix2 0 r))
    (hw1 : ∀ r, w1 (ix2 0 r) = x2 (ix2 1 r)) (h5 : v5 = x5) (h6 : v6 = x6) (h7 : v7 = x7) (h8 : v8 = x8) (inb)
    (x : (Rect.unit (s := S1x512x512) ![0, 0, 384] ![1, 512, 128] inb).shape.Idx) :
    k0_pay1 (F := Ideal)
        (k0_pay32 (k0_pay10 v0) (k0_pay25 (k0_pay8 w0 v1) (k0_pay9 w1 v1')) (k0_pay26 v5) v6 (k0_pay27 v7) v8) x
      = eoutG x0 x1 x2 x5 x6 x7 x8 ((Rect.unit (s := S1x512x512) ![0, 0, 384] ![1, 512, 128] inb).emb x) := by
  subst v0 v1 v1' v5 v6 v7 v8
  obtain ⟨a, r, o, rfl⟩ : ∃ (a : Fin 1) (r : Fin 512) (o : Fin 128), x = ix3 a r o := ⟨x 0, x 1, x 2, eq_ix3 x⟩
  obtain rfl : a = 0 := Subsingleton.elim _ _
  rw [emb_unit3 0 0 384 1 512 128 inb 0 r o (by simp) (by omega) (by omega)]
  refine Eq.trans ?_ (eoutG_group x0 x1 x2 x5 x6 x7 x8 r 3 (by decide) o _ (by simp only [] <;> omega) _ _
    (Fin.ext (by simp))).symm
  rw [pay1_apply, pay32_apply]
  refine congrArg (· + x8 (ix1 o)) (Finset.sum_congr rfl fun d _ => ?_)
  rw [PayNode.pay10_apply, pay27_apply]
  refine congrArg₂ (fun u z => (u + (z + x6 (ix1 d))) * x7 (ix2 o d)) ?_ (Finset.sum_congr rfl fun d' _ => ?_)
  · exact congrArg x0 (ix3_congr rfl rfl (Fin.ext (by simp only [] <;> omega)))
  · rw [pay25_apply, pay26_apply]
    exact congrArg (· * x5 (ix2 d d')) (gat_pair x1 x2 w0 w1 hw0 hw1 r _ _ _ _
      (Fin.ext (by simp only [] <;> omega)) (Fin.ext (by simp only [] <;> omega)))

/-- The store of column group 2 (columns 256 to 383). -/
theorem piece2 (v0 : Vec Ideal S1x512x512 .f32) (v1 v1' : Vec Ideal S1x1024x256 .f32) (w0 w1 : Vec Ideal S1x512 .i32)
    (v5 v7 : Vec Ideal S128x128 .f32) (v6 v8 : Vec Ideal S128 .f32)
    (h0 : v0 = x0) (h1 : v1 = x1) (h1' : v1' = x1) (hw0 : ∀ r, w0 (ix2 0 r) = x2 (ix2 0 r))
    (hw1 : ∀ r, w1 (ix2 0 r) = x2 (ix2 1 r)) (h5 : v5 = x5) (h6 : v6 = x6) (h7 : v7 = x7) (h8 : v8 = x8) (inb)
    (x : (Rect.unit (s := S1x512x512) ![0, 0, 256] ![1, 512, 128] inb).shape.Idx) :
    k0_pay31 (F := Ideal) (k0_pay10 v0) (k0_pay24 (k0_pay8 w0 v1) (k0_pay9 w1 v1')) (k0_pay26 v5) v6 (k0_pay27 v7) v8 x
      = eoutG x0 x1 x2 x5 x6 x7 x8 ((Rect.unit (s := S1x512x512) ![0, 0, 256] ![1, 512, 128] inb).emb x) := by
  subst v0 v1 v1' v5 v6 v7 v8
  obtain ⟨a, r, o, rfl⟩ : ∃ (a : Fin 1) (r : Fin 512) (o : Fin 128), x = ix3 a r o := ⟨x 0, x 1, x 2, eq_ix3 x⟩
  obtain rfl : a = 0 := Subsingleton.elim _ _
  rw [emb_unit3 0 0 256 1 512 128 inb 0 r o (by simp) (by omega) (by omega)]
  refine Eq.trans ?_ (eoutG_group x0 x1 x2 x5 x6 x7 x8 r 2 (by decide) o _ (by simp only [] <;> omega) _ _
    (Fin.ext (by simp))).symm
  rw [pay31_apply]
  refine congrArg (· + x8 (ix1 o)) (Finset.sum_congr rfl fun d _ => ?_)
  rw [PayNode.pay10_apply, pay27_apply]
  refine congrArg₂ (fun u z => (u + (z + x6 (ix1 d))) * x7 (ix2 o d)) ?_ (Finset.sum_congr rfl fun d' _ => ?_)
  · exact congrArg x0 (ix3_congr rfl rfl (Fin.ext (by simp only [] <;> omega)))
  · rw [pay24_apply, pay26_apply]
    exact congrArg (· * x5 (ix2 d d')) (gat_pair x1 x2 w0 w1 hw0 hw1 r _ _ _ _
      (Fin.ext (by simp only [] <;> omega)) (Fin.ext (by simp only [] <;> omega)))

/-- The store of column group 1 (columns 128 to 255). -/
theorem piece1 (v0 : Vec Ideal S1x512x512 .f32) (v1 v1' : Vec Ideal S1x1024x256 .f32) (w0 w1 : Vec Ideal S1x512 .i32)
    (v5 v7 : Vec Ideal S128x128 .f32) (v6 v8 : Vec Ideal S128 .f32)
    (h0 : v0 = x0) (h1 : v1 = x1) (h1' : v1' = x1) (hw0 : ∀ r, w0 (ix2 0 r) = x2 (ix2 0 r))
    (hw1 : ∀ r, w1 (ix2 0 r) = x2 (ix2 1 r)) (h5 : v5 = x5) (h6 : v6 = x6) (h7 : v7 = x7) (h8 : v8 = x8) (inb)
    (x : (Rect.unit (s := S1x512x512) ![0, 0, 128] ![1, 512, 128] inb).shape.Idx) :
    k0_pay30 (F := Ideal) (k0_pay10 v0) (k0_pay23 (k0_pay8 w0 v1) (k0_pay9 w1 v1')) (k0_pay26 v5) v6 (k0_pay27 v7) v8 x
      = eoutG x0 x1 x2 x5 x6 x7 x8 ((Rect.unit (s := S1x512x512) ![0, 0, 128] ![1, 512, 128] inb).emb x) := by
  subst v0 v1 v1' v5 v6 v7 v8
  obtain ⟨a, r, o, rfl⟩ : ∃ (a : Fin 1) (r : Fin 512) (o : Fin 128), x = ix3 a r o := ⟨x 0, x 1, x 2, eq_ix3 x⟩
  obtain rfl : a = 0 := Subsingleton.elim _ _
  rw [emb_unit3 0 0 128 1 512 128 inb 0 r o (by simp) (by omega) (by omega)]
  refine Eq.trans ?_ (eoutG_group x0 x1 x2 x5 x6 x7 x8 r 1 (by decide) o _ (by simp only [] <;> omega) _ _
    (Fin.ext (by simp))).symm
  rw [pay30_apply]
  refine congrArg (· + x8 (ix1 o)) (Finset.sum_congr rfl fun d _ => ?_)
  rw [PayNode.pay10_apply, pay27_apply]
  refine congrArg₂ (fun u z => (u + (z + x6 (ix1 d))) * x7 (ix2 o d)) ?_ (Finset.sum_congr rfl fun d' _ => ?_)
  · exact congrArg x0 (ix3_congr rfl rfl (Fin.ext (by simp only [] <;> omega)))
  · rw [pay23_apply, pay26_apply]
    exact congrArg (· * x5 (ix2 d d')) (gat_pair x1 x2 w0 w1 hw0 hw1 r _ _ _ _
      (Fin.ext (by simp only [] <;> omega)) (Fin.ext (by simp only [] <;> omega)))

/-- The store of column group 0 (columns 0 to 127). -/
theorem piece0 (v0 : Vec Ideal S1x512x512 .f32) (v1 v1' : Vec Ideal S1x1024x256 .f32) (w0 w1 : Vec Ideal S1x512 .i32)
    (v5 v7 : Vec Ideal S128x128 .f32) (v6 v8 : Vec Ideal S128 .f32)
    (h0 : v0 = x0) (h1 : v1 = x1) (h1' : v1' = x1) (hw0 : ∀ r, w0 (ix2 0 r) = x2 (ix2 0 r))
    (hw1 : ∀ r, w1 (ix2 0 r) = x2 (ix2 1 r)) (h5 : v5 = x5) (h6 : v6 = x6) (h7 : v7 = x7) (h8 : v8 = x8) (inb)
    (x : (Rect.unit (s := S1x512x512) ![0, 0, 0] ![1, 512, 128] inb).shape.Idx) :
    k0_pay29 (F := Ideal) (k0_pay28 (k0_pay8 w0 v1) (k0_pay9 w1 v1') (k0_pay10 v0) v5 v6 v7 v8) x
      = eoutG x0 x1 x2 x5 x6 x7 x8 ((Rect.unit (s := S1x512x512) ![0, 0, 0] ![1, 512, 128] inb).emb x) := by
  subst v0 v1 v1' v5 v6 v7 v8
  obtain ⟨a, r, o, rfl⟩ : ∃ (a : Fin 1) (r : Fin 512) (o : Fin 128), x = ix3 a r o := ⟨x 0, x 1, x 2, eq_ix3 x⟩
  obtain rfl : a = 0 := Subsingleton.elim _ _
  rw [emb_unit3 0 0 0 1 512 128 inb 0 r o (by simp) (by omega) (by omega)]
  refine Eq.trans ?_ (eoutG_group x0 x1 x2 x5 x6 x7 x8 r 0 (by decide) o _ (by simp only [] <;> omega) _ _
    (Fin.ext (by simp))).symm
  rw [pay29_apply, pay28_apply]
  refine congrArg (· + x8 (ix1 o)) (Finset.sum_congr rfl fun d _ => ?_)
  rw [PayNode.pay10_apply]
  refine congrArg₂ (fun u z => (u + (z + x6 (ix1 d))) * x7 (ix2 o d)) ?_ (Finset.sum_congr rfl fun d' _ => ?_)
  · exact congrArg x0 (ix3_congr rfl rfl (Fin.ext (by simp only [] <;> omega)))
  · exact congrArg (· * x5 (ix2 d d')) (gat_pair x1 x2 w0 w1 hw0 hw1 r _ _ _ _
      (Fin.ext (by simp only [] <;> omega)) (Fin.ext (by simp only [] <;> omega)))

end Stores

/-! ## The three control cases -/

/-- The first point of a batch. -/
theorem out10_A (c : Dev nD) (i : grid0.Coords) (arg2 : Memref sig .tc .vmem S1x512x512 .f32) (harg2 : arg2.IsWhole) (arg3 : Memref sig .tc .vmem S1x1024x256 .f32) (harg3 : arg3.IsWhole) (arg4 : Memref sig .tc .vmem S2x512 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x256 .f32) (harg11 : arg11.IsWhole) (arg12 : Memref sig .tc .vmem S1x512x512 .f32) (harg12 : arg12.IsWhole) (arg13 : Memref sig .tc .vmem S1024x256 .f32) (harg13 : arg13.IsWhole) (hc0 : cond0_0 i) (hc1 : ¬cond0_1 i) (x0 : Vec Ideal S1x512x512 .f32) (x1 : Vec Ideal S1x1024x256 .f32) (x2 : Vec Ideal S2x512 .i32) (x3 : Vec Ideal S128x128 .f32) (x4 : Vec Ideal S128 .f32) (x5 : Vec Ideal S128x128 .f32) (x6 : Vec Ideal S128 .f32) (x7 : Vec Ideal S128x128 .f32) (x8 : Vec Ideal S128 .f32) :
    out0_A_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = eoutG x0 x1 x2 x5 x6 x7 x8 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  funext j
  refine View.canon_apply_of_pieces (eoutG x0 x1 x2 x5 x6 x7 x8) _ ?_ j (cover0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 j)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  intro p hp
  simp only [List.mem_cons, List.not_mem_nil, or_false] at hp
  rcases hp with rfl | rfl | rfl | rfl
  · exact piece3 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_384
  · exact piece2 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_256
  · exact piece1 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_128
  · exact piece0 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_0

/-- A point in the middle of a batch. -/
theorem out10_B (c : Dev nD) (i : grid0.Coords) (arg2 : Memref sig .tc .vmem S1x512x512 .f32) (harg2 : arg2.IsWhole) (arg3 : Memref sig .tc .vmem S1x1024x256 .f32) (harg3 : arg3.IsWhole) (arg4 : Memref sig .tc .vmem S2x512 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x256 .f32) (harg11 : arg11.IsWhole) (arg12 : Memref sig .tc .vmem S1x512x512 .f32) (harg12 : arg12.IsWhole) (arg13 : Memref sig .tc .vmem S1024x256 .f32) (harg13 : arg13.IsWhole) (hc0 : ¬cond0_0 i) (hc1 : ¬cond0_1 i) (x0 : Vec Ideal S1x512x512 .f32) (x1 : Vec Ideal S1x1024x256 .f32) (x2 : Vec Ideal S2x512 .i32) (x3 : Vec Ideal S128x128 .f32) (x4 : Vec Ideal S128 .f32) (x5 : Vec Ideal S128x128 .f32) (x6 : Vec Ideal S128 .f32) (x7 : Vec Ideal S128x128 .f32) (x8 : Vec Ideal S128 .f32) (xs0 : Vec Ideal S1024x256 .f32) :
    out0_B_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = eoutG x0 x1 x2 x5 x6 x7 x8 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  funext j
  refine View.canon_apply_of_pieces (eoutG x0 x1 x2 x5 x6 x7 x8) _ ?_ j (cover0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 j)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  intro p hp
  simp only [List.mem_cons, List.not_mem_nil, or_false] at hp
  rcases hp with rfl | rfl | rfl | rfl
  · exact piece3 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_384
  · exact piece2 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_256
  · exact piece1 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_128
  · exact piece0 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_0

/-- The last point of a batch. -/
theorem out10_C (c : Dev nD) (i : grid0.Coords) (arg2 : Memref sig .tc .vmem S1x512x512 .f32) (harg2 : arg2.IsWhole) (arg3 : Memref sig .tc .vmem S1x1024x256 .f32) (harg3 : arg3.IsWhole) (arg4 : Memref sig .tc .vmem S2x512 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x256 .f32) (harg11 : arg11.IsWhole) (arg12 : Memref sig .tc .vmem S1x512x512 .f32) (harg12 : arg12.IsWhole) (arg13 : Memref sig .tc .vmem S1024x256 .f32) (harg13 : arg13.IsWhole) (hc0 : ¬cond0_0 i) (hc1 : cond0_1 i) (x0 : Vec Ideal S1x512x512 .f32) (x1 : Vec Ideal S1x1024x256 .f32) (x2 : Vec Ideal S2x512 .i32) (x3 : Vec Ideal S128x128 .f32) (x4 : Vec Ideal S128 .f32) (x5 : Vec Ideal S128x128 .f32) (x6 : Vec Ideal S128 .f32) (x7 : Vec Ideal S128x128 .f32) (x8 : Vec Ideal S128 .f32) (xs0 : Vec Ideal S1024x256 .f32) :
    out0_C_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = eoutG x0 x1 x2 x5 x6 x7 x8 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  funext j
  refine View.canon_apply_of_pieces (eoutG x0 x1 x2 x5 x6 x7 x8) _ ?_ j (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 j)
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  intro p hp
  simp only [List.mem_cons, List.not_mem_nil, or_false] at hp
  rcases hp with rfl | rfl | rfl | rfl
  · exact piece3 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_384
  · exact piece2 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_256
  · exact piece1 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_128
  · exact piece0 x0 x1 x2 x5 x6 x7 x8 _ _ _ _ _ _ _ _ _
      (View.ld_unit_zero (S := S1x512x512) (by funext a; fin_cases a <;> rfl) _ x0) (View.ld_unit_zero (S := S1x1024x256) (by funext a; fin_cases a <;> rfl) _ x1)
      (View.ld_unit_zero (S := S1x1024x256) (by funext a; fin_cases a <;> rfl) _ x1) (ld_row0 x2 _) (ld_row1 x2 _)
      (View.ld_unit_zero (S := S128x128) (by funext a; fin_cases a <;> rfl) _ x5) (View.ld_unit_zero (S := S128) (by funext a; fin_cases a <;> rfl) _ x6)
      (View.ld_unit_zero (S := S128x128) (by funext a; fin_cases a <;> rfl) _ x7) (View.ld_unit_zero (S := S128) (by funext a; fin_cases a <;> rfl) _ x8)
      inb_S1x512x512_S1x512x128_0_0_0

end Cert.KernelIdeal.PiecesEdge

end
-- ==== Proof.KerFinalEdge.lean ====
/-
  The edge side of the kernel, point by point: the block each grid point leaves in the edge output's window is its
  stretch's slice of the specification's edge output.
-/
import proofs.«411520_j71347996721296_1_alg».proof.Proof.KerArr
import proofs.«411520_j71347996721296_1_alg».proof.Proof.KerPiecesEdge
import proofs.«411520_j71347996721296_1_alg».proof.Proof.KerMath
import proofs.«411520_j71347996721296_1_alg».proof.Proof.KerGoal

set_option maxRecDepth 16384

noncomputable section

namespace Cert.KernelIdeal.FinalEdge

open Cert.KernelIdeal Cert.KernelIdeal.Gen Cert.KernelIdeal.PiecesEdge Cert.KernelIdeal.Arr Cert.KernelIdeal.Goal
open Idealize.ShloMosaic Idealize.ShloMosaic.TcCoe Idealize.SL.Sem Idealize.ShloMosaic.ValueIdx

/-! ## The block's arithmetic against the specification -/

/-- Rank-4 indices with equal coordinates are equal. -/
theorem ix4_congr {n0 n1 n2 n3 : Nat} {a a' : Fin n0} {b b' : Fin n1} {c c' : Fin n2} {d d' : Fin n3}
    (ha : a = a') (hb : b = b') (hc : c = c') (hd : d = d') : ix4 a b c d = ix4 a' b' c' d' := by
  subst ha; subst hb; subst hc; subst hd; rfl

/-- The row of the node block picked by an end of an edge is the end node's row of the node array: column 128 k + d'
    of the block is feature d' of feature row k. -/
theorem gat_eq (A0 : FVec Ideal Cert.Spec.SX1 .f32) (A2 : IVec Cert.Spec.SE 32) (he : Cert.Spec.InRange A2)
    (x1 : Vec Ideal S1x1024x256 .f32) (x2 : Vec Ideal S2x512 .i32) (b : Fin 8) (s : Nat) (hs : s < 32)
    (h1 : ∀ (n : Fin 1024) (q : Fin 256), x1 (ix3 0 n q)
      = A0 (ix4 b n (⟨q.val / 128, by omega⟩ : Fin 2) (⟨q.val % 128, by omega⟩ : Fin 128)))
    (h2 : ∀ (a : Fin 2) (r : Fin 512), x2 (ix2 a r) = A2 (ix2 a (⟨512 * s + r.val, by omega⟩ : Fin 16384)))
    (a : Fin 2) (r : Fin 512) (k : Fin 2) (d' : Fin 128) (hq : 128 * k.val + d'.val < 256) :
    gat x1 x2 a r (⟨128 * k.val + d'.val, hq⟩ : Fin 256)
      = A0 (ix4 b (Cert.Spec.node A2 a (⟨512 * s + r.val, by omega⟩ : Fin 16384)) k d') := by
  unfold gat
  rw [← Cert.KerMath.pick_node A0 A2 he a (⟨512 * s + r.val, by omega⟩ : Fin 16384) b k d']
  refine Finset.sum_congr rfl fun t _ => ?_
  rw [h2 a r, h1 t _]
  refine congrArg (fun z => Cert.KerSpec.oneHot (A2 (ix2 a (⟨512 * s + r.val, by omega⟩ : Fin 16384))) t * A0 z) ?_
  exact ix4_congr rfl rfl (Fin.ext (by show (128 * k.val + d'.val) / 128 = k.val; omega))
    (Fin.ext (by show (128 * k.val + d'.val) % 128 = d'.val; omega))

/-- The edge block computed from the blocks of stretch s of batch b is the specification's edge output on that stretch:
    row r is edge 512 s + r, column q is feature q % 128 of feature row q / 128. -/
theorem eoutG_spec (A0 : FVec Ideal Cert.Spec.SX1 .f32) (A1 : FVec Ideal Cert.Spec.SX2 .f32) (A2 : IVec Cert.Spec.SE 32)
    (he : Cert.Spec.InRange A2)
    (W5 : FVec Ideal Cert.Spec.SW .f32) (W6 : FVec Ideal Cert.Spec.SB .f32)
    (W7 : FVec Ideal Cert.Spec.SW .f32) (W8 : FVec Ideal Cert.Spec.SB .f32)
    (x0 : Vec Ideal S1x512x512 .f32) (x1 : Vec Ideal S1x1024x256 .f32) (x2 : Vec Ideal S2x512 .i32)
    (x5 : Vec Ideal S128x128 .f32) (x6 : Vec Ideal S128 .f32) (x7 : Vec Ideal S128x128 .f32) (x8 : Vec Ideal S128 .f32)
    (b : Fin 8) (s : Nat) (hs : s < 32)
    (h0 : ∀ (r q : Fin 512), x0 (ix3 0 r q)
      = A1 (ix4 b (⟨512 * s + r.val, by omega⟩ : Fin 16384) (⟨q.val / 128, by omega⟩ : Fin 4) (⟨q.val % 128, by omega⟩ : Fin 128)))
    (h1 : ∀ (n : Fin 1024) (q : Fin 256), x1 (ix3 0 n q)
      = A0 (ix4 b n (⟨q.val / 128, by omega⟩ : Fin 2) (⟨q.val % 128, by omega⟩ : Fin 128)))
    (h2 : ∀ (a : Fin 2) (r : Fin 512), x2 (ix2 a r) = A2 (ix2 a (⟨512 * s + r.val, by omega⟩ : Fin 16384)))
    (h5 : x5 = W5) (h6 : x6 = W6) (h7 : x7 = W7) (h8 : x8 = W8)
    (r q : Fin 512) :
    eoutG x0 x1 x2 x5 x6 x7 x8 (ix3 0 r q)
      = Cert.Spec.Espec A0 A1 A2 W5 W6 W7 W8
          (ix4 b (⟨512 * s + r.val, by omega⟩ : Fin 16384) (⟨q.val / 128, by omega⟩ : Fin 4) (⟨q.val % 128, by omega⟩ : Fin 128)) := by
  subst h5; subst h6; subst h7; subst h8
  show (∑ d : Fin 128,
          (x0 (ix3 0 r (⟨128 * (q.val / 128) + d.val, by omega⟩ : Fin 512))
            + ((∑ d' : Fin 128,
                  (gat x1 x2 0 r (⟨128 * (q.val / 128 / 2) + d'.val, by omega⟩ : Fin 256)
                    + gat x1 x2 1 r (⟨128 * (q.val / 128 % 2) + d'.val, by omega⟩ : Fin 256))
                  * x5 (ix2 d d'))
                + x6 (ix1 d)))
          * x7 (ix2 (⟨q.val % 128, by omega⟩ : Fin 128) d))
        + x8 (ix1 (⟨q.val % 128, by omega⟩ : Fin 128))
      = (∑ d : Fin 128, Cert.Spec.e1 A0 A1 A2 x5 x6 b (⟨512 * s + r.val, by omega⟩ : Fin 16384) (⟨q.val / 128, by omega⟩ : Fin 4) d
            * x7 (ix2 (⟨q.val % 128, by omega⟩ : Fin 128) d))
        + x8 (ix1 (⟨q.val % 128, by omega⟩ : Fin 128))
  refine congrArg (fun z => z + x8 (ix1 (⟨q.val % 128, by omega⟩ : Fin 128))) ?_
  refine Finset.sum_congr rfl fun d _ => ?_
  refine congrArg (fun z => z * x7 (ix2 (⟨q.val % 128, by omega⟩ : Fin 128) d)) ?_
  unfold Cert.Spec.e1 Cert.Spec.mid
  have e0 : x0 (ix3 0 r (⟨128 * (q.val / 128) + d.val, by omega⟩ : Fin 512))
      = A1 (ix4 b (⟨512 * s + r.val, by omega⟩ : Fin 16384) (⟨q.val / 128, by omega⟩ : Fin 4) d) := by
    rw [h0 r _]
    exact congrArg A1 (ix4_congr rfl rfl (Fin.ext (by show (128 * (q.val / 128) + d.val) / 128 = q.val / 128; omega))
      (Fin.ext (by show (128 * (q.val / 128) + d.val) % 128 = d.val; omega)))
  rw [e0]
  refine congrArg (fun z => A1 (ix4 b (⟨512 * s + r.val, by omega⟩ : Fin 16384) (⟨q.val / 128, by omega⟩ : Fin 4) d) + (z + x6 (ix1 d))) ?_
  refine Finset.sum_congr rfl fun d' _ => ?_
  refine congrArg (fun z => z * x5 (ix2 d d')) ?_
  unfold Cert.Spec.esum
  have g0 := gat_eq A0 A2 he x1 x2 b s hs h1 h2 0 r (⟨q.val / 128 / 2, by omega⟩ : Fin 2) d' (by show 128 * (q.val / 128 / 2) + d'.val < 256; omega)
  have g1 := gat_eq A0 A2 he x1 x2 b s hs h1 h2 1 r (⟨q.val / 128 % 2, by omega⟩ : Fin 2) d' (by show 128 * (q.val / 128 % 2) + d'.val < 256; omega)
  rw [g0, g1]

/-! ## The window at a grid point -/

variable (m : (ℓ : Loc nD τ sig) → Buf (Elt Ideal) ℓ)

/-- The input blocks at a grid point, at their literal types. -/
abbrev xb0 (c : Dev nD) (t : Fin cfg0.N) : Vec Ideal S1x512x512 .f32 := iblk m c 0 t
abbrev xb1 (c : Dev nD) (t : Fin cfg0.N) : Vec Ideal S1x1024x256 .f32 := iblk m c 1 t
abbrev xb2 (c : Dev nD) (t : Fin cfg0.N) : Vec Ideal S2x512 .i32 := iblk m c 2 t
abbrev xb3 (c : Dev nD) (t : Fin cfg0.N) : Vec Ideal S128x128 .f32 := iblk m c 3 t
abbrev xb4 (c : Dev nD) (t : Fin cfg0.N) : Vec Ideal S128 .f32 := iblk m c 4 t
abbrev xb5 (c : Dev nD) (t : Fin cfg0.N) : Vec Ideal S128x128 .f32 := iblk m c 5 t
abbrev xb6 (c : Dev nD) (t : Fin cfg0.N) : Vec Ideal S128 .f32 := iblk m c 6 t
abbrev xb7 (c : Dev nD) (t : Fin cfg0.N) : Vec Ideal S128x128 .f32 := iblk m c 7 t
abbrev xb8 (c : Dev nD) (t : Fin cfg0.N) : Vec Ideal S128 .f32 := iblk m c 8 t

/-- In each of the three control cases, what a grid point leaves in the edge output's window is the edge block
    computed from the point's input blocks. -/
theorem win10 (c : Dev nD) (t : Fin cfg0.N) :
    (outsAt0 m c t.val t.isLt).2.1
      = eoutG (xb0 m c t) (xb1 m c t) (xb2 m c t) (xb5 m c t) (xb6 m c t) (xb7 m c t) (xb8 m c t) := by
  by_cases h0 : t.val % 32 = 0
  · have h1 : ¬t.val % 32 = 31 := by omega
    rw [outsAt0_A m c t h0 h1]
    dsimp only
    exact out10_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (xb0 m c t) (xb1 m c t) (xb2 m c t) (xb3 m c t) (xb4 m c t) (xb5 m c t) (xb6 m c t) (xb7 m c t) (xb8 m c t)
  · by_cases h1 : t.val % 32 = 31
    · rw [outsAt0_C m c t h0 h1]
      dsimp only
      exact out10_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (xb0 m c t) (xb1 m c t) (xb2 m c t) (xb3 m c t) (xb4 m c t) (xb5 m c t) (xb6 m c t) (xb7 m c t) (xb8 m c t) (outsAt0 m c (t.val - 1) (Nat.lt_of_le_of_lt (Nat.sub_le _ _) t.isLt)).2.2
    · rw [outsAt0_B m c t h0 h1]
      dsimp only
      exact out10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (xb0 m c t) (xb1 m c t) (xb2 m c t) (xb3 m c t) (xb4 m c t) (xb5 m c t) (xb6 m c t) (xb7 m c t) (xb8 m c t) (outsAt0 m c (t.val - 1) (Nat.lt_of_le_of_lt (Nat.sub_le _ _) t.isLt)).2.2

/-- What a grid point leaves in the edge output's window is its block of the edge output. -/
theorem h10 (he : ∀ c : Dev nD, Cert.Spec.InRange (a2 m c)) (c : Dev nD) (t : Fin cfg0.N) (r q : Fin 512) :
    (outsAt0 m c t.val t.isLt).2.1 (ix3 0 r q)
      = G10 m c (ix3 (⟨t.val / 32, by have := t.isLt; have : cfg0.N = 256 := N_0; omega⟩ : Fin 8)
          (⟨512 * (t.val % 32) + r.val, by omega⟩ : Fin 16384) q) := by
  have hN : cfg0.N = 256 := N_0
  have ht := t.isLt
  rw [win10 m c t]
  exact eoutG_spec (a0 m c) (a1 m c) (a2 m c) (he c) (a7 m c) (a8 m c) (a5 m c) (a6 m c)
    (xb0 m c t) (xb1 m c t) (xb2 m c t) (xb5 m c t) (xb6 m c t) (xb7 m c t) (xb8 m c t)
    (⟨t.val / 32, by omega⟩ : Fin 8) (t.val % 32) (by omega)
    (fun r q => x2blk_apply m c t r q) (fun n q => x1blk_apply m c t n q) (fun a r => eblk_apply m c t a r)
    (wblk5 m c t) (wblk6 m c t) (wblk7 m c t) (wblk8 m c t) r q

end Cert.KernelIdeal.FinalEdge

end
-- ==== Proof.KerRun.lean ====
/-
  The kernel's run with its two results named: they are the specification's node and edge outputs of the arguments.
-/
import proofs.«411520_j71347996721296_1_alg».proof.Proof.KerArr
import proofs.«411520_j71347996721296_1_alg».proof.Proof.KerFinalNode
import proofs.«411520_j71347996721296_1_alg».proof.Proof.KerFinalEdge
import proofs.«411520_j71347996721296_1_alg».proof.Proof.KerGoal
import proofs.«411520_j71347996721296_1_alg».proof.Proof.Spec

noncomputable section

namespace Cert.KernelIdeal.KRun

open Cert.KernelIdeal Cert.KernelIdeal.Gen Cert.KernelIdeal.Arr Cert.KernelIdeal.Goal
open Idealize.ShloMosaic Idealize.ShloMosaic.TcCoe Idealize.SL.Sem Idealize.ShloMosaic.ValueIdx

theorem ix4_congr {n0 n1 n2 n3 : Nat} {a a' : Fin n0} {b b' : Fin n1} {c c' : Fin n2} {d d' : Fin n3}
    (h0 : a = a') (h1 : b = b') (h2 : c = c') (h3 : d = d') : ix4 a b c d = ix4 a' b' c' d' := by
  subst h0 h1 h2 h3; rfl

theorem run (m : (ℓ : Loc nD τ sig) → Buf (Elt Ideal) ℓ) (ρ : Dev nD → PrngReg)
    (he : ∀ c : Dev nD, Cert.Spec.InRange (a2 m c)) :
    θ_run defs (onTc (τ := τ) (main (F := Ideal))) ⟨m, fun _ => 0, ρ⟩ (fun r => ∀ c : Dev nD,
      r.2.mem ((c.tc : Thread nD τ).loc main_v3) = Cert.Spec.Xspec (a0 m c) (a1 m c) (a2 m c) (a3 m c) (a4 m c)
      ∧ r.2.mem ((c.tc : Thread nD τ).loc main_v4) = Cert.Spec.Espec (a0 m c) (a1 m c) (a2 m c) (a7 m c) (a8 m c) (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_)
    (run_of_blocks m ρ (G9 m) (G10 m) (fun c t ht n q => Cert.KernelIdeal.FinalNode.h9 m he c t ht n q)
      (fun c t r q => Cert.KernelIdeal.FinalEdge.h10 m he c t r q))
  obtain ⟨h3, h4, hk⟩ := h c
  refine ⟨?_, ?_, hk⟩
  · funext j
    obtain ⟨b, n, s, d, rfl⟩ : ∃ (b : Fin 8) (n : Fin 1024) (s : Fin 2) (d : Fin 128), j = ix4 b n s d :=
      ⟨j 0, j 1, j 2, j 3, eq_ix4 j⟩
    refine (h3 b n s d).trans ?_
    unfold G9
    exact congrArg (Cert.Spec.Xspec (a0 m c) (a1 m c) (a2 m c) (a3 m c) (a4 m c))
      (ix4_congr rfl rfl (Fin.ext (by show (128 * s.val + d.val) / 128 = s.val; omega)) (Fin.ext (by show (128 * s.val + d.val) % 128 = d.val; omega)))
  · funext j
    obtain ⟨b, n, k, d, rfl⟩ : ∃ (b : Fin 8) (n : Fin 16384) (k : Fin 4) (d : Fin 128), j = ix4 b n k d :=
      ⟨j 0, j 1, j 2, j 3, eq_ix4 j⟩
    refine (h4 b n k d).trans ?_
    unfold G10
    exact congrArg (Cert.Spec.Espec (a0 m c) (a1 m c) (a2 m c) (a7 m c) (a8 m c) (a5 m c) (a6 m c))
      (ix4_congr rfl rfl (Fin.ext (by show (128 * k.val + d.val) / 128 = k.val; omega)) (Fin.ext (by show (128 * k.val + d.val) % 128 = d.val; omega)))

end Cert.KernelIdeal.KRun

end
-- ==== Proof.RefOps.lean ====
import proofs.«411520_j71347996721296_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program's 120 host operations, in program order. -/
abbrev ops : List (HloOp τ sig (Elt F)) :=
  [ StableHlo.nullary main_c (fun i => lit0 (S4.rowMajor i)),
    StableHlo.nullary main_c_0 (fun i => lit1 (S4.rowMajor i)),
    StableHlo.unary main_arg2 main_v0 ((extractStridedSlice S1x16384 ![0, 0] · slices_S2x16384_S1x16384_0_0) : (⟨S2x16384, .i32⟩ : BufTy).Contents (Elt F) → (⟨S1x16384, .i32⟩ : BufTy).Contents (Elt F)),
    StableHlo.reshape main_v0 main_v1 rfl shapeCasts_S1x16384_S16384,
    StableHlo.unary main_arg2 main_v2 ((extractStridedSlice S1x16384 ![1, 0] · slices_S2x16384_S1x16384_1_0) : (⟨S2x16384, .i32⟩ : BufTy).Contents (Elt F) → (⟨S1x16384, .i32⟩ : BufTy).Contents (Elt F)),
    StableHlo.reshape main_v2 main_v3 rfl shapeCasts_S1x16384_S16384,
    StableHlo.reshape main_arg1 main_v4 rfl shapeCasts_S8x16384x4x128_S8x16384x2x2x128,
    StableHlo.nullary main_cst (constant S_ .f32 0x00000000#32),
    StableHlo.binary main_v4 main_cst main_v5 ((fun x v => Host.reduceAdd x v reducesTo_S8x16384x2x2x128_S8x16384x2x128_d3 h_S_) : (⟨S8x16384x2x2x128, .f32⟩ : BufTy).Contents (Elt F) → (⟨S_, .f32⟩ : BufTy).Contents (Elt F) → (⟨S8x16384x2x128, .f32⟩ : BufTy).Contents (Elt F)),
    StableHlo.unary main_arg0 main_v6 ((extractStridedSlice S8x1024x1x128 ![0, 0, 0, 0] · slices_S8x1024x2x128_S8x1024x1x128_0_0_0_0) : (⟨S8x1024x2x128, .f32⟩ : BufTy).Contents (Elt F) → (⟨S8x1024x1x128, .f32⟩ : BufTy).Contents (Elt F)),
    StableHlo.reshape main_v6 main_v7 rfl shapeCasts_S8x1024x1x128_S8x1024x128,
    StableHlo.unary main_v5 main_v8 ((extractStridedSlice S8x16384x1x128 ![0, 0, 0, 0] · slices_S8x16384x2x128_S8x16384x1x128_0_0_0_0) : (⟨S8x16384x2x128, .f32⟩ : BufTy).Contents (Elt F) → (⟨S8x16384x1x128, .f32⟩ : BufTy).Contents (Elt F)),
    StableHlo.reshape main_v8 main_v9 rfl shapeCasts_S8x16384x1x128_S8x16384x128,
    StableHlo.nullary main_cst_1 (constant S_ .f32 0x00000000#32),
    StableHlo.unary main_cst_1 main_v10 (broadcastInDim S8x1024x128 ![] bcast_S_S8x1024x128 : (⟨S_, .f32⟩ : BufTy).Contents (Elt F) → (⟨S8x1024x128, .f32⟩ : BufTy).Contents (Elt F)),
    StableHlo.nullary main_c_2 (constantI S_ 32 0#32),
    StableHlo.unary main_c_2 main_v11 (broadcastInDim S16384 ![] bcast_S_S16384 : (⟨S_, .i32⟩ : BufTy).Contents (Elt F) → (⟨S16384, .i32⟩ : BufTy).Contents (Elt F)),
    StableHlo.binary main_v3 main_v11 main_v12 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 1024#32),
    StableHlo.unary main_c_3 main_v13 (broadcastInDim S16384 ![] bcast_S_S16384 : (⟨S_, .i32⟩ : BufTy).Contents (Elt F) → (⟨S16384, .i32⟩ : BufTy).Contents (Elt F)),
    StableHlo.binary main_v3 main_v13 main_v14 (addi : (⟨S16384, .i32⟩ : BufTy).Contents (Elt F) → (⟨S16384, .i32⟩ : BufTy).Contents (Elt F) → (⟨S16384, .i32⟩ : BufTy).Contents (Elt F)),
    StableHlo.ternary main_v12 main_v14 main_v3 main_v15 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v15 main_v16 (broadcastInDim S16384x1 ![0] bcast_S16384_S16384x1_0 : (⟨S16384, .i32⟩ : BufTy).Contents (Elt F) → (⟨S16384x1, .i32⟩ : BufTy).Contents (Elt F)),
    StableHlo.ternary main_v10 main_v16 main_v9 main_v17 ((fun x i u => Host.scatterAdd scatter_S8x1024x128_S16384x1_S8x16384x128_02_1_1_1 x i u) : (⟨S8x1024x128, .f32⟩ : BufTy).Contents (Elt F) → (⟨S16384x1, .i32⟩ : BufTy).Contents (Elt F) → (⟨S8x16384x128, .f32⟩ : BufTy).Contents (Elt F) → (⟨S8x1024x128, .f32⟩ : BufTy).Contents (Elt F)),
    StableHlo.nullary main_c_4 (constantI S_ 32 0#32),
    StableHlo.unary main_c_4 main_v18 (broadcastInDim S16384 ![] bcast_S_S16384 : (⟨S_, .i32⟩ : BufTy).Contents (Elt F) → (⟨S16384, .i32⟩ : BufTy).Contents (Elt F)),
    StableHlo.binary main_v1 main_v18 main_v19 (cmpi .slt : (⟨S16384, .i32⟩ : BufTy).Contents (Elt F) → (⟨S16384, .i32⟩ : BufTy).Contents (Elt F) → (⟨S16384, .i1⟩ : BufTy).Contents (Elt F)),
    StableHlo.nullary main_c_5 (constantI S_ 32 1024#32),
    StableHlo.unary main_c_5 main_v20 (broadcastInDim S16384 ![] bcast_S_S16384 : (⟨S_, .i32⟩ : BufTy).Contents (Elt F) → (⟨S16384, .i32⟩ : BufTy).Contents (Elt F)),
    StableHlo.binary main_v1 main_v20 main_v21 (addi : (⟨S16384, .i32⟩ : BufTy).Contents (Elt F) → (⟨S16384, .i32⟩ : BufTy).Contents (Elt F) → (⟨S16384, .i32⟩ : BufTy).Contents (Elt F)),
    StableHlo.ternary main_v19 main_v21 main_v1 main_v22 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v22 main_v23 (broadcastInDim S16384x1 ![0] bcast_S16384_S16384x1_0 : (⟨S16384, .i32⟩ : BufTy).Contents (Elt F) → (⟨S16384x1, .i32⟩ : BufTy).Contents (Elt F)),
    StableHlo.ternary main_v10 main_v23 main_v9 main_v24 ((fun x i u => Host.scatterAdd scatter_S8x1024x128_S16384x1_S8x16384x128_02_1_1_1 x i u) : (⟨S8x1024x128, .f32⟩ : BufTy).Contents (Elt F) → (⟨S16384x1, .i32⟩ : BufTy).Contents (Elt F) → (⟨S8x16384x128, .f32⟩ : BufTy).Contents (Elt F) → (⟨S8x1024x128, .f32⟩ : BufTy).Contents (Elt F)),
    StableHlo.binary main_v17 main_v24 main_v25 (addf : (⟨S8x1024x128, .f32⟩ : BufTy).Contents (Elt F) → (⟨S8x1024x128, .f32⟩ : BufTy).Contents (Elt F) → (⟨S8x1024x128, .f32⟩ : BufTy).Contents (Elt F)),
    StableHlo.nullary main_cst_6 (constant S_ .f32 0x3F000000#32),
    StableHlo.unary main_cst_6 main_v26 (broadcastInDim S8x1024x128 ![] bcast_S_S8x1024x128 : (⟨S_, .f32⟩ : BufTy).Contents (Elt F) → (⟨S8x1024x128, .f32⟩ : BufTy).Contents (Elt F)),
    StableHlo.binary main_v25 main_v26 main_v27 (mulf : (⟨S8x1024x128, .f32⟩ : BufTy).Contents (Elt F) → (⟨S8x1024x128, .f32⟩ : BufTy).Contents (Elt F) → (⟨S8x1024x128, .f32⟩ : BufTy).Contents (Elt F)),
    StableHlo.binary main_v7 main_v27 main_v28 (addf : (⟨S8x1024x128, .f32⟩ : BufTy).Contents (Elt F) → (⟨S8x1024x128, .f32⟩ : BufTy).Contents (Elt F) → (⟨S8x1024x128, .f32⟩ : BufTy).Contents (Elt F)),
    StableHlo.unary main_arg0 main_v29 ((extractStridedSlice S8x1024x1x128 ![0, 0, 1, 0] · slices_S8x1024x2x128_S8x1024x1x128_0_0_1_0) : (⟨S8x1024x2x128, .f32⟩ : BufTy).Contents (Elt F) → (⟨S8x1024x1x128, .f32⟩ : BufTy).Contents (Elt F)),
    StableHlo.reshape main_v29 main_v30 rfl shapeCasts_S8x1024x1x128_S8x1024x128,
    StableHlo.unary main_v5 main_v31 ((extractStridedSlice S8x16384x1x128 ![0, 0, 1, 0] · slices_S8x16384x2x128_S8x16384x1x128_0_0_1_0) : (⟨S8x16384x2x128, .f32⟩ : BufTy).Contents (Elt F) → (⟨S8x16384x1x128, .f32⟩ : BufTy).Contents (Elt F)),
    StableHlo.reshape main_v31 main_v32 rfl shapeCasts_S8x16384x1x128_S8x16384x128,
    StableHlo.nullary main_cst_7 (constant S_ .f32 0x00000000#32),
    StableHlo.unary main_cst_7 main_v33 (broadcastInDim S8x1024x128 ![] bcast_S_S8x1024x128 : (⟨S_, .f32⟩ : BufTy).Contents (Elt F) → (⟨S8x1024x128, .f32⟩ : BufTy).Contents (Elt F)),
    StableHlo.nullary main_c_8 (constantI S_ 32 0#32),
    StableHlo.unary main_c_8 main_v34 (broadcastInDim S16384 ![] bcast_S_S16384 : (⟨S_, .i32⟩ : BufTy).Contents (Elt F) → (⟨S16384, .i32⟩ : BufTy).Contents (Elt F)),
    StableHlo.binary main_v3 main_v34 main_v35 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 1024#32),
    StableHlo.unary main_c_9 main_v36 (broadcastInDim S16384 ![] bcast_S_S16384 : (⟨S_, .i32⟩ : BufTy).Contents (Elt F) → (⟨S16384, .i32⟩ : BufTy).Contents (Elt F)),
    StableHlo.binary main_v3 main_v36 main_v37 (addi : (⟨S16384, .i32⟩ : BufTy).Contents (Elt F) → (⟨S16384, .i32⟩ : BufTy).Contents (Elt F) → (⟨S16384, .i32⟩ : BufTy).Contents (Elt F)),
    StableHlo.ternary main_v35 main_v37 main_v3 main_v38 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v38 main_v39 (broadcastInDim S16384x1 ![0] bcast_S16384_S16384x1_0 : (⟨S16384, .i32⟩ : BufTy).Contents (Elt F) → (⟨S16384x1, .i32⟩ : BufTy).Contents (Elt F)),
    StableHlo.ternary main_v33 main_v39 main_v32 main_v40 ((fun x i u => Host.scatterAdd scatter_S8x1024x128_S16384x1_S8x16384x128_02_1_1_1 x i u) : (⟨S8x1024x128, .f32⟩ : BufTy).Contents (Elt F) → (⟨S16384x1, .i32⟩ : BufTy).Contents (Elt F) → (⟨S8x16384x128, .f32⟩ : BufTy).Contents (Elt F) → (⟨S8x1024x128, .f32⟩ : BufTy).Contents (Elt F)),
    StableHlo.nullary main_c_10 (constantI S_ 32 0#32),
    StableHlo.unary main_c_10 main_v41 (broadcastInDim S16384 ![] bcast_S_S16384 : (⟨S_, .i32⟩ : BufTy).Contents (Elt F) → (⟨S16384, .i32⟩ : BufTy).Contents (Elt F)),
    StableHlo.binary main_v1 main_v41 main_v42 (cmpi .slt : (⟨S16384, .i32⟩ : BufTy).Contents (Elt F) → (⟨S16384, .i32⟩ : BufTy).Contents (Elt F) → (⟨S16384, .i1⟩ : BufTy).Contents (Elt F)),
    StableHlo.nullary main_c_11 (constantI S_ 32 1024#32),
    StableHlo.unary main_c_11 main_v43 (broadcastInDim S16384 ![] bcast_S_S16384 : (⟨S_, .i32⟩ : BufTy).Contents (Elt F) → (⟨S16384, .i32⟩ : BufTy).Contents (Elt F)),
    StableHlo.binary main_v1 main_v43 main_v44 (addi : (⟨S16384, .i32⟩ : BufTy).Contents (Elt F) → (⟨S16384, .i32⟩ : BufTy).Contents (Elt F) → (⟨S16384, .i32⟩ : BufTy).Contents (Elt F)),
    StableHlo.ternary main_v42 main_v44 main_v1 main_v45 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v45 main_v46 (broadcastInDim S16384x1 ![0] bcast_S16384_S16384x1_0 : (⟨S16384, .i32⟩ : BufTy).Contents (Elt F) → (⟨S16384x1, .i32⟩ : BufTy).Contents (Elt F)),
    StableHlo.ternary main_v33 main_v46 main_v32 main_v47 ((fun x i u => Host.scatterAdd scatter_S8x1024x128_S16384x1_S8x16384x128_02_1_1_1 x i u) : (⟨S8x1024x128, .f32⟩ : BufTy).Contents (Elt F) → (⟨S16384x1, .i32⟩ : BufTy).Contents (Elt F) → (⟨S8x16384x128, .f32⟩ : BufTy).Contents (Elt F) → (⟨S8x1024x128, .f32⟩ : BufTy).Contents (Elt F)),
    StableHlo.binary main_v40 main_v47 main_v48 (addf : (⟨S8x1024x128, .f32⟩ : BufTy).Contents (Elt F) → (⟨S8x1024x128, .f32⟩ : BufTy).Contents (Elt F) → (⟨S8x1024x128, .f32⟩ : BufTy).Contents (Elt F)),
    StableHlo.nullary main_cst_12 (constant S_ .f32 0x3F000000#32),
    StableHlo.unary main_cst_12 main_v49 (broadcastInDim S8x1024x128 ![] bcast_S_S8x1024x128 : (⟨S_, .f32⟩ : BufTy).Contents (Elt F) → (⟨S8x1024x128, .f32⟩ : BufTy).Contents (Elt F)),
    StableHlo.binary main_v48 main_v49 main_v50 (mulf : (⟨S8x1024x128, .f32⟩ : BufTy).Contents (Elt F) → (⟨S8x1024x128, .f32⟩ : BufTy).Contents (Elt F) → (⟨S8x1024x128, .f32⟩ : BufTy).Contents (Elt F)),
    StableHlo.binary main_v30 main_v50 main_v51 (addf : (⟨S8x1024x128, .f32⟩ : BufTy).Contents (Elt F) → (⟨S8x1024x128, .f32⟩ : BufTy).Contents (Elt F) → (⟨S8x1024x128, .f32⟩ : BufTy).Contents (Elt F)),
    StableHlo.unary main_v28 main_v52 (broadcastInDim S8x1024x1x128 ![0, 1, 3] bcast_S8x1024x128_S8x1024x1x128_0_1_3 : (⟨S8x1024x128, .f32⟩ : BufTy).Contents (Elt F) → (⟨S8x1024x1x128, .f32⟩ : BufTy).Contents (Elt F)),
    StableHlo.unary main_v51 main_v53 (broadcastInDim S8x1024x1x128 ![0, 1, 3] bcast_S8x1024x128_S8x1024x1x128_0_1_3 : (⟨S8x1024x128, .f32⟩ : BufTy).Contents (Elt F) → (⟨S8x1024x1x128, .f32⟩ : BufTy).Contents (Elt F)),
    StableHlo.binary main_v52 main_v53 main_v54 ((fun a b => concatenate S8x1024x2x128 2 [⟨S8x1024x1x128, a⟩, ⟨S8x1024x1x128, b⟩] concatenates_S8x1024x1x128_S8x1024x1x128_S8x1024x2x128_d2) : (⟨S8x1024x1x128, .f32⟩ : BufTy).Contents (Elt F) → (⟨S8x1024x1x128, .f32⟩ : BufTy).Contents (Elt F) → (⟨S8x1024x2x128, .f32⟩ : BufTy).Contents (Elt F)),
    StableHlo.binary main_v54 main_arg3 main_v55 ((fun l r => Host.dotGeneral dot_S8x1024x2x128_S128x128_S8x1024x2x128_3_1_012_0_n_n none l r) : (⟨S8x1024x2x128, .f32⟩ : BufTy).Contents (Elt F) → (⟨S128x128, .f32⟩ : BufTy).Contents (Elt F) → (⟨S8x1024x2x128, .f32⟩ : BufTy).Contents (Elt F)),
    StableHlo.unary main_arg4 main_v56 (broadcastInDim S1x1x1x128 ![3] bcast_S128_S1x1x1x128_3 : (⟨S128, .f32⟩ : BufTy).Contents (Elt F) → (⟨S1x1x1x128, .f32⟩ : BufTy).Contents (Elt F)),
    StableHlo.unary main_v56 main_v57 (broadcastInDim S8x1024x2x128 ![0, 1, 2, 3] bcast_S1x1x1x128_S8x1024x2x128_0_1_2_3 : (⟨S1x1x1x128, .f32⟩ : BufTy).Contents (Elt F) → (⟨S8x1024x2x128, .f32⟩ : BufTy).Contents (Elt F)),
    StableHlo.binary main_v55 main_v57 main_v58 (addf : (⟨S8x1024x2x128, .f32⟩ : BufTy).Contents (Elt F) → (⟨S8x1024x2x128, .f32⟩ : BufTy).Contents (Elt F) → (⟨S8x1024x2x128, .f32⟩ : BufTy).Contents (Elt F)),
    StableHlo.nullary main_c_13 (constantI S_ 32 0#32),
    StableHlo.unary main_c_13 main_v59 (broadcastInDim S16384 ![] bcast_S_S16384 : (⟨S_, .i32⟩ : BufTy).Contents (Elt F) → (⟨S16384, .i32⟩ : BufTy).Contents (Elt F)),
    StableHlo.binary main_v1 main_v59 main_v60 (cmpi .slt : (⟨S16384, .i32⟩ : BufTy).Contents (Elt F) → (⟨S16384, .i32⟩ : BufTy).Contents (Elt F) → (⟨S16384, .i1⟩ : BufTy).Contents (Elt F)),
    StableHlo.nullary main_c_14 (constantI S_ 32 1024#32),
    StableHlo.unary main_c_14 main_v61 (broadcastInDim S16384 ![] bcast_S_S16384 : (⟨S_, .i32⟩ : BufTy).Contents (Elt F) → (⟨S16384, .i32⟩ : BufTy).Contents (Elt F)),
    StableHlo.binary main_v1 main_v61 main_v62 (addi : (⟨S16384, .i32⟩ : BufTy).Contents (Elt F) → (⟨S16384, .i32⟩ : BufTy).Contents (Elt F) → (⟨S16384, .i32⟩ : BufTy).Contents (Elt F)),
    StableHlo.ternary main_v60 main_v62 main_v1 main_v63 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v63 main_v64 (broadcastInDim S16384x1 ![0] bcast_S16384_S16384x1_0 : (⟨S16384, .i32⟩ : BufTy).Contents (Elt F) → (⟨S16384x1, .i32⟩ : BufTy).Contents (Elt F)),
    StableHlo.binary main_arg0 main_v64 main_v65 ((fun x i => Host.gather gather_S8x1024x2x128_S16384x1_S8x16384x2x128_023_1_n_n_1_1_812128 x i) : (⟨S8x1024x2x128, .f32⟩ : BufTy).Contents (Elt F) → (⟨S16384x1, .i32⟩ : BufTy).Contents (Elt F) → (⟨S8x16384x2x128, .f32⟩ : BufTy).Contents (Elt F)),
    StableHlo.nullary main_c_15 (constantI S_ 32 0#32),
    StableHlo.unary main_c_15 main_v66 (broadcastInDim S4 ![] bcast_S_S4 : (⟨S_, .i32⟩ : BufTy).Contents (Elt F) → (⟨S4, .i32⟩ : BufTy).Contents (Elt F)),
    StableHlo.binary main_c main_v66 main_v67 (cmpi .slt : (⟨S4, .i32⟩ : BufTy).Contents (Elt F) → (⟨S4, .i32⟩ : BufTy).Contents (Elt F) → (⟨S4, .i1⟩ : BufTy).Contents (Elt F)),
    StableHlo.nullary main_c_16 (constantI S_ 32 2#32),
    StableHlo.unary main_c_16 main_v68 (broadcastInDim S4 ![] bcast_S_S4 : (⟨S_, .i32⟩ : BufTy).Contents (Elt F) → (⟨S4, .i32⟩ : BufTy).Contents (Elt F)),
    StableHlo.binary main_c main_v68 main_v69 (addi : (⟨S4, .i32⟩ : BufTy).Contents (Elt F) → (⟨S4, .i32⟩ : BufTy).Contents (Elt F) → (⟨S4, .i32⟩ : BufTy).Contents (Elt F)),
    StableHlo.ternary main_v67 main_v69 main_c main_v70 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v70 main_v71 (broadcastInDim S4x1 ![0] bcast_S4_S4x1_0 : (⟨S4, .i32⟩ : BufTy).Contents (Elt F) → (⟨S4x1, .i32⟩ : BufTy).Contents (Elt F)),
    StableHlo.binary main_v65 main_v71 main_v72 ((fun x i => Host.gather gather_S8x16384x2x128_S4x1_S8x16384x4x128_013_2_n_n_2_1_8163841128 x i) : (⟨S8x16384x2x128, .f32⟩ : BufTy).Contents (Elt F) → (⟨S4x1, .i32⟩ : BufTy).Contents (Elt F) → (⟨S8x16384x4x128, .f32⟩ : BufTy).Contents (Elt F)),
    StableHlo.nullary main_c_17 (constantI S_ 32 0#32),
    StableHlo.unary main_c_17 main_v73 (broadcastInDim S16384 ![] bcast_S_S16384 : (⟨S_, .i32⟩ : BufTy).Contents (Elt F) → (⟨S16384, .i32⟩ : BufTy).Contents (Elt F)),
    StableHlo.binary main_v3 main_v73 main_v74 (cmpi .slt : (⟨S16384, .i32⟩ : BufTy).Contents (Elt F) → (⟨S16384, .i32⟩ : BufTy).Contents (Elt F) → (⟨S16384, .i1⟩ : BufTy).Contents (Elt F)),
    StableHlo.nullary main_c_18 (constantI S_ 32 1024#32),
    StableHlo.unary main_c_18 main_v75 (broadcastInDim S16384 ![] bcast_S_S16384 : (⟨S_, .i32⟩ : BufTy).Contents (Elt F) → (⟨S16384, .i32⟩ : BufTy).Contents (Elt F)),
    StableHlo.binary main_v3 main_v75 main_v76 (addi : (⟨S16384, .i32⟩ : BufTy).Contents (Elt F) → (⟨S16384, .i32⟩ : BufTy).Contents (Elt F) → (⟨S16384, .i32⟩ : BufTy).Contents (Elt F)),
    StableHlo.ternary main_v74 main_v76 main_v3 main_v77 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v77 main_v78 (broadcastInDim S16384x1 ![0] bcast_S16384_S16384x1_0 : (⟨S16384, .i32⟩ : BufTy).Contents (Elt F) → (⟨S16384x1, .i32⟩ : BufTy).Contents (Elt F)),
    StableHlo.binary main_arg0 main_v78 main_v79 ((fun x i => Host.gather gather_S8x1024x2x128_S16384x1_S8x16384x2x128_023_1_n_n_1_1_812128 x i) : (⟨S8x1024x2x128, .f32⟩ : BufTy).Contents (Elt F) → (⟨S16384x1, .i32⟩ : BufTy).Contents (Elt F) → (⟨S8x16384x2x128, .f32⟩ : BufTy).Contents (Elt F)),
    StableHlo.nullary main_c_19 (constantI S_ 32 0#32),
    StableHlo.unary main_c_19 main_v80 (broadcastInDim S4 ![] bcast_S_S4 : (⟨S_, .i32⟩ : BufTy).Contents (Elt F) → (⟨S4, .i32⟩ : BufTy).Contents (Elt F)),
    StableHlo.binary main_c_0 main_v80 main_v81 (cmpi .slt : (⟨S4, .i32⟩ : BufTy).Contents (Elt F) → (⟨S4, .i32⟩ : BufTy).Contents (Elt F) → (⟨S4, .i1⟩ : BufTy).Contents (Elt F)),
    StableHlo.nullary main_c_20 (constantI S_ 32 2#32),
    StableHlo.unary main_c_20 main_v82 (broadcastInDim S4 ![] bcast_S_S4 : (⟨S_, .i32⟩ : BufTy).Contents (Elt F) → (⟨S4, .i32⟩ : BufTy).Contents (Elt F)),
    StableHlo.binary main_c_0 main_v82 main_v83 (addi : (⟨S4, .i32⟩ : BufTy).Contents (Elt F) → (⟨S4, .i32⟩ : BufTy).Contents (Elt F) → (⟨S4, .i32⟩ : BufTy).Contents (Elt F)),
    StableHlo.ternary main_v81 main_v83 main_c_0 main_v84 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v84 main_v85 (broadcastInDim S4x1 ![0] bcast_S4_S4x1_0 : (⟨S4, .i32⟩ : BufTy).Contents (Elt F) → (⟨S4x1, .i32⟩ : BufTy).Contents (Elt F)),
    StableHlo.binary main_v79 main_v85 main_v86 ((fun x i => Host.gather gather_S8x16384x2x128_S4x1_S8x16384x4x128_013_2_n_n_2_1_8163841128 x i) : (⟨S8x16384x2x128, .f32⟩ : BufTy).Contents (Elt F) → (⟨S4x1, .i32⟩ : BufTy).Contents (Elt F) → (⟨S8x16384x4x128, .f32⟩ : BufTy).Contents (Elt F)),
    StableHlo.binary main_v72 main_v86 main_v87 (addf : (⟨S8x16384x4x128, .f32⟩ : BufTy).Contents (Elt F) → (⟨S8x16384x4x128, .f32⟩ : BufTy).Contents (Elt F) → (⟨S8x16384x4x128, .f32⟩ : BufTy).Contents (Elt F)),
    StableHlo.binary main_v87 main_arg7 main_v88 ((fun l r => Host.dotGeneral dot_S8x16384x4x128_S128x128_S8x16384x4x128_3_1_012_0_n_n none l r) : (⟨S8x16384x4x128, .f32⟩ : BufTy).Contents (Elt F) → (⟨S128x128, .f32⟩ : BufTy).Contents (Elt F) → (⟨S8x16384x4x128, .f32⟩ : BufTy).Contents (Elt F)),
    StableHlo.binary main_arg1 main_v88 main_v89 (addf : (⟨S8x16384x4x128, .f32⟩ : BufTy).Contents (Elt F) → (⟨S8x16384x4x128, .f32⟩ : BufTy).Contents (Elt F) → (⟨S8x16384x4x128, .f32⟩ : BufTy).Contents (Elt F)),
    StableHlo.unary main_arg8 main_v90 (broadcastInDim S1x1x1x128 ![3] bcast_S128_S1x1x1x128_3 : (⟨S128, .f32⟩ : BufTy).Contents (Elt F) → (⟨S1x1x1x128, .f32⟩ : BufTy).Contents (Elt F)),
    StableHlo.unary main_v90 main_v91 (broadcastInDim S8x16384x4x128 ![0, 1, 2, 3] bcast_S1x1x1x128_S8x16384x4x128_0_1_2_3 : (⟨S1x1x1x128, .f32⟩ : BufTy).Contents (Elt F) → (⟨S8x16384x4x128, .f32⟩ : BufTy).Contents (Elt F)),
    StableHlo.binary main_v89 main_v91 main_v92 (addf : (⟨S8x16384x4x128, .f32⟩ : BufTy).Contents (Elt F) → (⟨S8x16384x4x128, .f32⟩ : BufTy).Contents (Elt F) → (⟨S8x16384x4x128, .f32⟩ : BufTy).Contents (Elt F)),
    StableHlo.binary main_v92 main_arg5 main_v93 ((fun l r => Host.dotGeneral dot_S8x16384x4x128_S128x128_S8x16384x4x128_3_1_012_0_n_n none l r) : (⟨S8x16384x4x128, .f32⟩ : BufTy).Contents (Elt F) → (⟨S128x128, .f32⟩ : BufTy).Contents (Elt F) → (⟨S8x16384x4x128, .f32⟩ : BufTy).Contents (Elt F)),
    StableHlo.unary main_arg6 main_v94 (broadcastInDim S1x1x1x128 ![3] bcast_S128_S1x1x1x128_3 : (⟨S128, .f32⟩ : BufTy).Contents (Elt F) → (⟨S1x1x1x128, .f32⟩ : BufTy).Contents (Elt F)),
    StableHlo.unary main_v94 main_v95 (broadcastInDim S8x16384x4x128 ![0, 1, 2, 3] bcast_S1x1x1x128_S8x16384x4x128_0_1_2_3 : (⟨S1x1x1x128, .f32⟩ : BufTy).Contents (Elt F) → (⟨S8x16384x4x128, .f32⟩ : BufTy).Contents (Elt F)),
    StableHlo.binary main_v93 main_v95 main_v96 (addf : (⟨S8x16384x4x128, .f32⟩ : BufTy).Contents (Elt F) → (⟨S8x16384x4x128, .f32⟩ : BufTy).Contents (Elt F) → (⟨S8x16384x4x128, .f32⟩ : BufTy).Contents (Elt F)) ]

end Cert.ReferenceIdeal.RefRun

end
-- ==== Proof.LibHostRead.lean ====
/-
  A straight line of host operations in which no buffer is rewritten, read at a buffer.

  A line of StableHLO operations over a device's buffers is run as a fold: each operation rewrites the buffers it writes
  and leaves the rest. When every operation writes a buffer that no later operation writes and that no earlier operation
  reads or writes (static single assignment, in program order), the contents of an operation's result buffer AFTER THE
  WHOLE LINE are the operation's function of the contents, after the whole line, of its operand buffers: nothing after
  the operation touches its result or its operands. That order is a decidable property of a literal line; with it the
  fold is never opened again.
-/
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

/-- No operation writes a buffer an EARLIER operation of the line reads or writes. -/
def Fresh (L : List (HloOp τ sig Val)) : Prop := L.Pairwise fun o₁ o₂ => Disjoint o₂.writes o₁.bufs

instance (L : List (HloOp τ sig Val)) : Decidable (Fresh L) := inferInstanceAs (Decidable (L.Pairwise _))

/-- A buffer of operation number `p` holds, after the whole line, what it held right after that operation. -/
theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

/- In each lemma the operation is named by its number `p` in the line and `hop` says which builder it is (`rfl` on a
   literal line); the builder's own side proofs (its buffers are on the device and unscoped), the bound on `p` and the
   operands' being other buffers than the result are found by computation. -/

/-- A constant. -/
theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

/-- An operation of one operand. -/
theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

/-- A reshape. -/
theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

/-- An operation of two operands. -/
theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

/-- An operation of three operands. -/
theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

/-- An operation of a family of operands (a concatenation). -/
theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.LibHostRank.lean ====
/-
  Freshness of a straight line of host operations from a ranking of its buffers.

  A line is fresh when no operation writes a buffer that an earlier operation reads or writes. Checked pair by pair that
  is quadratic in the length of the line. When the buffers carry a rank — their index in the buffer table, say — such
  that operation number p writes only buffers of rank n + p and touches only buffers of rank at most n + p, the line is
  fresh: a later operation's results have a larger rank than anything an earlier one touches. That condition is linear
  in the length of the line, and it splits along a concatenation.
-/
import proofs.«411520_j71347996721296_1_alg».proof.Proof.LibHostRead

noncomputable section

namespace Cert.HostRead

open Idealize.ShloMosaic Idealize.ShloMosaic.StableHlo

variable {τ : Topo} {sig : RefSig} {Val : EltTy → Type}

/-- From rank n on, each operation writes only buffers of the next rank and touches only buffers up to it. -/
def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

/-- A ranked line followed by a line ranked from where the first ends is ranked. -/
theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

/-- In a line ranked from n every operation writes only buffers of rank at least n. -/
theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

/-- A buffer ranked below a line's first rank is written by no operation of the line: it keeps its contents. -/
theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

/-- A ranked line is fresh. -/
theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.RefRun.lean ====
/-
  The reference program is a straight line of host operations: its run ends with every buffer at the value the line
  computes from the launch contents, and the line writes each buffer once, in the order of the buffer table.
-/
import proofs.«411520_j71347996721296_1_alg».proof.Proof.RefOps
import proofs.«411520_j71347996721296_1_alg».proof.Proof.LibHostRank

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
theorem main_eq (c : Dev nD) : main (F := F) c = seq ops := rfl

/-! ## The line, operation by operation

Operation number p of the line writes the buffer of index 9 + p in the buffer table and reads only buffers before it.
One pass over the line collects what the run and the reading of the line ask of it. -/

/-- A buffer's rank: its index in its table. -/
def rk (b : DevRef τ sig) : Nat := b.idx.val

/-- What is asked of a line from rank n on: it is ranked, it touches TensorCore references only, and every operation
    determines its results. -/
def Line (n : Nat) (l : List (HloOp τ sig (Elt F))) : Prop :=
  Cert.HostRead.Ranked rk n l ∧ (l.Forall fun op => op.bufs ⊆ tcRefs τ sig) ∧ ∀ op ∈ l, op.fresh = ∅

theorem line_nil (n : Nat) : Line (F := F) n [] := ⟨trivial, trivial, fun _ h => nomatch h⟩

theorem line_cons {n : Nat} {o : HloOp τ sig (Elt F)} {l : List (HloOp τ sig (Elt F))}
    (hw : ∀ b ∈ o.writes, rk b = n) (hb : ∀ b ∈ o.bufs, rk b ≤ n) (hs : o.bufs ⊆ tcRefs τ sig) (hf : o.fresh = ∅)
    (hl : Line (n + 1) l) : Line n (o :: l) :=
  ⟨⟨hw, hb, hl.1⟩, (List.forall_cons _ _ _).mpr ⟨hs, hl.2.1⟩, fun op h => by
    rcases List.mem_cons.mp h with rfl | h
    · exact hf
    · exact hl.2.2 op h⟩

private theorem all_single {P : DevRef τ sig → Prop} {y : DevRef τ sig} (hy : P y) : ∀ b ∈ ({y} : Finset (DevRef τ sig)), P b :=
  fun b hb => (Finset.mem_singleton.mp hb) ▸ hy

private theorem all_insert {P : DevRef τ sig → Prop} {x : DevRef τ sig} {s : Finset (DevRef τ sig)} (hx : P x)
    (hs : ∀ b ∈ s, P b) : ∀ b ∈ insert x s, P b :=
  (Finset.forall_mem_insert x s P).mpr ⟨hx, hs⟩

section Builders

variable {n : Nat} {l : List (HloOp τ sig (Elt F))}

theorem line_nullary {y : Ref sig .tc} {v : y.ty.Contents (Elt F)}
    {hy : y.space ≠ .host ∧ (Proc.devRef (τ := τ) .tc y).isScoped = false}
    (ey : y.idx.val = n) (hl : Line (n + 1) l) : Line n (nullary y v hy :: l) :=
  line_cons (o := nullary y v hy) (all_single ey) (all_single (Nat.le_of_eq ey)) (nullary_bufs_sub ..) rfl hl

theorem line_unary {x y : Ref sig .tc} {f : x.ty.Contents (Elt F) → y.ty.Contents (Elt F)}
    {hx : x.space ≠ .host ∧ (Proc.devRef (τ := τ) .tc x).isScoped = false}
    {hy : y.space ≠ .host ∧ (Proc.devRef (τ := τ) .tc y).isScoped = false}
    (ex : x.idx.val ≤ n) (ey : y.idx.val = n) (hl : Line (n + 1) l) : Line n (unary x y f hx hy :: l) :=
  line_cons (o := unary x y f hx hy) (all_single ey) (all_insert ex (all_single (Nat.le_of_eq ey))) (unary_bufs_sub ..) rfl hl

theorem line_reshape {x y : Ref sig .tc} {he : x.ty.elt = y.ty.elt} {hn : x.ty.shape.ShapeCasts y.ty.shape}
    {hx : x.space ≠ .host ∧ (Proc.devRef (τ := τ) .tc x).isScoped = false}
    {hy : y.space ≠ .host ∧ (Proc.devRef (τ := τ) .tc y).isScoped = false}
    (ex : x.idx.val ≤ n) (ey : y.idx.val = n) (hl : Line (n + 1) l) :
    Line n (reshape (Val := Elt F) x y he hn hx hy :: l) :=
  line_cons (o := reshape x y he hn hx hy) (all_single ey) (all_insert ex (all_single (Nat.le_of_eq ey)))
    (reshape_bufs_sub ..) rfl hl

theorem line_binary {a b y : Ref sig .tc} {f : a.ty.Contents (Elt F) → b.ty.Contents (Elt F) → y.ty.Contents (Elt F)}
    {ha : a.space ≠ .host ∧ (Proc.devRef (τ := τ) .tc a).isScoped = false}
    {hb : b.space ≠ .host ∧ (Proc.devRef (τ := τ) .tc b).isScoped = false}
    {hy : y.space ≠ .host ∧ (Proc.devRef (τ := τ) .tc y).isScoped = false}
    (ea : a.idx.val ≤ n) (eb : b.idx.val ≤ n) (ey : y.idx.val = n) (hl : Line (n + 1) l) :
    Line n (binary a b y f ha hb hy :: l) :=
  line_cons (o := binary a b y f ha hb hy) (all_single ey) (all_insert ea (all_insert eb (all_single (Nat.le_of_eq ey))))
    (binary_bufs_sub ..) rfl hl

theorem line_ternary {c a b y : Ref sig .tc}
    {f : c.ty.Contents (Elt F) → a.ty.Contents (Elt F) → b.ty.Contents (Elt F) → y.ty.Contents (Elt F)}
    {hc : c.space ≠ .host ∧ (Proc.devRef (τ := τ) .tc c).isScoped = false}
    {ha : a.space ≠ .host ∧ (Proc.devRef (τ := τ) .tc a).isScoped = false}
    {hb : b.space ≠ .host ∧ (Proc.devRef (τ := τ) .tc b).isScoped = false}
    {hy : y.space ≠ .host ∧ (Proc.devRef (τ := τ) .tc y).isScoped = false}
    (ec : c.idx.val ≤ n) (ea : a.idx.val ≤ n) (eb : b.idx.val ≤ n) (ey : y.idx.val = n) (hl : Line (n + 1) l) :
    Line n (ternary c a b y f hc ha hb hy :: l) :=
  line_cons (o := ternary c a b y f hc ha hb hy) (all_single ey)
    (all_insert ec (all_insert ea (all_insert eb (all_single (Nat.le_of_eq ey))))) (ternary_bufs_sub ..) rfl hl

end Builders

/-- The reference's line, from rank 9 on (the nine arguments are the buffers before it). -/
theorem ops_line : Line 9 (ops (F := F)) := by
  repeat (first
    | exact line_nil _
    | with_reducible refine line_nullary (by decide) ?_
    | with_reducible refine line_unary (by decide) (by decide) ?_
    | with_reducible refine line_reshape (by decide) (by decide) ?_
    | with_reducible refine line_binary (by decide) (by decide) (by decide) ?_
    | with_reducible refine line_ternary (by decide) (by decide) (by decide) (by decide) ?_)

theorem ops_ranked : Cert.HostRead.Ranked rk 9 (ops (F := F)) := ops_line.1

/-- No operation of the line writes a buffer an earlier one reads or writes. -/
theorem ops_fresh : Cert.HostRead.Fresh (ops (F := F)) := Cert.HostRead.Ranked.fresh rk 9 ops ops_ranked

/-- The line writes none of the nine argument buffers. -/
theorem arg_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8) := by
  have h := fun (b : DevRef τ sig) (hb : rk b < 9) => Cert.HostRead.Ranked.after_of_lt rk 9 ops ops_ranked V b hb
  exact ⟨h _ (by decide), h _ (by decide), h _ (by decide), h _ (by decide), h _ (by decide), h _ (by decide),
    h _ (by decide), h _ (by decide), h _ (by decide)⟩

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every weakly fair execution of the reference terminates with each buffer at the line's value of the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_line.2.1) m ρ (fun _ => ops_line.2.2)

end Cert.ReferenceIdeal.RefRun

end
-- ==== Proof.LibScatterAxis1.lean ====
/-
  A scatter-add along the middle axis read at an index, on the extended reals.

  Updates [B, M, D] are added into an operand [B, T, D]: column m of the updates (every b, every d) goes to the operand
  column named by start index m — a column [M, 1] of words read as signed integers and not clamped — and keeps its outer
  and inner coordinates; a column whose index falls outside the operand is dropped. At (b, t, d) the result is the operand
  there plus the sum, over the update columns m whose index is t, of the update at (b, m, d).
-/
import Idealize.ShloMosaic.PureOps.Ideal
import Idealize.ShloMosaic.PureOps.Contract
import Idealize.ShloMosaic.Lib.ValueIdx

noncomputable section

open scoped BigOperators

namespace Cert.ScatterAxis1

open Idealize.ShloMosaic Idealize.ShloMosaic.ValueIdx

/-- An update lands on operand element i exactly when, on every axis, the window's start plus the window coordinate
    is i's coordinate: the start plus the coordinate is then inside the operand, and names i. -/
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  constructor
  · intro h a
    split_ifs at h with hc
    have e : (⟨(d.start j idx a + d.window j a).toNat, by have := hc a; omega⟩ : Fin (s.size a)) = i a :=
      congrFun (Option.some.inj h) a
    have e' : (d.start j idx a + d.window j a).toNat = (i a).val := congrArg Fin.val e
    have := (hc a).1
    omega
  · intro h
    have hc : ∀ a, 0 ≤ d.start j idx a + d.window j a ∧ d.start j idx a + d.window j a < s.size a := fun a => by
      rw [h a]; have := (i a).isLt; omega
    rw [dif_pos hc]
    refine congrArg some (funext fun a => Fin.ext ?_)
    show (d.start j idx a + d.window j a).toNat = (i a).val
    rw [h a]; rfl

variable {B T D M : Nat}

/-- The dimension numbers of a scatter-add along the middle axis: operand [B, T, D], a column [M, 1] of start indices,
    updates [B, M, D]; the update's outer and inner axes are its window axes, the operand's middle axis is the one
    inserted axis and the one axis a start index names, and the index vector lies along the indices' second axis. -/
abbrev dims (wf : ScatterDims.WF ⟨3, ![B, T, D]⟩ ⟨2, ![M, 1]⟩ ⟨3, ![B, M, D]⟩ [0, 2] [1] [1] 1) :
    ScatterDims ⟨3, ![B, T, D]⟩ ⟨2, ![M, 1]⟩ ⟨3, ![B, M, D]⟩ where
  updateWindowDims := [0, 2]
  insertedWindowDims := [1]
  scatterDimsToOperandDims := [1]
  indexVectorDim := 1
  wf := wf

/-- On the outer axis no start index is named and the window coordinate of update (p, m, r) is p. -/
theorem land_outer (wf : ScatterDims.WF ⟨3, ![B, T, D]⟩ ⟨2, ![M, 1]⟩ ⟨3, ![B, M, D]⟩ [0, 2] [1] [1] 1)
    (idx : IVec ⟨2, ![M, 1]⟩ 32) (p : Fin B) (m : Fin M) (r : Fin D) :
    (dims wf).start (ix3 p m r) idx (0 : Fin 3) + (dims wf).window (ix3 p m r) (0 : Fin 3) = (p.val : Int) := by
  have hs : (0 : Fin 3) ∉ (dims wf).scatterDimsToOperandDims := by
    show (0 : Fin 3) ∉ ([1] : List (Fin 3)); decide
  have hk : (0 : Fin 3) ∈ (dims wf).sKept := by
    show (0 : Fin 3) ∈ ((List.finRange 3).filter (fun a => a ∉ ([1] : List (Fin 3)))); decide
  unfold ScatterDims.start ScatterDims.window
  rw [dif_neg hs, dif_pos hk, Int.zero_add]
  rfl

/-- On the middle axis the window of update (p, m, r) starts at start index m, read signed and not clamped, and the
    axis is inserted: the window coordinate there is 0. -/
theorem land_middle (wf : ScatterDims.WF ⟨3, ![B, T, D]⟩ ⟨2, ![M, 1]⟩ ⟨3, ![B, M, D]⟩ [0, 2] [1] [1] 1)
    (idx : IVec ⟨2, ![M, 1]⟩ 32) (p : Fin B) (m : Fin M) (r : Fin D) :
    (dims wf).start (ix3 p m r) idx (1 : Fin 3) + (dims wf).window (ix3 p m r) (1 : Fin 3)
      = (idx (ix2 m (0 : Fin 1))).toInt := by
  have hs : (1 : Fin 3) ∈ (dims wf).scatterDimsToOperandDims := by
    show (1 : Fin 3) ∈ ([1] : List (Fin 3)); decide
  have hk : (1 : Fin 3) ∉ (dims wf).sKept := by
    show (1 : Fin 3) ∉ ((List.finRange 3).filter (fun a => a ∉ ([1] : List (Fin 3)))); decide
  unfold ScatterDims.start ScatterDims.window
  rw [dif_pos hs, dif_neg hk]
  have hsi : (dims wf).siIdx (ix3 p m r) ⟨List.idxOf (1 : Fin 3) (dims wf).scatterDimsToOperandDims,
      List.idxOf_lt_length_iff.2 hs⟩ = ix2 m (0 : Fin 1) := by
    funext a; refine Fin.ext ?_
    match a with
    | ⟨0, _⟩ => rfl
    | ⟨1, _⟩ => rfl
  rw [hsi]
  simp

/-- On the inner axis no start index is named and the window coordinate of update (p, m, r) is r. -/
theorem land_inner (wf : ScatterDims.WF ⟨3, ![B, T, D]⟩ ⟨2, ![M, 1]⟩ ⟨3, ![B, M, D]⟩ [0, 2] [1] [1] 1)
    (idx : IVec ⟨2, ![M, 1]⟩ 32) (p : Fin B) (m : Fin M) (r : Fin D) :
    (dims wf).start (ix3 p m r) idx (2 : Fin 3) + (dims wf).window (ix3 p m r) (2 : Fin 3) = (r.val : Int) := by
  have hs : (2 : Fin 3) ∉ (dims wf).scatterDimsToOperandDims := by
    show (2 : Fin 3) ∉ ([1] : List (Fin 3)); decide
  have hk : (2 : Fin 3) ∈ (dims wf).sKept := by
    show (2 : Fin 3) ∈ ((List.finRange 3).filter (fun a => a ∉ ([1] : List (Fin 3)))); decide
  unfold ScatterDims.start ScatterDims.window
  rw [dif_neg hs, dif_pos hk, Int.zero_add]
  rfl

/-- Update (p, m, r) lands on operand element (b, t, o) exactly when start index m, read signed, is t and (p, r) is
    (b, o). -/
theorem lands_iff (wf : ScatterDims.WF ⟨3, ![B, T, D]⟩ ⟨2, ![M, 1]⟩ ⟨3, ![B, M, D]⟩ [0, 2] [1] [1] 1)
    (idx : IVec ⟨2, ![M, 1]⟩ 32) (p : Fin B) (m : Fin M) (r : Fin D) (b : Fin B) (t : Fin T) (o : Fin D) :
    (dims wf).resultIdx? (ix3 p m r) idx = some (ix3 b t o)
      ↔ (idx (ix2 m (0 : Fin 1))).toInt = (t.val : Int) ∧ p = b ∧ r = o := by
  rw [resultIdx?_eq_some_iff]
  constructor
  · intro h
    have h0 := h (0 : Fin 3)
    have h1 := h (1 : Fin 3)
    have h2 := h (2 : Fin 3)
    rw [land_outer] at h0
    rw [land_middle] at h1
    rw [land_inner] at h2
    exact ⟨h1, Fin.ext (by exact_mod_cast h0), Fin.ext (by exact_mod_cast h2)⟩
  · rintro ⟨ht, rfl, rfl⟩ a
    match a with
    | ⟨0, _⟩ => exact land_outer wf idx p m r
    | ⟨1, _⟩ => exact (land_middle wf idx p m r).trans ht
    | ⟨2, _⟩ => exact land_inner wf idx p m r

/-- THE SCATTER-ADD ALONG THE MIDDLE AXIS at (b, t, o). The four hypotheses are the printed dimension numbers, each by
    `rfl`. -/
theorem scatter_axis1_apply (d : ScatterDims ⟨3, ![B, T, D]⟩ ⟨2, ![M, 1]⟩ ⟨3, ![B, M, D]⟩)
    (huw : d.updateWindowDims = [0, 2]) (hiw : d.insertedWindowDims = [1]) (hsd : d.scatterDimsToOperandDims = [1])
    (hiv : d.indexVectorDim = 1)
    (x : (⟨3, ![B, T, D]⟩ : Shape).Idx → EReal) (idx : IVec ⟨2, ![M, 1]⟩ 32)
    (upd : (⟨3, ![B, M, D]⟩ : Shape).Idx → EReal) (b : Fin B) (t : Fin T) (o : Fin D) :
    Host.scatterAdd (F := Ideal) (φ := .f32) d x idx upd (ix3 b t o)
      = x (ix3 b t o) + ∑ m ∈ Finset.univ.filter (fun m : Fin M => (idx (ix2 m (0 : Fin 1))).toInt = (t.val : Int)),
          upd (ix3 b m o) := by
  obtain ⟨uw, iw, sd, iv, wf⟩ := d
  dsimp only at huw hiw hsd hiv
  subst huw hiw hsd hiv
  show Ideal.hostScatterAdd (dims wf) x idx upd (ix3 b t o) = _
  unfold Ideal.hostScatterAdd
  refine congrArg (fun z => x (ix3 b t o) + z) ?_
  -- the updates that land on (b, t, o) are the images (b, m, o) of the columns m whose start index is t
  have hinj : Set.InjOn (fun m : Fin M => (ix3 b m o : (⟨3, ![B, M, D]⟩ : Shape).Idx))
      (Finset.univ.filter (fun m : Fin M => (idx (ix2 m (0 : Fin 1))).toInt = (t.val : Int)) : Finset (Fin M)) :=
    fun m _ m' _ h => congrFun h (1 : Fin 3)
  rw [← Finset.sum_image hinj]
  refine Finset.sum_congr ?_ fun _ _ => rfl
  ext j
  obtain ⟨p, m, r, rfl⟩ : ∃ (p : Fin B) (m : Fin M) (r : Fin D), j = ix3 p m r := ⟨j 0, j 1, j 2, eq_ix3 j⟩
  simp only [Finset.mem_filter, Finset.mem_univ, true_and, Finset.mem_image]
  rw [lands_iff]
  constructor
  · rintro ⟨ht, rfl, rfl⟩
    exact ⟨m, ht, rfl⟩
  · rintro ⟨m', ht, h⟩
    have e0 : b = p := congrFun h (0 : Fin 3)
    have e1 : m' = m := congrFun h (1 : Fin 3)
    have e2 : o = r := congrFun h (2 : Fin 3)
    subst e0 e1 e2
    exact ⟨ht, rfl, rfl⟩

end Cert.ScatterAxis1

end
-- ==== Proof.LibDot4.lean ====
/-
  The host's contraction of a rank-4 stack of row vectors with a matrix, over their last axes, read at an index.

  A linear layer x · Wᵀ applied along the last axis of a rank-4 array: the contraction of a stack [p, q, r, k] with a
  matrix [n, k] over the last axis of each, at the ideal values, at (a, b, c, o) is the one finite sum over the
  contracted coordinate i of A (a, b, c, i) · W (o, i). No rounding and no order of summation is left at the ideal
  values. Stated over the literal record of dimension numbers with its well-formedness fact a variable, so it applies to
  a program's own record whatever name that fact has.
-/
import Idealize.ShloMosaic.PureOps.Ideal.Laws
import Idealize.ShloMosaic.Lib.ValueIdx

noncomputable section

open scoped BigOperators

namespace Cert.LibDot4

open Idealize.ShloMosaic Idealize.ShloMosaic.ValueIdx

variable {p q r k n : Nat}

/-- The host's contraction of a stack [p, q, r, k] with a matrix [n, k] over their last axes: entry (a, b, c, o) is the
    sum over the contracted coordinate i of A (a, b, c, i) · W (o, i). -/
theorem dotGeneral_stack4_apply {φ₁ φ₂ : FTy}
    (w : DotDims.WF ⟨4, ![p, q, r, k]⟩ ⟨2, ![n, k]⟩ ⟨4, ![p, q, r, n]⟩ [3] [1] [0, 1, 2] [0] [] [])
    (prec : Option ContractPrecision) (A : FVec Ideal ⟨4, ![p, q, r, k]⟩ φ₁) (W : FVec Ideal ⟨2, ![n, k]⟩ φ₂)
    (a : Fin p) (b : Fin q) (c : Fin r) (o : Fin n) :
    Host.dotGeneral (⟨[3], [1], [0, 1, 2], [0], [], [], w⟩ : DotDims ⟨4, ![p, q, r, k]⟩ ⟨2, ![n, k]⟩ ⟨4, ![p, q, r, n]⟩)
        prec A W (ix4 a b c o)
      = ∑ i : Fin k, A (ix4 a b c i) * W (ix2 o i) := by
  show FloatOps.dotGeneral _ prec _ A W (ix4 a b c o) = _
  rw [Ideal.dotGeneral_apply,
    ← Equiv.sum_comp (contrEquiv1
      (⟨[3], [1], [0, 1, 2], [0], [], [], w⟩ : DotDims ⟨4, ![p, q, r, k]⟩ ⟨2, ![n, k]⟩ ⟨4, ![p, q, r, n]⟩) k rfl rfl).symm]
  refine Finset.sum_congr rfl fun i _ => ?_
  have ci := contrEquiv1_symm_val
    (⟨[3], [1], [0, 1, 2], [0], [], [], w⟩ : DotDims ⟨4, ![p, q, r, k]⟩ ⟨2, ![n, k]⟩ ⟨4, ![p, q, r, n]⟩) k rfl rfl i
  have hl : (⟨[3], [1], [0, 1, 2], [0], [], [], w⟩ : DotDims ⟨4, ![p, q, r, k]⟩ ⟨2, ![n, k]⟩ ⟨4, ![p, q, r, n]⟩).lhsIdx
      (ix4 a b c o) ((contrEquiv1 _ k rfl rfl).symm i) = ix4 a b c i := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact ci
  have hr : (⟨[3], [1], [0, 1, 2], [0], [], [], w⟩ : DotDims ⟨4, ![p, q, r, k]⟩ ⟨2, ![n, k]⟩ ⟨4, ![p, q, r, n]⟩).rhsIdx
      (ix4 a b c o) ((contrEquiv1 _ k rfl rfl).symm i) = ix2 o i := by
    funext ax; apply Fin.ext
    match ax with
    | ⟨0, _⟩ => simp [DotDims.rhsIdx]; rfl
    | ⟨1, _⟩ => simp [DotDims.rhsIdx]; exact ci
  rw [hl, hr]

end Cert.LibDot4

end
-- ==== Proof.RefNode.lean ====
/-
  The reference's node output, read entry by entry: it is the specification's `Xspec` of the argument arrays.

  The line computes the node output in stages. The edge array [8, 16384, 4, 128] is recast to [8, 16384, 2, 2, 128] and
  summed over the inner pair axis from zero: row s of the result is the specification's `agg`. Each row of the word
  table passes through a select that would add 1024 to a negative word; every word being below 1024, it returns the
  word. Row s of `agg` is scatter-added into a zero array along the node axis, once by the words of row 1 and once by
  the words of row 0: entry (b, t, d) of each is the sum of `agg` over the edges whose word is t, the specification's
  `scat`. Their sum times one half plus the node's own row is `xfin`; the two rows are stacked, contracted with the
  weight matrix over the feature axis, and the bias is added: `Xspec`.
-/
import proofs.«411520_j71347996721296_1_alg».proof.Proof.RefOps
import proofs.«411520_j71347996721296_1_alg».proof.Proof.LibHostRead
import proofs.«411520_j71347996721296_1_alg».proof.Proof.Spec
import proofs.«411520_j71347996721296_1_alg».proof.Proof.LibScatterAxis1
import proofs.«411520_j71347996721296_1_alg».proof.Proof.LibDot4
import Idealize.ShloMosaic.Lib.Pipeline.Value
import Idealize.ShloMosaic.Lib.StableHlo.Predicate
import Idealize.ShloMosaic.PureOps.Ideal.Laws

noncomputable section

namespace Cert.ReferenceIdeal.RefNode

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx
open Cert.Spec

/-! ## The operations of the line on typed arrays, read at an index -/

/-- Row r of the word table, laid as a vector: entry m is the table's (r, m). -/
theorem row_apply (e : IVec S2x16384 32) (r : Fin 2) (off : Fin 2 → Nat) (hoff : off = ![r.val, 0])
    (hs : S2x16384.Slices off S1x16384) (hc : S1x16384.ShapeCasts S16384) (m : Fin 16384) :
    shapeCast S16384 (extractStridedSlice S1x16384 off e hs) hc (ix1 m) = e (ix2 r m) := by
  subst hoff
  refine (shapeCast_apply _ hc (ix1 m) (ix2 (0 : Fin 1) m) ?_).trans ?_
  · rw [Shape.rowMajor_val_two, Shape.rowMajor_val_one]
    show 0 * 16384 + m.val = m.val
    omega
  · refine extractStridedSlice_apply _ e hs (ix2 (0 : Fin 1) m) (ix2 r m) fun a => ?_
    match a with
    | ⟨0, _⟩ => show r.val = r.val + 0; omega
    | ⟨1, _⟩ => show m.val = 0 + m.val; omega

/-- Row s of the node array, laid as [8, 1024, 128]: entry (b, t, d) is the array's (b, t, s, d). -/
theorem noderow_apply (x1 : FVec Ideal S8x1024x2x128 .f32) (s : Fin 2) (off : Fin 4 → Nat) (hoff : off = ![0, 0, s.val, 0])
    (hs : S8x1024x2x128.Slices off S8x1024x1x128) (hc : S8x1024x1x128.ShapeCasts S8x1024x128)
    (b : Fin 8) (t : Fin 1024) (d : Fin 128) :
    shapeCast S8x1024x128 (extractStridedSlice S8x1024x1x128 off x1 hs) hc (ix3 b t d) = x1 (ix4 b t s d) := by
  subst hoff
  refine (shapeCast_apply _ hc (ix3 b t d) (ix4 b t (0 : Fin 1) d) ?_).trans ?_
  · rw [Shape.rowMajor_val_four, Shape.rowMajor_val_three]
    show ((b.val * 1024 + t.val) * 1 + 0) * 128 + d.val = (b.val * 1024 + t.val) * 128 + d.val
    omega
  · refine extractStridedSlice_apply _ x1 hs (ix4 b t (0 : Fin 1) d) (ix4 b t s d) fun a => ?_
    match a with
    | ⟨0, _⟩ => show b.val = 0 + b.val; omega
    | ⟨1, _⟩ => show t.val = 0 + t.val; omega
    | ⟨2, _⟩ => show s.val = s.val + 0; omega
    | ⟨3, _⟩ => show d.val = 0 + d.val; omega

/-- The edge array's rows summed in pairs, row s, laid as [8, 16384, 128]: entry (b, m, d) is the specification's
    `agg`. The sum over the pair axis starts from the zero word: 0 + (first + second). -/
theorem agg_apply (x2 : FVec Ideal S8x16384x4x128 .f32) (s : Fin 2) (off : Fin 4 → Nat) (hoff : off = ![0, 0, s.val, 0])
    (hs : S8x16384x2x128.Slices off S8x16384x1x128) (b : Fin 8) (m : Fin 16384) (d : Fin 128) :
    shapeCast S8x16384x128 (extractStridedSlice S8x16384x1x128 off
        (Host.reduceAdd (F := Ideal) (shapeCast S8x16384x2x2x128 x2 shapeCasts_S8x16384x4x128_S8x16384x2x2x128)
          (constant (F := Ideal) S_ .f32 0x00000000#32) reducesTo_S8x16384x2x2x128_S8x16384x2x128_d3 h_S_) hs)
      shapeCasts_S8x16384x1x128_S8x16384x128 (ix3 b m d) = agg x2 b m s d := by
  subst hoff
  refine (shapeCast_apply _ _ (ix3 b m d) (ix4 b m (0 : Fin 1) d) ?_).trans ?_
  · rw [Shape.rowMajor_val_four, Shape.rowMajor_val_three]
    show ((b.val * 16384 + m.val) * 1 + 0) * 128 + d.val = (b.val * 16384 + m.val) * 128 + d.val
    omega
  refine (extractStridedSlice_apply _ _ hs (ix4 b m (0 : Fin 1) d) (ix4 b m s d) fun a => ?_).trans ?_
  · match a with
    | ⟨0, _⟩ => show b.val = 0 + b.val; omega
    | ⟨1, _⟩ => show m.val = 0 + m.val; omega
    | ⟨2, _⟩ => show s.val = s.val + 0; omega
    | ⟨3, _⟩ => show d.val = 0 + d.val; omega
  have hR : S8x16384x2x2x128.Reduces [3] S8x16384x2x128 := by decide
  show Ideal.hostReduceAdd reducesTo_S8x16384x2x2x128_S8x16384x2x128_d3 _ _ (ix4 b m s d) = _
  rw [Ideal.hostReduceAdd_single _ hR]
  show Ideal.ofBits .f32 0x00000000#32 + ∑ k : Fin 2, _ = _
  rw [Ideal.ofBits_zero_f32, zero_add, Fin.sum_univ_two]
  unfold agg
  congr 1
  · refine shapeCast_apply _ _ _ (ix4 b m (⟨2 * s.val, by omega⟩ : Fin 4) d) ?_
    rw [Shape.rowMajor_val_four, Shape.rowMajor_val_five]
    show ((b.val * 16384 + m.val) * 4 + 2 * s.val) * 128 + d.val
      = (((b.val * 16384 + m.val) * 2 + s.val) * 2 + 0) * 128 + d.val
    omega
  · refine shapeCast_apply _ _ _ (ix4 b m (⟨2 * s.val + 1, by omega⟩ : Fin 4) d) ?_
    rw [Shape.rowMajor_val_four, Shape.rowMajor_val_five]
    show ((b.val * 16384 + m.val) * 4 + (2 * s.val + 1)) * 128 + d.val
      = (((b.val * 16384 + m.val) * 2 + s.val) * 2 + 1) * 128 + d.val
    omega

/-- A scalar constant laid over a shape reads the constant everywhere. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w := rfl

/-- The bias laid over the node array reads, at (b, t, s, o), the bias at o. -/
theorem bias_apply (bn : FVec Ideal S128 .f32) (b : Fin 8) (t : Fin 1024) (s : Fin 2) (o : Fin 128) :
    broadcastInDim S8x1024x2x128 ![0, 1, 2, 3] bcast_S1x1x1x128_S8x1024x2x128_0_1_2_3
      (broadcastInDim S1x1x1x128 ![3] bcast_S128_S1x1x1x128_3 bn) (ix4 b t s o) = bn (ix1 o) := by
  refine (broadcastInDim_apply _ _ _ (ix4 b t s o) (ix4 (0 : Fin 1) (0 : Fin 1) (0 : Fin 1) o) fun a => ?_).trans ?_
  · match a with
    | ⟨0, _⟩ => rfl
    | ⟨1, _⟩ => rfl
    | ⟨2, _⟩ => rfl
    | ⟨3, _⟩ => rfl
  · refine broadcastInDim_apply _ _ bn _ (ix1 o) fun a => ?_
    match a with
    | ⟨0, _⟩ => rfl

/-- A word below 1024 is not negative: the select that would add 1024 to a negative word returns the word. -/
theorem wrap_id (w : IVec S16384 32) (hw : ∀ i, (w i).toNat < 1024) :
    select (cmpi .slt w (broadcastInDim S16384 ![] bcast_S_S16384 (constantI S_ 32 0#32)))
      (addi w (broadcastInDim S16384 ![] bcast_S_S16384 (constantI S_ 32 1024#32))) w = w := by
  funext i
  rw [select_apply]
  have h0 : cmpi .slt w (broadcastInDim S16384 ![] bcast_S_S16384 (constantI S_ 32 0#32)) i = 0#1 := by
    apply eq_zero_of_ne_one
    show ¬ IntOp.cmpi .slt (w i) 0#32 = 1#1
    rw [Predicate.slt_iff_toNat (by have := hw i; omega) (by decide)]
    simp
  rw [h0, select_zero]

/-- A vector of words laid as a column reads, at (m, 0), the vector at m. -/
theorem col_apply (w : IVec S16384 32) (m : Fin 16384) :
    broadcastInDim S16384x1 ![0] bcast_S16384_S16384x1_0 w (ix2 m (0 : Fin 1)) = w (ix1 m) := by
  refine broadcastInDim_apply _ _ w _ (ix1 m) fun a => ?_
  match a with
  | ⟨0, _⟩ => rfl

/-- The scatter-add of the line into the zero array: entry (b, t, d) is the sum, over the edges whose word is t, of the
    update's entry (b, m, d). -/
theorem scatter_zero_apply (idx : IVec S16384x1 32) (upd : FVec Ideal S8x16384x128 .f32)
    (b : Fin 8) (t : Fin 1024) (d : Fin 128) :
    Host.scatterAdd (F := Ideal) (φ := .f32) scatter_S8x1024x128_S16384x1_S8x16384x128_02_1_1_1
        (broadcastInDim S8x1024x128 ![] bcast_S_S8x1024x128 (constant (F := Ideal) S_ .f32 0x00000000#32)) idx upd (ix3 b t d)
      = ∑ m ∈ Finset.univ.filter (fun m : Fin 16384 => (idx (ix2 m (0 : Fin 1))).toInt = (t.val : Int)),
          upd (ix3 b m d) := by
  rw [Cert.ScatterAxis1.scatter_axis1_apply _ rfl rfl rfl rfl, splat_apply, Ideal.ofBits_zero_f32, zero_add]

/-- Under the range hypothesis, "the word of edge m, read signed, is t" says "end node r of edge m is t". -/
theorem word_eq_iff (e : IVec SE 32) (he : InRange e) (r : Fin 2) (m : Fin 16384) (t : Fin 1024) :
    (e (ix2 r m)).toInt = (t.val : Int) ↔ node e r m = t := by
  have hlt : (e (ix2 r m)).toNat < 1024 := he _
  rw [Predicate.toInt_eq_toNat_of_lt (by omega), Fin.ext_iff, node_val e he]
  exact Nat.cast_inj

/-- The sum over the edges whose word is t of `agg` is the specification's `scat`. -/
theorem sum_words_eq_scat (x2 : FVec Ideal SX2 .f32) (e : IVec SE 32) (he : InRange e) (r : Fin 2)
    (b : Fin 8) (t : Fin 1024) (s : Fin 2) (d : Fin 128) :
    ∑ m ∈ Finset.univ.filter (fun m : Fin 16384 => (e (ix2 r m)).toInt = (t.val : Int)), agg x2 b m s d
      = scat x2 e r b t s d := by
  unfold scat
  rw [Finset.sum_filter]
  refine Finset.sum_congr rfl fun m _ => ?_
  by_cases h : node e r m = t
  · rw [if_pos h, if_pos ((word_eq_iff e he r m t).2 h)]
  · rw [if_neg h, if_neg (fun h' => h ((word_eq_iff e he r m t).1 h'))]

/-- The two node rows stacked along the row axis: row 0 of the stack is the first. -/
theorem stack_apply_zero (r0 r1 : FVec Ideal S8x1024x128 .f32) (b : Fin 8) (t : Fin 1024) (d : Fin 128) :
    concatenate S8x1024x2x128 2
        [⟨S8x1024x1x128, broadcastInDim S8x1024x1x128 ![0, 1, 3] bcast_S8x1024x128_S8x1024x1x128_0_1_3 r0⟩,
         ⟨S8x1024x1x128, broadcastInDim S8x1024x1x128 ![0, 1, 3] bcast_S8x1024x128_S8x1024x1x128_0_1_3 r1⟩]
        concatenates_S8x1024x1x128_S8x1024x1x128_S8x1024x2x128_d2 (ix4 b t (0 : Fin 2) d) = r0 (ix3 b t d) := by
  refine (concatenate_pair_apply_left (t := S8x1024x2x128) (s₁ := S8x1024x1x128) (s₂ := S8x1024x1x128) _ _ _ _
    (ix4 b t (0 : Fin 2) d) rfl (ix4 b t (0 : Fin 1) d) fun a => ?_).trans ?_
  · match a with
    | ⟨0, _⟩ => rfl
    | ⟨1, _⟩ => rfl
    | ⟨2, _⟩ => rfl
    | ⟨3, _⟩ => rfl
  · refine broadcastInDim_apply _ _ r0 _ (ix3 b t d) fun a => ?_
    match a with
    | ⟨0, _⟩ => rfl
    | ⟨1, _⟩ => rfl
    | ⟨2, _⟩ => rfl

/-- … and row 1 of the stack is the second. -/
theorem stack_apply_one (r0 r1 : FVec Ideal S8x1024x128 .f32) (b : Fin 8) (t : Fin 1024) (d : Fin 128) :
    concatenate S8x1024x2x128 2
        [⟨S8x1024x1x128, broadcastInDim S8x1024x1x128 ![0, 1, 3] bcast_S8x1024x128_S8x1024x1x128_0_1_3 r0⟩,
         ⟨S8x1024x1x128, broadcastInDim S8x1024x1x128 ![0, 1, 3] bcast_S8x1024x128_S8x1024x1x128_0_1_3 r1⟩]
        concatenates_S8x1024x1x128_S8x1024x1x128_S8x1024x2x128_d2 (ix4 b t (1 : Fin 2) d) = r1 (ix3 b t d) := by
  refine (concatenate_pair_apply_right (t := S8x1024x2x128) (s₁ := S8x1024x1x128) (s₂ := S8x1024x1x128) _ _ _ _
    (ix4 b t (1 : Fin 2) d) rfl rfl (ix4 b t (0 : Fin 1) d) (fun a ha => ?_) rfl).trans ?_
  · match a with
    | ⟨0, _⟩ => rfl
    | ⟨1, _⟩ => rfl
    | ⟨2, _⟩ => exact absurd rfl ha
    | ⟨3, _⟩ => rfl
  · refine broadcastInDim_apply _ _ r1 _ (ix3 b t d) fun a => ?_
    match a with
    | ⟨0, _⟩ => rfl
    | ⟨1, _⟩ => rfl
    | ⟨2, _⟩ => rfl

/-! ## The buffers of the line after its run, as functions of the argument buffers -/

/-- Row r of the word table as a vector. -/
def rowE (e : IVec S2x16384 32) (r : Fin 2) : IVec S16384 32 := fun i => e (ix2 r (i 0))
/-- Row r of the word table as a column. -/
def colE (e : IVec S2x16384 32) (r : Fin 2) : IVec S16384x1 32 := fun i => e (ix2 r (i 0))
/-- The specification's `agg` at row s, as an array [8, 16384, 128]. -/
def aggS (x2 : FVec Ideal S8x16384x4x128 .f32) (s : Fin 2) : FVec Ideal S8x16384x128 .f32 :=
  fun i => agg x2 (i 0) (i 1) s (i 2)
/-- The specification's `scat` by end r at row s, as an array [8, 1024, 128]. -/
def scatS (x2 : FVec Ideal S8x16384x4x128 .f32) (e : IVec S2x16384 32) (r s : Fin 2) : FVec Ideal S8x1024x128 .f32 :=
  fun i => scat x2 e r (i 0) (i 1) s (i 2)
/-- The specification's `xfin` at row s, as an array [8, 1024, 128]. -/
def xfinS (x1 : FVec Ideal S8x1024x2x128 .f32) (x2 : FVec Ideal S8x16384x4x128 .f32) (e : IVec S2x16384 32) (s : Fin 2) :
    FVec Ideal S8x1024x128 .f32 :=
  fun i => xfin x1 x2 e (i 0) (i 1) s (i 2)
/-- The specification's `xfin`, as an array [8, 1024, 2, 128]. -/
def xfinA (x1 : FVec Ideal S8x1024x2x128 .f32) (x2 : FVec Ideal S8x16384x4x128 .f32) (e : IVec S2x16384 32) :
    FVec Ideal S8x1024x2x128 .f32 :=
  fun i => xfin x1 x2 e (i 0) (i 1) (i 2) (i 3)

theorem rowE_lt (e : IVec S2x16384 32) (he : InRange e) (r : Fin 2) (i : S16384.Idx) : (rowE e r i).toNat < 1024 := he _

section
variable (hL : Cert.HostRead.Fresh (ops (F := Ideal))) (V : Valuation τ sig (Elt Ideal))
include hL
local notation "A[" r "]" => after (ops (F := Ideal)) V (Proc.devRef Proc.tc r)

/-- The first row of the word table. -/
theorem v1_is : A[main_v1] = rowE A[main_arg2] 0 := by
  rw [Cert.HostRead.read_reshape hL 3 (x := main_v0) (y := main_v1) (hop := rfl),
    Cert.HostRead.read_unary hL 2 (x := main_arg2) (y := main_v0)
      (f := fun x => extractStridedSlice S1x16384 ![0, 0] x slices_S2x16384_S1x16384_0_0) (hop := rfl)]
  funext i
  obtain ⟨m, rfl⟩ : ∃ m : Fin 16384, i = ix1 m := ⟨i 0, eq_ix1 i⟩
  exact row_apply _ 0 _ rfl _ _ m

/-- The second row of the word table. -/
theorem v3_is : A[main_v3] = rowE A[main_arg2] 1 := by
  rw [Cert.HostRead.read_reshape hL 5 (x := main_v2) (y := main_v3) (hop := rfl),
    Cert.HostRead.read_unary hL 4 (x := main_arg2) (y := main_v2)
      (f := fun x => extractStridedSlice S1x16384 ![1, 0] x slices_S2x16384_S1x16384_1_0) (hop := rfl)]
  funext i
  obtain ⟨m, rfl⟩ : ∃ m : Fin 16384, i = ix1 m := ⟨i 0, eq_ix1 i⟩
  exact row_apply _ 1 _ rfl _ _ m

/-- Row 0 of the pair sums. -/
theorem v9_is : A[main_v9] = aggS A[main_arg1] 0 := by
  rw [Cert.HostRead.read_reshape hL 12 (x := main_v8) (y := main_v9) (hop := rfl),
    Cert.HostRead.read_unary hL 11 (x := main_v5) (y := main_v8)
      (f := fun x => extractStridedSlice S8x16384x1x128 ![0, 0, 0, 0] x slices_S8x16384x2x128_S8x16384x1x128_0_0_0_0) (hop := rfl),
    Cert.HostRead.read_binary hL 8 (a := main_v4) (b := main_cst) (y := main_v5)
      (f := fun x v => Host.reduceAdd (F := Ideal) x v reducesTo_S8x16384x2x2x128_S8x16384x2x128_d3 h_S_) (hop := rfl),
    Cert.HostRead.read_reshape hL 6 (x := main_arg1) (y := main_v4) (hop := rfl),
    Cert.HostRead.read_nullary hL 7 (y := main_cst) (hop := rfl)]
  funext i
  obtain ⟨b, m, d, rfl⟩ : ∃ (b : Fin 8) (m : Fin 16384) (d : Fin 128), i = ix3 b m d := ⟨i 0, i 1, i 2, eq_ix3 i⟩
  exact agg_apply _ 0 _ rfl _ b m d

/-- Row 1 of the pair sums. -/
theorem v32_is : A[main_v32] = aggS A[main_arg1] 1 := by
  rw [Cert.HostRead.read_reshape hL 41 (x := main_v31) (y := main_v32) (hop := rfl),
    Cert.HostRead.read_unary hL 40 (x := main_v5) (y := main_v31)
      (f := fun x => extractStridedSlice S8x16384x1x128 ![0, 0, 1, 0] x slices_S8x16384x2x128_S8x16384x1x128_0_0_1_0) (hop := rfl),
    Cert.HostRead.read_binary hL 8 (a := main_v4) (b := main_cst) (y := main_v5)
      (f := fun x v => Host.reduceAdd (F := Ideal) x v reducesTo_S8x16384x2x2x128_S8x16384x2x128_d3 h_S_) (hop := rfl),
    Cert.HostRead.read_reshape hL 6 (x := main_arg1) (y := main_v4) (hop := rfl),
    Cert.HostRead.read_nullary hL 7 (y := main_cst) (hop := rfl)]
  funext i
  obtain ⟨b, m, d, rfl⟩ : ∃ (b : Fin 8) (m : Fin 16384) (d : Fin 128), i = ix3 b m d := ⟨i 0, i 1, i 2, eq_ix3 i⟩
  exact agg_apply _ 1 _ rfl _ b m d

variable (he : InRange (after (ops (F := Ideal)) V (Proc.devRef Proc.tc main_arg2)))
include he

/-- The words of row 1 after the select (first use). -/
theorem v15_is : A[main_v15] = rowE A[main_arg2] 1 := by
  rw [Cert.HostRead.read_ternary hL 21 (c := main_v12) (a := main_v14) (b := main_v3) (y := main_v15) (hop := rfl),
    Cert.HostRead.read_binary hL 17 (a := main_v3) (b := main_v11) (y := main_v12) (hop := rfl),
    Cert.HostRead.read_unary hL 16 (x := main_c_2) (y := main_v11) (hop := rfl),
    Cert.HostRead.read_nullary hL 15 (y := main_c_2) (hop := rfl),
    Cert.HostRead.read_binary hL 20 (a := main_v3) (b := main_v13) (y := main_v14) (hop := rfl),
    Cert.HostRead.read_unary hL 19 (x := main_c_3) (y := main_v13) (hop := rfl),
    Cert.HostRead.read_nullary hL 18 (y := main_c_3) (hop := rfl), v3_is hL V]
  exact wrap_id _ (rowE_lt _ he 1)

/-- … laid as a column. -/
theorem v16_is : A[main_v16] = colE A[main_arg2] 1 := by
  rw [Cert.HostRead.read_unary hL 22 (x := main_v15) (y := main_v16) (hop := rfl), v15_is hL V he]
  funext i
  obtain ⟨m, z, rfl⟩ : ∃ (m : Fin 16384) (z : Fin 1), i = ix2 m z := ⟨i 0, i 1, eq_ix2 i⟩
  obtain rfl : z = 0 := Subsingleton.elim _ _
  exact col_apply _ m

/-- The words of row 0 after the select (first use). -/
theorem v22_is : A[main_v22] = rowE A[main_arg2] 0 := by
  rw [Cert.HostRead.read_ternary hL 30 (c := main_v19) (a := main_v21) (b := main_v1) (y := main_v22) (hop := rfl),
    Cert.HostRead.read_binary hL 26 (a := main_v1) (b := main_v18) (y := main_v19) (hop := rfl),
    Cert.HostRead.read_unary hL 25 (x := main_c_4) (y := main_v18) (hop := rfl),
    Cert.HostRead.read_nullary hL 24 (y := main_c_4) (hop := rfl),
    Cert.HostRead.read_binary hL 29 (a := main_v1) (b := main_v20) (y := main_v21) (hop := rfl),
    Cert.HostRead.read_unary hL 28 (x := main_c_5) (y := main_v20) (hop := rfl),
    Cert.HostRead.read_nullary hL 27 (y := main_c_5) (hop := rfl), v1_is hL V]
  exact wrap_id _ (rowE_lt _ he 0)

/-- … laid as a column. -/
theorem v23_is : A[main_v23] = colE A[main_arg2] 0 := by
  rw [Cert.HostRead.read_unary hL 31 (x := main_v22) (y := main_v23) (hop := rfl), v22_is hL V he]
  funext i
  obtain ⟨m, z, rfl⟩ : ∃ (m : Fin 16384) (z : Fin 1), i = ix2 m z := ⟨i 0, i 1, eq_ix2 i⟩
  obtain rfl : z = 0 := Subsingleton.elim _ _
  exact col_apply _ m

/-- The words of row 1 after the select (second use). -/
theorem v38_is : A[main_v38] = rowE A[main_arg2] 1 := by
  rw [Cert.HostRead.read_ternary hL 50 (c := main_v35) (a := main_v37) (b := main_v3) (y := main_v38) (hop := rfl),
    Cert.HostRead.read_binary hL 46 (a := main_v3) (b := main_v34) (y := main_v35) (hop := rfl),
    Cert.HostRead.read_unary hL 45 (x := main_c_8) (y := main_v34) (hop := rfl),
    Cert.HostRead.read_nullary hL 44 (y := main_c_8) (hop := rfl),
    Cert.HostRead.read_binary hL 49 (a := main_v3) (b := main_v36) (y := main_v37) (hop := rfl),
    Cert.HostRead.read_unary hL 48 (x := main_c_9) (y := main_v36) (hop := rfl),
    Cert.HostRead.read_nullary hL 47 (y := main_c_9) (hop := rfl), v3_is hL V]
  exact wrap_id _ (rowE_lt _ he 1)

/-- … laid as a column. -/
theorem v39_is : A[main_v39] = colE A[main_arg2] 1 := by
  rw [Cert.HostRead.read_unary hL 51 (x := main_v38) (y := main_v39) (hop := rfl), v38_is hL V he]
  funext i
  obtain ⟨m, z, rfl⟩ : ∃ (m : Fin 16384) (z : Fin 1), i = ix2 m z := ⟨i 0, i 1, eq_ix2 i⟩
  obtain rfl : z = 0 := Subsingleton.elim _ _
  exact col_apply _ m

/-- The words of row 0 after the select (second use). -/
theorem v45_is : A[main_v45] = rowE A[main_arg2] 0 := by
  rw [Cert.HostRead.read_ternary hL 59 (c := main_v42) (a := main_v44) (b := main_v1) (y := main_v45) (hop := rfl),
    Cert.HostRead.read_binary hL 55 (a := main_v1) (b := main_v41) (y := main_v42) (hop := rfl),
    Cert.HostRead.read_unary hL 54 (x := main_c_10) (y := main_v41) (hop := rfl),
    Cert.HostRead.read_nullary hL 53 (y := main_c_10) (hop := rfl),
    Cert.HostRead.read_binary hL 58 (a := main_v1) (b := main_v43) (y := main_v44) (hop := rfl),
    Cert.HostRead.read_unary hL 57 (x := main_c_11) (y := main_v43) (hop := rfl),
    Cert.HostRead.read_nullary hL 56 (y := main_c_11) (hop := rfl), v1_is hL V]
  exact wrap_id _ (rowE_lt _ he 0)

/-- … laid as a column. -/
theorem v46_is : A[main_v46] = colE A[main_arg2] 0 := by
  rw [Cert.HostRead.read_unary hL 60 (x := main_v45) (y := main_v46) (hop := rfl), v45_is hL V he]
  funext i
  obtain ⟨m, z, rfl⟩ : ∃ (m : Fin 16384) (z : Fin 1), i = ix2 m z := ⟨i 0, i 1, eq_ix2 i⟩
  obtain rfl : z = 0 := Subsingleton.elim _ _
  exact col_apply _ m

/-- Row 0 of the pair sums scattered by the words of row 1. -/
theorem v17_is : A[main_v17] = scatS A[main_arg1] A[main_arg2] 1 0 := by
  rw [Cert.HostRead.read_ternary hL 23 (c := main_v10) (a := main_v16) (b := main_v9) (y := main_v17)
      (f := fun x i u => Host.scatterAdd (F := Ideal) (φ := .f32) scatter_S8x1024x128_S16384x1_S8x16384x128_02_1_1_1 x i u) (hop := rfl),
    Cert.HostRead.read_unary hL 14 (x := main_cst_1) (y := main_v10) (hop := rfl),
    Cert.HostRead.read_nullary hL 13 (y := main_cst_1) (hop := rfl), v16_is hL V he, v9_is hL V]
  funext i
  obtain ⟨b, t, d, rfl⟩ : ∃ (b : Fin 8) (t : Fin 1024) (d : Fin 128), i = ix3 b t d := ⟨i 0, i 1, i 2, eq_ix3 i⟩
  exact (scatter_zero_apply _ _ b t d).trans (sum_words_eq_scat _ _ he 1 b t 0 d)

/-- Row 0 of the pair sums scattered by the words of row 0. -/
theorem v24_is : A[main_v24] = scatS A[main_arg1] A[main_arg2] 0 0 := by
  rw [Cert.HostRead.read_ternary hL 32 (c := main_v10) (a := main_v23) (b := main_v9) (y := main_v24)
      (f := fun x i u => Host.scatterAdd (F := Ideal) (φ := .f32) scatter_S8x1024x128_S16384x1_S8x16384x128_02_1_1_1 x i u) (hop := rfl),
    Cert.HostRead.read_unary hL 14 (x := main_cst_1) (y := main_v10) (hop := rfl),
    Cert.HostRead.read_nullary hL 13 (y := main_cst_1) (hop := rfl), v23_is hL V he, v9_is hL V]
  funext i
  obtain ⟨b, t, d, rfl⟩ : ∃ (b : Fin 8) (t : Fin 1024) (d : Fin 128), i = ix3 b t d := ⟨i 0, i 1, i 2, eq_ix3 i⟩
  exact (scatter_zero_apply _ _ b t d).trans (sum_words_eq_scat _ _ he 0 b t 0 d)

/-- Row 1 of the pair sums scattered by the words of row 1. -/
theorem v40_is : A[main_v40] = scatS A[main_arg1] A[main_arg2] 1 1 := by
  rw [Cert.HostRead.read_ternary hL 52 (c := main_v33) (a := main_v39) (b := main_v32) (y := main_v40)
      (f := fun x i u => Host.scatterAdd (F := Ideal) (φ := .f32) scatter_S8x1024x128_S16384x1_S8x16384x128_02_1_1_1 x i u) (hop := rfl),
    Cert.HostRead.read_unary hL 43 (x := main_cst_7) (y := main_v33) (hop := rfl),
    Cert.HostRead.read_nullary hL 42 (y := main_cst_7) (hop := rfl), v39_is hL V he, v32_is hL V]
  funext i
  obtain ⟨b, t, d, rfl⟩ : ∃ (b : Fin 8) (t : Fin 1024) (d : Fin 128), i = ix3 b t d := ⟨i 0, i 1, i 2, eq_ix3 i⟩
  exact (scatter_zero_apply _ _ b t d).trans (sum_words_eq_scat _ _ he 1 b t 1 d)

/-- Row 1 of the pair sums scattered by the words of row 0. -/
theorem v47_is : A[main_v47] = scatS A[main_arg1] A[main_arg2] 0 1 := by
  rw [Cert.HostRead.read_ternary hL 61 (c := main_v33) (a := main_v46) (b := main_v32) (y := main_v47)
      (f := fun x i u => Host.scatterAdd (F := Ideal) (φ := .f32) scatter_S8x1024x128_S16384x1_S8x16384x128_02_1_1_1 x i u) (hop := rfl),
    Cert.HostRead.read_unary hL 43 (x := main_cst_7) (y := main_v33) (hop := rfl),
    Cert.HostRead.read_nullary hL 42 (y := main_cst_7) (hop := rfl), v46_is hL V he, v32_is hL V]
  funext i
  obtain ⟨b, t, d, rfl⟩ : ∃ (b : Fin 8) (t : Fin 1024) (d : Fin 128), i = ix3 b t d := ⟨i 0, i 1, i 2, eq_ix3 i⟩
  exact (scatter_zero_apply _ _ b t d).trans (sum_words_eq_scat _ _ he 0 b t 1 d)

/-- Node row 0 after message passing: the node's row plus half the sum of the two scatters. -/
theorem v28_is : A[main_v28] = xfinS A[main_arg0] A[main_arg1] A[main_arg2] 0 := by
  rw [Cert.HostRead.read_binary hL 37 (a := main_v7) (b := main_v27) (y := main_v28) (hop := rfl),
    Cert.HostRead.read_reshape hL 10 (x := main_v6) (y := main_v7) (hop := rfl),
    Cert.HostRead.read_unary hL 9 (x := main_arg0) (y := main_v6)
      (f := fun x => extractStridedSlice S8x1024x1x128 ![0, 0, 0, 0] x slices_S8x1024x2x128_S8x1024x1x128_0_0_0_0) (hop := rfl),
    Cert.HostRead.read_binary hL 36 (a := main_v25) (b := main_v26) (y := main_v27) (hop := rfl),
    Cert.HostRead.read_binary hL 33 (a := main_v17) (b := main_v24) (y := main_v25) (hop := rfl),
    Cert.HostRead.read_unary hL 35 (x := main_cst_6) (y := main_v26) (hop := rfl),
    Cert.HostRead.read_nullary hL 34 (y := main_cst_6) (hop := rfl), v17_is hL V he, v24_is hL V he]
  funext i
  obtain ⟨b, t, d, rfl⟩ : ∃ (b : Fin 8) (t : Fin 1024) (d : Fin 128), i = ix3 b t d := ⟨i 0, i 1, i 2, eq_ix3 i⟩
  rw [addf_apply]
  exact congrArg₂ (· + ·) (noderow_apply _ 0 _ rfl _ _ b t d) rfl

/-- Node row 1 after message passing. -/
theorem v51_is : A[main_v51] = xfinS A[main_arg0] A[main_arg1] A[main_arg2] 1 := by
  rw [Cert.HostRead.read_binary hL 66 (a := main_v30) (b := main_v50) (y := main_v51) (hop := rfl),
    Cert.HostRead.read_reshape hL 39 (x := main_v29) (y := main_v30) (hop := rfl),
    Cert.HostRead.read_unary hL 38 (x := main_arg0) (y := main_v29)
      (f := fun x => extractStridedSlice S8x1024x1x128 ![0, 0, 1, 0] x slices_S8x1024x2x128_S8x1024x1x128_0_0_1_0) (hop := rfl),
    Cert.HostRead.read_binary hL 65 (a := main_v48) (b := main_v49) (y := main_v50) (hop := rfl),
    Cert.HostRead.read_binary hL 62 (a := main_v40) (b := main_v47) (y := main_v48) (hop := rfl),
    Cert.HostRead.read_unary hL 64 (x := main_cst_12) (y := main_v49) (hop := rfl),
    Cert.HostRead.read_nullary hL 63 (y := main_cst_12) (hop := rfl), v40_is hL V he, v47_is hL V he]
  funext i
  obtain ⟨b, t, d, rfl⟩ : ∃ (b : Fin 8) (t : Fin 1024) (d : Fin 128), i = ix3 b t d := ⟨i 0, i 1, i 2, eq_ix3 i⟩
  rw [addf_apply]
  exact congrArg₂ (· + ·) (noderow_apply _ 1 _ rfl _ _ b t d) rfl

/-- The two rows stacked. -/
theorem v54_is : A[main_v54] = xfinA A[main_arg0] A[main_arg1] A[main_arg2] := by
  rw [Cert.HostRead.read_binary hL 69 (a := main_v52) (b := main_v53) (y := main_v54)
      (f := fun a b => concatenate S8x1024x2x128 2 [⟨S8x1024x1x128, a⟩, ⟨S8x1024x1x128, b⟩]
        concatenates_S8x1024x1x128_S8x1024x1x128_S8x1024x2x128_d2) (hop := rfl),
    Cert.HostRead.read_unary hL 67 (x := main_v28) (y := main_v52) (hop := rfl),
    Cert.HostRead.read_unary hL 68 (x := main_v51) (y := main_v53) (hop := rfl), v28_is hL V he, v51_is hL V he]
  funext i
  obtain ⟨b, t, s, d, rfl⟩ : ∃ (b : Fin 8) (t : Fin 1024) (s : Fin 2) (d : Fin 128), i = ix4 b t s d :=
    ⟨i 0, i 1, i 2, i 3, eq_ix4 i⟩
  match s with
  | ⟨0, _⟩ => exact stack_apply_zero _ _ b t d
  | ⟨1, _⟩ => exact stack_apply_one _ _ b t d

/-- The node output: the stacked rows contracted with the weights over the feature axis, plus the bias. -/
theorem v58_is : A[main_v58] = Xspec A[main_arg0] A[main_arg1] A[main_arg2] A[main_arg3] A[main_arg4] := by
  rw [Cert.HostRead.read_binary hL 73 (a := main_v55) (b := main_v57) (y := main_v58) (hop := rfl),
    Cert.HostRead.read_binary hL 70 (a := main_v54) (b := main_arg3) (y := main_v55)
      (f := fun l r => Host.dotGeneral (F := Ideal) dot_S8x1024x2x128_S128x128_S8x1024x2x128_3_1_012_0_n_n none l r) (hop := rfl),
    Cert.HostRead.read_unary hL 72 (x := main_v56) (y := main_v57) (hop := rfl),
    Cert.HostRead.read_unary hL 71 (x := main_arg4) (y := main_v56) (hop := rfl), v54_is hL V he]
  funext i
  obtain ⟨b, t, s, o, rfl⟩ : ∃ (b : Fin 8) (t : Fin 1024) (s : Fin 2) (o : Fin 128), i = ix4 b t s o :=
    ⟨i 0, i 1, i 2, i 3, eq_ix4 i⟩
  rw [addf_apply, bias_apply]
  refine congrArg (fun z => z + _) ?_
  exact Cert.LibDot4.dotGeneral_stack4_apply dot_S8x1024x2x128_S128x128_S8x1024x2x128_3_1_012_0_n_n_wf none _ _ b t s o

end

theorem node_value (hL : Cert.HostRead.Fresh (ops (F := Ideal))) (V : Valuation τ sig (Elt Ideal))
    (he : Cert.Spec.InRange (after (ops (F := Ideal)) V (Proc.devRef .tc main_arg2))) :
    after (ops (F := Ideal)) V (Proc.devRef .tc main_v58)
      = Cert.Spec.Xspec (after (ops (F := Ideal)) V (Proc.devRef .tc main_arg0)) (after (ops (F := Ideal)) V (Proc.devRef .tc main_arg1))
          (after (ops (F := Ideal)) V (Proc.devRef .tc main_arg2)) (after (ops (F := Ideal)) V (Proc.devRef .tc main_arg3))
          (after (ops (F := Ideal)) V (Proc.devRef .tc main_arg4)) :=
  v58_is hL V he

end Cert.ReferenceIdeal.RefNode

end
-- ==== Proof.LibGatherAxis.lean ====
/-
  A gather along one inner axis of a rank-4 array, read at an index.

  What x[:, idx] and x[:, :, idx] of a rank-4 array x at a vector idx of positions lower to: a gather whose start
  indices are the column [M, 1] of positions, whose one start-indexed operand axis (axis 1, respectively axis 2) is
  collapsed, and whose three other operand axes are offset axes taken whole. A result entry keeps its coordinates on the
  three offset axes; on the gathered axis it reads the position its batch coordinate names: that start index read as a
  signed integer and clamped into the axis (the slice size on a collapsed axis is one, so the clamp is to extent − 1).
-/
import Idealize.ShloMosaic.Lib.ValueIdx

noncomputable section

namespace Cert.LibGatherAxis

open Idealize.ShloMosaic Idealize.ShloMosaic.ValueIdx

variable {α : Type}

/-! ## Along axis 1: operand [A, N, C, D], result [A, M, C, D] -/

/-- The dimension numbers of a gather along axis 1, opened: offset axes 0, 2, 3 of the result, operand axis 1 collapsed
    and start-indexed, the index vector on axis 1 of the column. The start indices' batching axes and the slice sizes
    stay as the record has them. -/
abbrev axis1Dims {A N C D M : Nat} (sb : List (Fin 2)) (ss : Fin 4 → Nat)
    (wf : GatherDims.WF ⟨4, ![A, N, C, D]⟩ ⟨2, ![M, 1]⟩ ⟨4, ![A, M, C, D]⟩ [0, 2, 3] [1] [] [1] sb 1 ss) :
    GatherDims ⟨4, ![A, N, C, D]⟩ ⟨2, ![M, 1]⟩ ⟨4, ![A, M, C, D]⟩ where
  offsetDims := [0, 2, 3]
  collapsedSliceDims := [1]
  operandBatchingDims := []
  startIndicesBatchingDims := sb
  startIndexMap := [1]
  indexVectorDim := 1
  sliceSizes := ss
  wf := wf

/-- On an offset axis (0, 2 or 3 of the operand) the operand coordinate is the result's coordinate on the matching offset
    axis: no start index, no batching. The hypothesis hv names the coordinate the offset reads. -/
theorem axis1_offset {A N C D M w : Nat} (sb : List (Fin 2)) (ss : Fin 4 → Nat)
    (wf : GatherDims.WF ⟨4, ![A, N, C, D]⟩ ⟨2, ![M, 1]⟩ ⟨4, ![A, M, C, D]⟩ [0, 2, 3] [1] [] [1] sb 1 ss)
    (idx : IVec ⟨2, ![M, 1]⟩ w) (j : (⟨4, ![A, M, C, D]⟩ : Shape).Idx) (ax : Fin 4) (hax : ax ≠ 1) (v : Nat)
    (hv : ∀ hk : ax ∈ (axis1Dims sb ss wf).sKept,
      (j ((axis1Dims sb ss wf).offsetDims[(axis1Dims sb ss wf).sKept.idxOf ax]'(by
        rw [(axis1Dims sb ss wf).offset_length]; exact List.idxOf_lt_length_iff.2 hk))).val = v) :
    (axis1Dims sb ss wf).start j idx ax + (axis1Dims sb ss wf).batchCoord j ax + (axis1Dims sb ss wf).offCoord j ax = v := by
  have hm : ax ∉ (axis1Dims sb ss wf).startIndexMap := by
    show ax ∉ ([1] : List (Fin 4)); simpa using hax
  have hk : ax ∈ (axis1Dims sb ss wf).sKept :=
    (GatherDims.mem_sKept _ _).mpr ⟨by show ax ∉ ([1] : List (Fin 4)); simpa using hax, List.not_mem_nil⟩
  rw [GatherDims.batchCoord_eq_zero _ _ _ List.not_mem_nil]
  unfold GatherDims.start GatherDims.offCoord
  rw [dif_neg hm, dif_pos hk]
  simp only [Nat.add_zero, Nat.zero_add]
  exact hv hk

/-- On axis 1 the operand coordinate of result (a, m, c, e) is start index m, read signed and clamped to N − 1. -/
theorem axis1_start {A N C D M w : Nat} (sb : List (Fin 2)) (ss : Fin 4 → Nat)
    (wf : GatherDims.WF ⟨4, ![A, N, C, D]⟩ ⟨2, ![M, 1]⟩ ⟨4, ![A, M, C, D]⟩ [0, 2, 3] [1] [] [1] sb 1 ss)
    (idx : IVec ⟨2, ![M, 1]⟩ w) (a : Fin A) (m : Fin M) (c : Fin C) (e : Fin D) :
    (axis1Dims sb ss wf).start (ix4 a m c e) idx (1 : Fin 4) + (axis1Dims sb ss wf).batchCoord (ix4 a m c e) (1 : Fin 4)
        + (axis1Dims sb ss wf).offCoord (ix4 a m c e) (1 : Fin 4)
      = min (idx (ix2 m (0 : Fin 1))).toInt.toNat (N - 1) := by
  have hm : (1 : Fin 4) ∈ (axis1Dims sb ss wf).startIndexMap := by
    show (1 : Fin 4) ∈ ([1] : List (Fin 4)); decide
  have hsl : ss 1 = 1 := (axis1Dims sb ss wf).slice_collapsed 1 (by show (1 : Fin 4) ∈ ([1] : List (Fin 4)); decide)
  rw [GatherDims.batchCoord_eq_zero _ _ _ List.not_mem_nil,
    GatherDims.offCoord_eq_zero _ _ _ (fun h => ((GatherDims.mem_sKept _ _).mp h).1
      (show (1 : Fin 4) ∈ ([1] : List (Fin 4)) by decide))]
  simp only [Nat.add_zero]
  unfold GatherDims.start
  rw [dif_pos hm]
  have hsi : (axis1Dims sb ss wf).siIdx (ix4 a m c e) ⟨List.idxOf (1 : Fin 4) (axis1Dims sb ss wf).startIndexMap,
      List.idxOf_lt_length_iff.2 hm⟩ = ix2 m (0 : Fin 1) := by
    funext b; refine Fin.ext ?_
    match b with
    | ⟨0, _⟩ => rfl
    | ⟨1, _⟩ => rfl
  rw [hsi]
  show min (idx (ix2 m (0 : Fin 1))).toInt.toNat (N - ss 1) = _
  rw [hsl]

/-- THE GATHER ALONG AXIS 1. A gather of an operand [A, N, C, D] at a column [M, 1] of start indices, whose one
    start-indexed axis (axis 1) is collapsed and whose other axes are the offset axes (the printed dimension numbers, each
    by rfl), reads at (a, m, c, e) the operand at (a, start index m read signed and clamped into [0, N − 1], c, e). -/
theorem gather_axis1_apply {A N C D M w : Nat} (d : GatherDims ⟨4, ![A, N, C, D]⟩ ⟨2, ![M, 1]⟩ ⟨4, ![A, M, C, D]⟩)
    (hoff : d.offsetDims = [0, 2, 3]) (hcoll : d.collapsedSliceDims = [1]) (hob : d.operandBatchingDims = [])
    (hsim : d.startIndexMap = [1]) (hivd : d.indexVectorDim = 1) (hN : 0 < N)
    (x : (⟨4, ![A, N, C, D]⟩ : Shape).Idx → α) (idx : IVec ⟨2, ![M, 1]⟩ w) (a : Fin A) (m : Fin M) (c : Fin C) (e : Fin D) :
    Host.gather d x idx (ix4 a m c e)
      = x (ix4 a (⟨min (idx (ix2 m (0 : Fin 1))).toInt.toNat (N - 1), by omega⟩ : Fin N) c e) := by
  obtain ⟨od, cd, ob, sb, sim, ivd, ss, wf⟩ := d
  dsimp only at hoff hcoll hob hsim hivd
  subst hoff hcoll hob hsim hivd
  show Host.gather (axis1Dims sb ss wf) x idx (ix4 a m c e) = _
  unfold Host.gather
  congr 1
  funext ax
  refine Fin.ext ?_
  show (axis1Dims sb ss wf).start (ix4 a m c e) idx ax + (axis1Dims sb ss wf).batchCoord (ix4 a m c e) ax
    + (axis1Dims sb ss wf).offCoord (ix4 a m c e) ax = _
  match ax with
  | ⟨0, _⟩ => exact axis1_offset sb ss wf idx _ _ (fun h => (show (0 : Nat) ≠ 1 by decide) (congrArg Fin.val h)) _ (fun _ => rfl)
  | ⟨1, _⟩ => exact axis1_start sb ss wf idx a m c e
  | ⟨2, _⟩ => exact axis1_offset sb ss wf idx _ _ (fun h => (show (2 : Nat) ≠ 1 by decide) (congrArg Fin.val h)) _ (fun _ => rfl)
  | ⟨3, _⟩ => exact axis1_offset sb ss wf idx _ _ (fun h => (show (3 : Nat) ≠ 1 by decide) (congrArg Fin.val h)) _ (fun _ => rfl)

/-! ## Along axis 2: operand [A, B, N, D], result [A, B, K, D] -/

/-- The dimension numbers of a gather along axis 2, opened: offset axes 0, 1, 3 of the result, operand axis 2 collapsed
    and start-indexed, the index vector on axis 1 of the column. -/
abbrev axis2Dims {A B N D K : Nat} (sb : List (Fin 2)) (ss : Fin 4 → Nat)
    (wf : GatherDims.WF ⟨4, ![A, B, N, D]⟩ ⟨2, ![K, 1]⟩ ⟨4, ![A, B, K, D]⟩ [0, 1, 3] [2] [] [2] sb 1 ss) :
    GatherDims ⟨4, ![A, B, N, D]⟩ ⟨2, ![K, 1]⟩ ⟨4, ![A, B, K, D]⟩ where
  offsetDims := [0, 1, 3]
  collapsedSliceDims := [2]
  operandBatchingDims := []
  startIndicesBatchingDims := sb
  startIndexMap := [2]
  indexVectorDim := 1
  sliceSizes := ss
  wf := wf

/-- On an offset axis (0, 1 or 3 of the operand) the operand coordinate is the result's coordinate on the matching offset
    axis. -/
theorem axis2_offset {A B N D K w : Nat} (sb : List (Fin 2)) (ss : Fin 4 → Nat)
    (wf : GatherDims.WF ⟨4, ![A, B, N, D]⟩ ⟨2, ![K, 1]⟩ ⟨4, ![A, B, K, D]⟩ [0, 1, 3] [2] [] [2] sb 1 ss)
    (idx : IVec ⟨2, ![K, 1]⟩ w) (j : (⟨4, ![A, B, K, D]⟩ : Shape).Idx) (ax : Fin 4) (hax : ax ≠ 2) (v : Nat)
    (hv : ∀ hk : ax ∈ (axis2Dims sb ss wf).sKept,
      (j ((axis2Dims sb ss wf).offsetDims[(axis2Dims sb ss wf).sKept.idxOf ax]'(by
        rw [(axis2Dims sb ss wf).offset_length]; exact List.idxOf_lt_length_iff.2 hk))).val = v) :
    (axis2Dims sb ss wf).start j idx ax + (axis2Dims sb ss wf).batchCoord j ax + (axis2Dims sb ss wf).offCoord j ax = v := by
  have hm : ax ∉ (axis2Dims sb ss wf).startIndexMap := by
    show ax ∉ ([2] : List (Fin 4)); simpa using hax
  have hk : ax ∈ (axis2Dims sb ss wf).sKept :=
    (GatherDims.mem_sKept _ _).mpr ⟨by show ax ∉ ([2] : List (Fin 4)); simpa using hax, List.not_mem_nil⟩
  rw [GatherDims.batchCoord_eq_zero _ _ _ List.not_mem_nil]
  unfold GatherDims.start GatherDims.offCoord
  rw [dif_neg hm, dif_pos hk]
  simp only [Nat.add_zero, Nat.zero_add]
  exact hv hk

/-- On axis 2 the operand coordinate of result (a, b, k, e) is start index k, read signed and clamped to N − 1. -/
theorem axis2_start {A B N D K w : Nat} (sb : List (Fin 2)) (ss : Fin 4 → Nat)
    (wf : GatherDims.WF ⟨4, ![A, B, N, D]⟩ ⟨2, ![K, 1]⟩ ⟨4, ![A, B, K, D]⟩ [0, 1, 3] [2] [] [2] sb 1 ss)
    (idx : IVec ⟨2, ![K, 1]⟩ w) (a : Fin A) (b : Fin B) (k : Fin K) (e : Fin D) :
    (axis2Dims sb ss wf).start (ix4 a b k e) idx (2 : Fin 4) + (axis2Dims sb ss wf).batchCoord (ix4 a b k e) (2 : Fin 4)
        + (axis2Dims sb ss wf).offCoord (ix4 a b k e) (2 : Fin 4)
      = min (idx (ix2 k (0 : Fin 1))).toInt.toNat (N - 1) := by
  have hm : (2 : Fin 4) ∈ (axis2Dims sb ss wf).startIndexMap := by
    show (2 : Fin 4) ∈ ([2] : List (Fin 4)); decide
  have hsl : ss 2 = 1 := (axis2Dims sb ss wf).slice_collapsed 2 (by show (2 : Fin 4) ∈ ([2] : List (Fin 4)); decide)
  rw [GatherDims.batchCoord_eq_zero _ _ _ List.not_mem_nil,
    GatherDims.offCoord_eq_zero _ _ _ (fun h => ((GatherDims.mem_sKept _ _).mp h).1
      (show (2 : Fin 4) ∈ ([2] : List (Fin 4)) by decide))]
  simp only [Nat.add_zero]
  unfold GatherDims.start
  rw [dif_pos hm]
  have hsi : (axis2Dims sb ss wf).siIdx (ix4 a b k e) ⟨List.idxOf (2 : Fin 4) (axis2Dims sb ss wf).startIndexMap,
      List.idxOf_lt_length_iff.2 hm⟩ = ix2 k (0 : Fin 1) := by
    funext q; refine Fin.ext ?_
    match q with
    | ⟨0, _⟩ => rfl
    | ⟨1, _⟩ => rfl
  rw [hsi]
  show min (idx (ix2 k (0 : Fin 1))).toInt.toNat (N - ss 2) = _
  rw [hsl]

/-- THE GATHER ALONG AXIS 2. A gather of an operand [A, B, N, D] at a column [K, 1] of start indices, whose one
    start-indexed axis (axis 2) is collapsed and whose other axes are the offset axes, reads at (a, b, k, e) the operand at
    (a, b, start index k read signed and clamped into [0, N − 1], e). -/
theorem gather_axis2_apply {A B N D K w : Nat} (d : GatherDims ⟨4, ![A, B, N, D]⟩ ⟨2, ![K, 1]⟩ ⟨4, ![A, B, K, D]⟩)
    (hoff : d.offsetDims = [0, 1, 3]) (hcoll : d.collapsedSliceDims = [2]) (hob : d.operandBatchingDims = [])
    (hsim : d.startIndexMap = [2]) (hivd : d.indexVectorDim = 1) (hN : 0 < N)
    (x : (⟨4, ![A, B, N, D]⟩ : Shape).Idx → α) (idx : IVec ⟨2, ![K, 1]⟩ w) (a : Fin A) (b : Fin B) (k : Fin K) (e : Fin D) :
    Host.gather d x idx (ix4 a b k e)
      = x (ix4 a b (⟨min (idx (ix2 k (0 : Fin 1))).toInt.toNat (N - 1), by omega⟩ : Fin N) e) := by
  obtain ⟨od, cd, ob, sb, sim, ivd, ss, wf⟩ := d
  dsimp only at hoff hcoll hob hsim hivd
  subst hoff hcoll hob hsim hivd
  show Host.gather (axis2Dims sb ss wf) x idx (ix4 a b k e) = _
  unfold Host.gather
  congr 1
  funext ax
  refine Fin.ext ?_
  show (axis2Dims sb ss wf).start (ix4 a b k e) idx ax + (axis2Dims sb ss wf).batchCoord (ix4 a b k e) ax
    + (axis2Dims sb ss wf).offCoord (ix4 a b k e) ax = _
  match ax with
  | ⟨0, _⟩ => exact axis2_offset sb ss wf idx _ _ (fun h => (show (0 : Nat) ≠ 2 by decide) (congrArg Fin.val h)) _ (fun _ => rfl)
  | ⟨1, _⟩ => exact axis2_offset sb ss wf idx _ _ (fun h => (show (1 : Nat) ≠ 2 by decide) (congrArg Fin.val h)) _ (fun _ => rfl)
  | ⟨2, _⟩ => exact axis2_start sb ss wf idx a b k e
  | ⟨3, _⟩ => exact axis2_offset sb ss wf idx _ _ (fun h => (show (3 : Nat) ≠ 2 by decide) (congrArg Fin.val h)) _ (fun _ => rfl)

end Cert.LibGatherAxis

end
-- ==== Proof.RefEdge.lean ====
/-
  The reference's edge output, read entry by entry: it is the specification's Espec of the argument arrays.

  The walk goes buffer by buffer, each read after the whole line as its operation's function of its operands: the two rows
  of end-node words (a slice and a reshape of the integer table), their normalised copies (a word that is not negative
  is kept), the gather of node rows at those words (under the range hypothesis the clamp is the word itself, the
  specification's end node), the second gather along the row axis at the constant tables [0, 0, 1, 1] and [0, 1, 0, 1]
  (row k / 2 and row k % 2), their sum, and the two linear layers with their biases. The reference adds the edge's own
  row to the first product before the bias; the specification adds the bias first: associativity of addition on the
  extended reals.
-/
import proofs.«411520_j71347996721296_1_alg».proof.Proof.RefOps
import proofs.«411520_j71347996721296_1_alg».proof.Proof.LibHostRead
import proofs.«411520_j71347996721296_1_alg».proof.Proof.Spec
import proofs.«411520_j71347996721296_1_alg».proof.Proof.LibGatherAxis
import proofs.«411520_j71347996721296_1_alg».proof.Proof.LibDot4
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefEdge

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx

/-! ## Words -/

/-- A word below 2^31 is not negative: its signed compare with zero is the bit 0. -/
theorem slt_zero_of_lt {a : BitVec 32} (ha : a.toNat < 2 ^ 31) : IntOp.cmpi .slt a 0#32 = 0#1 := by
  apply eq_zero_of_ne_one
  intro h
  have h' := (Predicate.slt_iff_toNat ha (by decide)).mp h
  exact absurd h' (by simp)

/-- The index normalisation "add the extent when negative" keeps a word that is not negative. -/
theorem norm_word (a c : BitVec 32) (ha : a.toNat < 2 ^ 31) :
    Scalar.select (IntOp.cmpi .slt a 0#32) (IntOp.addi a c) a = a := by
  rw [slt_zero_of_lt ha, select_zero]

/-- A start index below the extent N, read signed and clamped into [0, N − 1], is the word's own number. -/
theorem clamp_word (a : BitVec 32) (N : Nat) (hN : N ≤ 2 ^ 31) (ha : a.toNat < N) : min a.toInt.toNat (N - 1) = a.toNat := by
  rw [Predicate.toInt_eq_toNat_of_lt (by omega), Int.toNat_natCast]
  omega

/-- The table [0, 0, 1, 1]: its words are not negative, and entry k, clamped into [0, 1], is k / 2. -/
theorem lit0_word : ∀ k : Fin 4, (lit0 k).toNat < 2 ^ 31 ∧ min (lit0 k).toInt.toNat (2 - 1) = k.val / 2 := by decide

/-- The table [0, 1, 0, 1]: its words are not negative, and entry k, clamped into [0, 1], is k % 2. -/
theorem lit1_word : ∀ k : Fin 4, (lit1 k).toNat < 2 ^ 31 ∧ min (lit1 k).toInt.toNat (2 - 1) = k.val % 2 := by decide

/-- A bias vector laid along the last axis of the edge array (the two broadcasts the program prints) reads, at
    (b, m, k, o), the vector at o. -/
theorem bias_apply {α : Type} (v : S128.Idx → α) (b : Fin 8) (m : Fin 16384) (k : Fin 4) (o : Fin 128) :
    broadcastInDim S8x16384x4x128 ![0, 1, 2, 3] bcast_S1x1x1x128_S8x16384x4x128_0_1_2_3
        (broadcastInDim S1x1x1x128 ![3] bcast_S128_S1x1x1x128_3 v) (ix4 b m k o) = v (ix1 o) := by
  rw [broadcastInDim_apply _ _ _ (ix4 b m k o) (ix4 (0 : Fin 1) (0 : Fin 1) (0 : Fin 1) o) (fun a => by
    match a with
    | ⟨0, _⟩ => rfl
    | ⟨1, _⟩ => rfl
    | ⟨2, _⟩ => rfl
    | ⟨3, _⟩ => rfl)]
  exact broadcastInDim_apply _ _ _ (ix4 (0 : Fin 1) (0 : Fin 1) (0 : Fin 1) o) (ix1 o) (fun a => by
    match a with
    | ⟨0, _⟩ => rfl)

/-- The values of an edge array: one extended real per (batch, edge, row, feature). -/
abbrev EVec : Type := FVec Ideal S8x16384x4x128 .f32

section
variable (hL : Cert.HostRead.Fresh (ops (F := Ideal))) (V : Valuation τ sig (Elt Ideal))
include hL

/-! ## The two rows of end-node words -/

/-- Row 0 of the end-node table, as the vector the program slices and reshapes. -/
theorem v1_apply (m : Fin 16384) :
    after (ops (F := Ideal)) V (Proc.devRef .tc main_v1) (ix1 m)
      = after (ops (F := Ideal)) V (Proc.devRef .tc main_arg2) (ix2 (0 : Fin 2) m) := by
  have h1 := Cert.HostRead.read_reshape hL 3 (V := V) (x := main_v0) (y := main_v1) (hop := rfl)
  have h0 := Cert.HostRead.read_unary hL 2 (V := V) (x := main_arg2) (y := main_v0)
    (f := (extractStridedSlice S1x16384 ![0, 0] · slices_S2x16384_S1x16384_0_0)) (hop := rfl)
  rw [h1, h0]
  show shapeCast S16384 _ _ (ix1 m) = _
  rw [shapeCast_apply _ _ (ix1 m) (ix2 (0 : Fin 1) m) (by
    rw [Shape.rowMajor_val_two, Shape.rowMajor_val_one]
    show (0 : Fin 1).val * 16384 + m.val = m.val
    simp)]
  exact extractStridedSlice_apply _ _ _ (ix2 (0 : Fin 1) m) (ix2 (0 : Fin 2) m) (fun a => by
    match a with
    | ⟨0, _⟩ => rfl
    | ⟨1, _⟩ => exact (Nat.zero_add _).symm)

/-- Row 1 of the end-node table. -/
theorem v3_apply (m : Fin 16384) :
    after (ops (F := Ideal)) V (Proc.devRef .tc main_v3) (ix1 m)
      = after (ops (F := Ideal)) V (Proc.devRef .tc main_arg2) (ix2 (1 : Fin 2) m) := by
  have h1 := Cert.HostRead.read_reshape hL 5 (V := V) (x := main_v2) (y := main_v3) (hop := rfl)
  have h0 := Cert.HostRead.read_unary hL 4 (V := V) (x := main_arg2) (y := main_v2)
    (f := (extractStridedSlice S1x16384 ![1, 0] · slices_S2x16384_S1x16384_1_0)) (hop := rfl)
  rw [h1, h0]
  show shapeCast S16384 _ _ (ix1 m) = _
  rw [shapeCast_apply _ _ (ix1 m) (ix2 (0 : Fin 1) m) (by
    rw [Shape.rowMajor_val_two, Shape.rowMajor_val_one]
    show (0 : Fin 1).val * 16384 + m.val = m.val
    simp)]
  exact extractStridedSlice_apply _ _ _ (ix2 (0 : Fin 1) m) (ix2 (1 : Fin 2) m) (fun a => by
    match a with
    | ⟨0, _⟩ => rfl
    | ⟨1, _⟩ => exact (Nat.zero_add _).symm)

/-! ## The normalised end-node words and the first gather -/

/-- The normalised copy of row 0 is row 0, where its word is not negative. -/
theorem v63_apply (m : Fin 16384)
    (hm : (after (ops (F := Ideal)) V (Proc.devRef .tc main_v1) (ix1 m)).toNat < 2 ^ 31) :
    after (ops (F := Ideal)) V (Proc.devRef .tc main_v63) (ix1 m)
      = after (ops (F := Ideal)) V (Proc.devRef .tc main_v1) (ix1 m) := by
  have h63 := Cert.HostRead.read_ternary hL 80 (V := V) (c := main_v60) (a := main_v62) (b := main_v1) (y := main_v63)
    (f := select) (hop := rfl)
  have h60 := Cert.HostRead.read_binary hL 76 (V := V) (a := main_v1) (b := main_v59) (y := main_v60)
    (f := cmpi .slt) (hop := rfl)
  have h59 := Cert.HostRead.read_unary hL 75 (V := V) (x := main_c_13) (y := main_v59)
    (f := broadcastInDim S16384 ![] bcast_S_S16384) (hop := rfl)
  have hc := Cert.HostRead.read_nullary hL 74 (V := V) (y := main_c_13) (v := constantI S_ 32 0#32) (hop := rfl)
  have h62 := Cert.HostRead.read_binary hL 79 (V := V) (a := main_v1) (b := main_v61) (y := main_v62)
    (f := addi) (hop := rfl)
  rw [h63, h60, h59, hc, h62]
  exact norm_word _ _ hm

/-- The normalised copy of row 1 is row 1, where its word is not negative. -/
theorem v77_apply (m : Fin 16384)
    (hm : (after (ops (F := Ideal)) V (Proc.devRef .tc main_v3) (ix1 m)).toNat < 2 ^ 31) :
    after (ops (F := Ideal)) V (Proc.devRef .tc main_v77) (ix1 m)
      = after (ops (F := Ideal)) V (Proc.devRef .tc main_v3) (ix1 m) := by
  have h77 := Cert.HostRead.read_ternary hL 98 (V := V) (c := main_v74) (a := main_v76) (b := main_v3) (y := main_v77)
    (f := select) (hop := rfl)
  have h74 := Cert.HostRead.read_binary hL 94 (V := V) (a := main_v3) (b := main_v73) (y := main_v74)
    (f := cmpi .slt) (hop := rfl)
  have h73 := Cert.HostRead.read_unary hL 93 (V := V) (x := main_c_17) (y := main_v73)
    (f := broadcastInDim S16384 ![] bcast_S_S16384) (hop := rfl)
  have hc := Cert.HostRead.read_nullary hL 92 (V := V) (y := main_c_17) (v := constantI S_ 32 0#32) (hop := rfl)
  have h76 := Cert.HostRead.read_binary hL 97 (V := V) (a := main_v3) (b := main_v75) (y := main_v76)
    (f := addi) (hop := rfl)
  rw [h77, h74, h73, hc, h76]
  exact norm_word _ _ hm

/-- The first gather for end 0: entry (b, m, s, d) is the node array at (b, end node 0 of edge m, s, d). -/
theorem v65_apply (he : Cert.Spec.InRange (after (ops (F := Ideal)) V (Proc.devRef .tc main_arg2)))
    (b : Fin 8) (m : Fin 16384) (s : Fin 2) (d : Fin 128) :
    after (ops (F := Ideal)) V (Proc.devRef .tc main_v65) (ix4 b m s d)
      = after (ops (F := Ideal)) V (Proc.devRef .tc main_arg0)
          (ix4 b (Cert.Spec.node (after (ops (F := Ideal)) V (Proc.devRef .tc main_arg2)) 0 m) s d) := by
  have h65 := Cert.HostRead.read_binary hL 82 (V := V) (a := main_arg0) (b := main_v64) (y := main_v65)
    (f := fun x i => Host.gather gather_S8x1024x2x128_S16384x1_S8x16384x2x128_023_1_n_n_1_1_812128 x i) (hop := rfl)
  have h64 := Cert.HostRead.read_unary hL 81 (V := V) (x := main_v63) (y := main_v64)
    (f := broadcastInDim S16384x1 ![0] bcast_S16384_S16384x1_0) (hop := rfl)
  have hw : after (ops (F := Ideal)) V (Proc.devRef .tc main_v64) (ix2 m (0 : Fin 1))
      = after (ops (F := Ideal)) V (Proc.devRef .tc main_arg2) (ix2 (0 : Fin 2) m) := by
    rw [h64, broadcastInDim_apply _ _ _ (ix2 m (0 : Fin 1)) (ix1 m) (fun a => by match a with | ⟨0, _⟩ => rfl)]
    have h1 := v1_apply hL V m
    rw [v63_apply hL V m (by rw [h1]; have := he (ix2 0 m); omega), h1]
  rw [h65]
  refine (Cert.LibGatherAxis.gather_axis1_apply gather_S8x1024x2x128_S16384x1_S8x16384x2x128_023_1_n_n_1_1_812128
    rfl rfl rfl rfl rfl (by decide) _ _ b m s d).trans ?_
  refine congrArg (fun t => after (ops (F := Ideal)) V (Proc.devRef .tc main_arg0) (ix4 b t s d)) (Fin.ext ?_)
  show min _ (1024 - 1) = _
  rw [hw, clamp_word _ 1024 (by decide) (he _), Cert.Spec.node_val _ he]

/-- The first gather for end 1. -/
theorem v79_apply (he : Cert.Spec.InRange (after (ops (F := Ideal)) V (Proc.devRef .tc main_arg2)))
    (b : Fin 8) (m : Fin 16384) (s : Fin 2) (d : Fin 128) :
    after (ops (F := Ideal)) V (Proc.devRef .tc main_v79) (ix4 b m s d)
      = after (ops (F := Ideal)) V (Proc.devRef .tc main_arg0)
          (ix4 b (Cert.Spec.node (after (ops (F := Ideal)) V (Proc.devRef .tc main_arg2)) 1 m) s d) := by
  have h79 := Cert.HostRead.read_binary hL 100 (V := V) (a := main_arg0) (b := main_v78) (y := main_v79)
    (f := fun x i => Host.gather gather_S8x1024x2x128_S16384x1_S8x16384x2x128_023_1_n_n_1_1_812128 x i) (hop := rfl)
  have h78 := Cert.HostRead.read_unary hL 99 (V := V) (x := main_v77) (y := main_v78)
    (f := broadcastInDim S16384x1 ![0] bcast_S16384_S16384x1_0) (hop := rfl)
  have hw : after (ops (F := Ideal)) V (Proc.devRef .tc main_v78) (ix2 m (0 : Fin 1))
      = after (ops (F := Ideal)) V (Proc.devRef .tc main_arg2) (ix2 (1 : Fin 2) m) := by
    rw [h78, broadcastInDim_apply _ _ _ (ix2 m (0 : Fin 1)) (ix1 m) (fun a => by match a with | ⟨0, _⟩ => rfl)]
    have h3 := v3_apply hL V m
    rw [v77_apply hL V m (by rw [h3]; have := he (ix2 1 m); omega), h3]
  rw [h79]
  refine (Cert.LibGatherAxis.gather_axis1_apply gather_S8x1024x2x128_S16384x1_S8x16384x2x128_023_1_n_n_1_1_812128
    rfl rfl rfl rfl rfl (by decide) _ _ b m s d).trans ?_
  refine congrArg (fun t => after (ops (F := Ideal)) V (Proc.devRef .tc main_arg0) (ix4 b t s d)) (Fin.ext ?_)
  show min _ (1024 - 1) = _
  rw [hw, clamp_word _ 1024 (by decide) (he _), Cert.Spec.node_val _ he]

/-! ## The row tables and the second gathers -/

/-- The normalised column of the table [0, 0, 1, 1] holds the table. -/
theorem v71_apply (k : Fin 4) :
    after (ops (F := Ideal)) V (Proc.devRef .tc main_v71) (ix2 k (0 : Fin 1)) = lit0 k := by
  have h71 := Cert.HostRead.read_unary hL 90 (V := V) (x := main_v70) (y := main_v71)
    (f := broadcastInDim S4x1 ![0] bcast_S4_S4x1_0) (hop := rfl)
  have h70 := Cert.HostRead.read_ternary hL 89 (V := V) (c := main_v67) (a := main_v69) (b := main_c) (y := main_v70)
    (f := select) (hop := rfl)
  have h67 := Cert.HostRead.read_binary hL 85 (V := V) (a := main_c) (b := main_v66) (y := main_v67)
    (f := cmpi .slt) (hop := rfl)
  have h66 := Cert.HostRead.read_unary hL 84 (V := V) (x := main_c_15) (y := main_v66)
    (f := broadcastInDim S4 ![] bcast_S_S4) (hop := rfl)
  have hc15 := Cert.HostRead.read_nullary hL 83 (V := V) (y := main_c_15) (v := constantI S_ 32 0#32) (hop := rfl)
  have h69 := Cert.HostRead.read_binary hL 88 (V := V) (a := main_c) (b := main_v68) (y := main_v69)
    (f := addi) (hop := rfl)
  have hc := Cert.HostRead.read_nullary hL 0 (V := V) (y := main_c) (v := fun i => lit0 (S4.rowMajor i)) (hop := rfl)
  have hk : S4.rowMajor (ix1 k) = k := Fin.ext (Shape.rowMajor_val_one (ix1 k))
  rw [h71, broadcastInDim_apply _ _ _ (ix2 k (0 : Fin 1)) (ix1 k) (fun a => by match a with | ⟨0, _⟩ => rfl),
    h70, h67, h66, hc15, h69, hc]
  show Scalar.select (IntOp.cmpi .slt (lit0 (S4.rowMajor (ix1 k))) 0#32) (IntOp.addi (lit0 (S4.rowMajor (ix1 k))) _)
    (lit0 (S4.rowMajor (ix1 k))) = _
  rw [hk]
  exact norm_word _ _ (lit0_word k).1

/-- The normalised column of the table [0, 1, 0, 1] holds the table. -/
theorem v85_apply (k : Fin 4) :
    after (ops (F := Ideal)) V (Proc.devRef .tc main_v85) (ix2 k (0 : Fin 1)) = lit1 k := by
  have h85 := Cert.HostRead.read_unary hL 108 (V := V) (x := main_v84) (y := main_v85)
    (f := broadcastInDim S4x1 ![0] bcast_S4_S4x1_0) (hop := rfl)
  have h84 := Cert.HostRead.read_ternary hL 107 (V := V) (c := main_v81) (a := main_v83) (b := main_c_0) (y := main_v84)
    (f := select) (hop := rfl)
  have h81 := Cert.HostRead.read_binary hL 103 (V := V) (a := main_c_0) (b := main_v80) (y := main_v81)
    (f := cmpi .slt) (hop := rfl)
  have h80 := Cert.HostRead.read_unary hL 102 (V := V) (x := main_c_19) (y := main_v80)
    (f := broadcastInDim S4 ![] bcast_S_S4) (hop := rfl)
  have hc19 := Cert.HostRead.read_nullary hL 101 (V := V) (y := main_c_19) (v := constantI S_ 32 0#32) (hop := rfl)
  have h83 := Cert.HostRead.read_binary hL 106 (V := V) (a := main_c_0) (b := main_v82) (y := main_v83)
    (f := addi) (hop := rfl)
  have hc := Cert.HostRead.read_nullary hL 1 (V := V) (y := main_c_0) (v := fun i => lit1 (S4.rowMajor i)) (hop := rfl)
  have hk : S4.rowMajor (ix1 k) = k := Fin.ext (Shape.rowMajor_val_one (ix1 k))
  rw [h85, broadcastInDim_apply _ _ _ (ix2 k (0 : Fin 1)) (ix1 k) (fun a => by match a with | ⟨0, _⟩ => rfl),
    h84, h81, h80, hc19, h83, hc]
  show Scalar.select (IntOp.cmpi .slt (lit1 (S4.rowMajor (ix1 k))) 0#32) (IntOp.addi (lit1 (S4.rowMajor (ix1 k))) _)
    (lit1 (S4.rowMajor (ix1 k))) = _
  rw [hk]
  exact norm_word _ _ (lit1_word k).1

/-- The second gather for end 0: row k of an edge is row k / 2 of the first gather. -/
theorem v72_apply (b : Fin 8) (m : Fin 16384) (k : Fin 4) (d : Fin 128) :
    after (ops (F := Ideal)) V (Proc.devRef .tc main_v72) (ix4 b m k d)
      = after (ops (F := Ideal)) V (Proc.devRef .tc main_v65) (ix4 b m (⟨k.val / 2, by omega⟩ : Fin 2) d) := by
  have h72 := Cert.HostRead.read_binary hL 91 (V := V) (a := main_v65) (b := main_v71) (y := main_v72)
    (f := fun x i => Host.gather gather_S8x16384x2x128_S4x1_S8x16384x4x128_013_2_n_n_2_1_8163841128 x i) (hop := rfl)
  rw [h72]
  refine (Cert.LibGatherAxis.gather_axis2_apply gather_S8x16384x2x128_S4x1_S8x16384x4x128_013_2_n_n_2_1_8163841128
    rfl rfl rfl rfl rfl (by decide) _ _ b m k d).trans ?_
  refine congrArg (fun t => after (ops (F := Ideal)) V (Proc.devRef .tc main_v65) (ix4 b m t d)) (Fin.ext ?_)
  show min _ (2 - 1) = _
  rw [v71_apply hL V k]
  exact (lit0_word k).2

/-- The second gather for end 1: row k of an edge is row k % 2 of the first gather. -/
theorem v86_apply (b : Fin 8) (m : Fin 16384) (k : Fin 4) (d : Fin 128) :
    after (ops (F := Ideal)) V (Proc.devRef .tc main_v86) (ix4 b m k d)
      = after (ops (F := Ideal)) V (Proc.devRef .tc main_v79) (ix4 b m (⟨k.val % 2, by omega⟩ : Fin 2) d) := by
  have h86 := Cert.HostRead.read_binary hL 109 (V := V) (a := main_v79) (b := main_v85) (y := main_v86)
    (f := fun x i => Host.gather gather_S8x16384x2x128_S4x1_S8x16384x4x128_013_2_n_n_2_1_8163841128 x i) (hop := rfl)
  rw [h86]
  refine (Cert.LibGatherAxis.gather_axis2_apply gather_S8x16384x2x128_S4x1_S8x16384x4x128_013_2_n_n_2_1_8163841128
    rfl rfl rfl rfl rfl (by decide) _ _ b m k d).trans ?_
  refine congrArg (fun t => after (ops (F := Ideal)) V (Proc.devRef .tc main_v79) (ix4 b m t d)) (Fin.ext ?_)
  show min _ (2 - 1) = _
  rw [v85_apply hL V k]
  exact (lit1_word k).2

/-! ## The edge layers -/

/-- The sum of the two gathered rows is the specification's sum of end-node rows. -/
theorem v87_apply (he : Cert.Spec.InRange (after (ops (F := Ideal)) V (Proc.devRef .tc main_arg2)))
    (b : Fin 8) (m : Fin 16384) (k : Fin 4) (d : Fin 128) :
    after (ops (F := Ideal)) V (Proc.devRef .tc main_v87) (ix4 b m k d)
      = Cert.Spec.esum (after (ops (F := Ideal)) V (Proc.devRef .tc main_arg0))
          (after (ops (F := Ideal)) V (Proc.devRef .tc main_arg2)) b m k d := by
  have h87 := Cert.HostRead.read_binary hL 110 (V := V) (a := main_v72) (b := main_v86) (y := main_v87)
    (f := (addf : EVec → EVec → EVec)) (hop := rfl)
  rw [h87, addf_apply, v72_apply hL V, v86_apply hL V, v65_apply hL V he, v79_apply hL V he]
  rfl

/-- The first linear map, before the edge's own row and the bias are added. -/
theorem v88_apply (he : Cert.Spec.InRange (after (ops (F := Ideal)) V (Proc.devRef .tc main_arg2)))
    (b : Fin 8) (m : Fin 16384) (k : Fin 4) (o : Fin 128) :
    after (ops (F := Ideal)) V (Proc.devRef .tc main_v88) (ix4 b m k o)
      = ∑ c : Fin 128, Cert.Spec.esum (after (ops (F := Ideal)) V (Proc.devRef .tc main_arg0))
          (after (ops (F := Ideal)) V (Proc.devRef .tc main_arg2)) b m k c
          * after (ops (F := Ideal)) V (Proc.devRef .tc main_arg7) (ix2 o c) := by
  have h88 := Cert.HostRead.read_binary hL 111 (V := V) (a := main_v87) (b := main_arg7) (y := main_v88)
    (f := fun (l : EVec) (r : FVec Ideal S128x128 .f32) =>
      (Host.dotGeneral dot_S8x16384x4x128_S128x128_S8x16384x4x128_3_1_012_0_n_n none l r : EVec)) (hop := rfl)
  rw [h88]
  refine (Cert.LibDot4.dotGeneral_stack4_apply _ none _ _ b m k o).trans ?_
  exact Finset.sum_congr rfl fun c _ => by rw [v87_apply hL V he]

/-- The edge's own row plus the first layer. -/
theorem v92_apply (he : Cert.Spec.InRange (after (ops (F := Ideal)) V (Proc.devRef .tc main_arg2)))
    (b : Fin 8) (m : Fin 16384) (k : Fin 4) (o : Fin 128) :
    after (ops (F := Ideal)) V (Proc.devRef .tc main_v92) (ix4 b m k o)
      = Cert.Spec.e1 (after (ops (F := Ideal)) V (Proc.devRef .tc main_arg0))
          (after (ops (F := Ideal)) V (Proc.devRef .tc main_arg1)) (after (ops (F := Ideal)) V (Proc.devRef .tc main_arg2))
          (after (ops (F := Ideal)) V (Proc.devRef .tc main_arg7)) (after (ops (F := Ideal)) V (Proc.devRef .tc main_arg8))
          b m k o := by
  have h92 := Cert.HostRead.read_binary hL 115 (V := V) (a := main_v89) (b := main_v91) (y := main_v92)
    (f := (addf : EVec → EVec → EVec)) (hop := rfl)
  have h89 := Cert.HostRead.read_binary hL 112 (V := V) (a := main_arg1) (b := main_v88) (y := main_v89)
    (f := (addf : EVec → EVec → EVec)) (hop := rfl)
  have h91 := Cert.HostRead.read_unary hL 114 (V := V) (x := main_v90) (y := main_v91)
    (f := broadcastInDim S8x16384x4x128 ![0, 1, 2, 3] bcast_S1x1x1x128_S8x16384x4x128_0_1_2_3) (hop := rfl)
  have h90 := Cert.HostRead.read_unary hL 113 (V := V) (x := main_arg8) (y := main_v90)
    (f := broadcastInDim S1x1x1x128 ![3] bcast_S128_S1x1x1x128_3) (hop := rfl)
  rw [h92, h89, h91, h90, addf_apply, addf_apply, bias_apply, v88_apply hL V he, add_assoc]
  rfl

/-- The edge output, entry by entry. -/
theorem v96_apply (he : Cert.Spec.InRange (after (ops (F := Ideal)) V (Proc.devRef .tc main_arg2)))
    (b : Fin 8) (m : Fin 16384) (k : Fin 4) (o : Fin 128) :
    after (ops (F := Ideal)) V (Proc.devRef .tc main_v96) (ix4 b m k o)
      = (∑ c : Fin 128, Cert.Spec.e1 (after (ops (F := Ideal)) V (Proc.devRef .tc main_arg0))
          (after (ops (F := Ideal)) V (Proc.devRef .tc main_arg1)) (after (ops (F := Ideal)) V (Proc.devRef .tc main_arg2))
          (after (ops (F := Ideal)) V (Proc.devRef .tc main_arg7)) (after (ops (F := Ideal)) V (Proc.devRef .tc main_arg8))
          b m k c * after (ops (F := Ideal)) V (Proc.devRef .tc main_arg5) (ix2 o c))
        + after (ops (F := Ideal)) V (Proc.devRef .tc main_arg6) (ix1 o) := by
  have h96 := Cert.HostRead.read_binary hL 119 (V := V) (a := main_v93) (b := main_v95) (y := main_v96)
    (f := (addf : EVec → EVec → EVec)) (hop := rfl)
  have h93 := Cert.HostRead.read_binary hL 116 (V := V) (a := main_v92) (b := main_arg5) (y := main_v93)
    (f := fun (l : EVec) (r : FVec Ideal S128x128 .f32) =>
      (Host.dotGeneral dot_S8x16384x4x128_S128x128_S8x16384x4x128_3_1_012_0_n_n none l r : EVec)) (hop := rfl)
  have h95 := Cert.HostRead.read_unary hL 118 (V := V) (x := main_v94) (y := main_v95)
    (f := broadcastInDim S8x16384x4x128 ![0, 1, 2, 3] bcast_S1x1x1x128_S8x16384x4x128_0_1_2_3) (hop := rfl)
  have h94 := Cert.HostRead.read_unary hL 117 (V := V) (x := main_arg6) (y := main_v94)
    (f := broadcastInDim S1x1x1x128 ![3] bcast_S128_S1x1x1x128_3) (hop := rfl)
  rw [h96, h93, h95, h94, addf_apply, bias_apply]
  congr 1
  refine (Cert.LibDot4.dotGeneral_stack4_apply _ none _ _ b m k o).trans ?_
  exact Finset.sum_congr rfl fun c _ => by rw [v92_apply hL V he]

end

theorem edge_value (hL : Cert.HostRead.Fresh (ops (F := Ideal))) (V : Valuation τ sig (Elt Ideal))
    (he : Cert.Spec.InRange (after (ops (F := Ideal)) V (Proc.devRef .tc main_arg2))) :
    after (ops (F := Ideal)) V (Proc.devRef .tc main_v96)
      = Cert.Spec.Espec (after (ops (F := Ideal)) V (Proc.devRef .tc main_arg0)) (after (ops (F := Ideal)) V (Proc.devRef .tc main_arg1))
          (after (ops (F := Ideal)) V (Proc.devRef .tc main_arg2)) (after (ops (F := Ideal)) V (Proc.devRef .tc main_arg7))
          (after (ops (F := Ideal)) V (Proc.devRef .tc main_arg8)) (after (ops (F := Ideal)) V (Proc.devRef .tc main_arg5))
          (after (ops (F := Ideal)) V (Proc.devRef .tc main_arg6)) := by
  funext j
  obtain ⟨b, m, k, o, rfl⟩ : ∃ (b : Fin 8) (m : Fin 16384) (k : Fin 4) (o : Fin 128), j = ix4 b m k o :=
    ⟨j 0, j 1, j 2, j 3, eq_ix4 j⟩
  rw [v96_apply hL V he]
  rfl

end Cert.ReferenceIdeal.RefEdge

end
-- ==== Proof.RefVal.lean ====
/-
  The reference's run with its two results named: they are the specification's node and edge outputs of the arguments.
-/
import proofs.«411520_j71347996721296_1_alg».proof.Proof.RefRun
import proofs.«411520_j71347996721296_1_alg».proof.Proof.RefNode
import proofs.«411520_j71347996721296_1_alg».proof.Proof.RefEdge
import proofs.«411520_j71347996721296_1_alg».proof.Proof.Spec

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

theorem run (m : (ℓ : Loc nD τ sig) → Buf (Elt Ideal) ℓ) (ρ : Dev nD → PrngReg)
    (he : ∀ c : Dev nD, Cert.Spec.InRange (m ((c.tc : Thread nD τ).loc main_arg2))) :
    θ_run defs (onTc (τ := τ) (main (F := Ideal))) ⟨m, fun _ => 0, ρ⟩ fun r => ∀ c : Dev nD,
      r.2.mem ((c.tc : Thread nD τ).loc main_v58)
          = Cert.Spec.Xspec (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v96)
          = Cert.Spec.Espec (m ((c.tc : Thread nD τ).loc main_arg0)) (m ((c.tc : Thread nD τ).loc main_arg1))
              (m ((c.tc : Thread nD τ).loc main_arg2)) (m ((c.tc : Thread nD τ).loc main_arg7)) (m ((c.tc : Thread nD τ).loc main_arg8))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (RefRun.run (F := Ideal) m ρ)
  obtain ⟨k0, k1, k2, k3, k4, k5, k6, k7, k8⟩ := arg_kept (F := Ideal) (launchContents m c)
  have hN := Cert.ReferenceIdeal.RefNode.node_value ops_fresh (launchContents m c) (by rw [k2]; exact he c)
  have hE := Cert.ReferenceIdeal.RefEdge.edge_value ops_fresh (launchContents m c) (by rw [k2]; exact he c)
  rw [k0, k1, k2, k3, k4] at hN
  rw [k0, k1, k2, k7, k8, k5, k6] at hE
  exact ⟨(h c main_v58).trans hN, (h c main_v96).trans hE, (h c main_arg0).trans k0, (h c main_arg1).trans k1,
    (h c main_arg2).trans k2, (h c main_arg3).trans k3, (h c main_arg4).trans k4, (h c main_arg5).trans k5,
    (h c main_arg6).trans k6, (h c main_arg7).trans k7, (h c main_arg8).trans k8⟩

end Cert.ReferenceIdeal.RefVal

end
-- ==== Proof.lean ====
/-
  The kernel and its reference compute one graph layer.

  Per batch there are 1024 nodes with two feature rows each and 16384 edges with four feature rows each; an integer table
  gives every edge its two end nodes. The node output adds to each node row half the sum, over the edges touching the
  node at either end, of the edge's rows summed in pairs, and applies a linear map with a bias. The edge output applies
  two linear maps with biases to the sum of the two end nodes' rows, adding the edge's own row in between.

  The reference does this with scatter-adds and gathers over the whole arrays. The kernel walks each batch's edges in 32
  stretches of 512: it turns the end-node words of a stretch into indicator matrices and uses matrix products with them
  both to pick node rows and to add edge rows into a [1024, 256] accumulator that it carries from stretch to stretch
  (zeroed at a batch's first stretch), and writes the node output at a batch's last stretch. On the extended reals both
  are the specification of `Proof/Spec.lean`, entry by entry: a product with a 0/1 indicator is the entry or zero, the
  indicator sums re-index to the scatter's sums, and sums may be regrouped freely; no entry needs to be finite for that.
  The one thing needed of the inputs is that every end-node word is a node number (the precondition's last two
  conjuncts): outside that range the reference wraps and clamps indices where the kernel's indicators are simply zero.

  The frames of the two kernel programs are the generated ones; the reference's frame is its run with the values dropped.
-/
import proofs.«411520_j71347996721296_1_alg».proof.Defs
import proofs.«411520_j71347996721296_1_alg».proof.Proof.Gen.Kernel.Frame
import proofs.«411520_j71347996721296_1_alg».proof.Proof.Gen.KernelIdeal.Frame
import proofs.«411520_j71347996721296_1_alg».proof.Proof.Gen.ReferenceIdeal
import proofs.«411520_j71347996721296_1_alg».proof.Proof.Gen.Pre_finite_inputs
import proofs.«411520_j71347996721296_1_alg».proof.Proof.Spec
import proofs.«411520_j71347996721296_1_alg».proof.Proof.PreDecode
import proofs.«411520_j71347996721296_1_alg».proof.Proof.KerRun
import proofs.«411520_j71347996721296_1_alg».proof.Proof.RefVal

noncomputable section

namespace Cert.Proof

open Idealize.ShloMosaic Idealize.ShloMosaic.TcCoe Idealize.SL.Sem

/-- Under the precondition every end-node word of the kernel's table is a node number. -/
theorem inRange_kernel (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg2)) :=
  Cert.PreDecode.inRange_of_pre _ _ _ _ _ _ _ _ _ (h c)

/-- The same for the reference's table. -/
theorem inRange_reference (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Spec.InRange (m ((c.tc : Thread Cert.ReferenceIdeal.nD Cert.ReferenceIdeal.τ).loc Cert.ReferenceIdeal.main_arg2)) :=
  Cert.PreDecode.inRange_of_pre _ _ _ _ _ _ _ _ _ (h c)

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the two results forgotten. -/
theorem frame_ri : Cert.frame_ReferenceIdeal := fun m ρ hpre =>
  (θ_run Cert.ReferenceIdeal.defs _ _).mono (fun _ h c => (h c).2.2)
    (Cert.ReferenceIdeal.RefVal.run m ρ (inRange_reference m hpre))

/-- Both programs end with the specification's node and edge outputs of the (agreeing) arguments. -/
theorem algebraic : Cert.algebraic_KernelIdeal_ReferenceIdeal := by
  intro m ρ m' ρ' hpre hagree
  have he := inRange_kernel m hpre
  have he' : ∀ c : Dev Cert.ReferenceIdeal.nD,
      Cert.Spec.InRange (m' ((c.tc : Thread Cert.ReferenceIdeal.nD Cert.ReferenceIdeal.τ).loc Cert.ReferenceIdeal.main_arg2)) := by
    intro c
    rw [(hagree c).2.2.1]
    exact he c
  refine ⟨_, _, Cert.KernelIdeal.KRun.run m ρ he, ?_⟩
  refine (θ_run Cert.ReferenceIdeal.defs _ _).mono (fun r h c => ?_) (Cert.ReferenceIdeal.RefVal.run m' ρ' he')
  obtain ⟨h58, h96, hk⟩ := h c
  obtain ⟨g0, g1, g2, g3, g4, g5, g6, g7, g8⟩ := hagree c
  refine ⟨?_, ?_, hk⟩
  · rw [h58, g0, g1, g2, g3, g4]
  · rw [h96, g0, g1, g2, g5, g6, g7, g8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
